-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S3000x64 : Shape := ⟨2, ![3000, 64]⟩
abbrev S50000x1 : Shape := ⟨2, ![50000, 1]⟩
abbrev S3000x1 : Shape := ⟨2, ![3000, 1]⟩
abbrev S3000000 : Shape := ⟨1, ![3000000]⟩
abbrev S100000 : Shape := ⟨1, ![100000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3000x64 : S_.BroadcastsInDim S3000x64 (![] : Fin 0 → Fin S3000x64.rank)
  reducesTo_S3000x64_S_d0_1 : S3000x64.ReducesTo [0, 1] S_
  bcast_S_S50000x1 : S_.BroadcastsInDim S50000x1 (![] : Fin 0 → Fin S50000x1.rank)
  reducesTo_S50000x1_S_d0_1 : S50000x1.ReducesTo [0, 1] S_
  bcast_S_S3000x1 : S_.BroadcastsInDim S3000x1 (![] : Fin 0 → Fin S3000x1.rank)
  reducesTo_S3000x1_S_d0_1 : S3000x1.ReducesTo [0, 1] S_
  bcast_S_S3000000 : S_.BroadcastsInDim S3000000 (![] : Fin 0 → Fin S3000000.rank)
  reducesTo_S3000000_S_d0 : S3000000.ReducesTo [0] S_
  bcast_S_S100000 : S_.BroadcastsInDim S100000 (![] : Fin 0 → Fin S100000.rank)
  reducesTo_S100000_S_d0 : S100000.ReducesTo [0] S_

variable [Facts]

def fn_part5 {F : FTy → Type} [FloatOps F] (main_arg15 : IVec S100000 32) (main_arg16 : IVec S100000 32) (main_v81 : IVec S_ 1) (main_v83 : IVec S100000 1) (main_c_33 : IVec S_ 32) : IVec S_ 1 :=
  let main_v84 : IVec S100000 32 := broadcastInDim S100000 ![] bcast_S_S100000 main_c_33
  let main_v85 : IVec S100000 1 := cmpi .slt main_arg15 main_v84
  let main_v86 : IVec S100000 1 := andi main_v83 main_v85
  let main_c_34 : IVec S_ 1 := constantI S_ 1 1#1
  let main_v87 : IVec S_ 1 := (fun x v => Host.reduce IntOp.andi x v reducesTo_S100000_S_d0 h_S_) main_v86 main_c_34
  let main_v88 : IVec S_ 1 := andi main_v81 main_v87
  let main_c_35 : IVec S_ 32 := constantI S_ 32 0#32
  let main_v89 : IVec S100000 32 := broadcastInDim S100000 ![] bcast_S_S100000 main_c_35
  let main_v90 : IVec S100000 1 := cmpi .sge main_arg16 main_v89
  let main_c_36 : IVec S_ 32 := constantI S_ 32 3000#32
  let main_v91 : IVec S100000 32 := broadcastInDim S100000 ![] bcast_S_S100000 main_c_36
  let main_v92 : IVec S100000 1 := cmpi .slt main_arg16 main_v91
  let main_v93 : IVec S100000 1 := andi main_v90 main_v92
  let main_c_37 : IVec S_ 1 := constantI S_ 1 1#1
  let main_v94 : IVec S_ 1 := (fun x v => Host.reduce IntOp.andi x v reducesTo_S100000_S_d0 h_S_) main_v93 main_c_37
  let main_v95 : IVec S_ 1 := andi main_v88 main_v94
  main_v95

def fn_part4 {F : FTy → Type} [FloatOps F] (main_arg13 : IVec S3000000 32) (main_arg14 : IVec S3000000 32) (main_arg15 : IVec S100000 32) (main_arg16 : IVec S100000 32) (main_v67 : IVec S_ 1) : IVec S_ 1 :=
  let main_c_26 : IVec S_ 32 := constantI S_ 32 0#32
  let main_v68 : IVec S3000000 32 := broadcastInDim S3000000 ![] bcast_S_S3000000 main_c_26
  let main_v69 : IVec S3000000 1 := cmpi .sge main_arg13 main_v68
  let main_c_27 : IVec S_ 32 := constantI S_ 32 3000#32
  let main_v70 : IVec S3000000 32 := broadcastInDim S3000000 ![] bcast_S_S3000000 main_c_27
  let main_v71 : IVec S3000000 1 := cmpi .slt main_arg13 main_v70
  let main_v72 : IVec S3000000 1 := andi main_v69 main_v71
  let main_c_28 : IVec S_ 1 := constantI S_ 1 1#1
  let main_v73 : IVec S_ 1 := (fun x v => Host.reduce IntOp.andi x v reducesTo_S3000000_S_d0 h_S_) main_v72 main_c_28
  let main_v74 : IVec S_ 1 := andi main_v67 main_v73
  let main_c_29 : IVec S_ 32 := constantI S_ 32 0#32
  let main_v75 : IVec S3000000 32 := broadcastInDim S3000000 ![] bcast_S_S3000000 main_c_29
  let main_v76 : IVec S3000000 1 := cmpi .sge main_arg14 main_v75
  let main_c_30 : IVec S_ 32 := constantI S_ 32 50000#32
  let main_v77 : IVec S3000000 32 := broadcastInDim S3000000 ![] bcast_S_S3000000 main_c_30
  let main_v78 : IVec S3000000 1 := cmpi .slt main_arg14 main_v77
  let main_v79 : IVec S3000000 1 := andi main_v76 main_v78
  let main_c_31 : IVec S_ 1 := constantI S_ 1 1#1
  let main_v80 : IVec S_ 1 := (fun x v => Host.reduce IntOp.andi x v reducesTo_S3000000_S_d0 h_S_) main_v79 main_c_31
  let main_v81 : IVec S_ 1 := andi main_v74 main_v80
  let main_c_32 : IVec S_ 32 := constantI S_ 32 0#32
  let main_v82 : IVec S100000 32 := broadcastInDim S100000 ![] bcast_S_S100000 main_c_32
  let main_v83 : IVec S100000 1 := cmpi .sge main_arg15 main_v82
  let main_c_33 : IVec S_ 32 := constantI S_ 32 3000#32
  fn_part5 (F := F) main_arg15 main_arg16 main_v81 main_v83 main_c_33

def fn_part3 {F : FTy → Type} [FloatOps F] (main_arg11 : IVec S3000000 32) (main_arg12 : IVec S3000000 32) (main_arg13 : IVec S3000000 32) (main_arg14 : IVec S3000000 32) (main_arg15 : IVec S100000 32) (main_arg16 : IVec S100000 32) (main_v48 : IVec S_ 1) (main_v49 : FVec F S3000x1 .f32) (main_v50 : FVec F S3000x1 .f32) : IVec S_ 1 :=
  let main_v51 : IVec S3000x1 1 := cmpf .olt main_v49 main_v50
  let main_c_19 : IVec S_ 1 := constantI S_ 1 1#1
  let main_v52 : IVec S_ 1 := (fun x v => Host.reduce IntOp.andi x v reducesTo_S3000x1_S_d0_1 h_S_) main_v51 main_c_19
  let main_v53 : IVec S_ 1 := andi main_v48 main_v52
  let main_c_20 : IVec S_ 32 := constantI S_ 32 0#32
  let main_v54 : IVec S3000000 32 := broadcastInDim S3000000 ![] bcast_S_S3000000 main_c_20
  let main_v55 : IVec S3000000 1 := cmpi .sge main_arg11 main_v54
  let main_c_21 : IVec S_ 32 := constantI S_ 32 50000#32
  let main_v56 : IVec S3000000 32 := broadcastInDim S3000000 ![] bcast_S_S3000000 main_c_21
  let main_v57 : IVec S3000000 1 := cmpi .slt main_arg11 main_v56
  let main_v58 : IVec S3000000 1 := andi main_v55 main_v57
  let main_c_22 : IVec S_ 1 := constantI S_ 1 1#1
  let main_v59 : IVec S_ 1 := (fun x v => Host.reduce IntOp.andi x v reducesTo_S3000000_S_d0 h_S_) main_v58 main_c_22
  let main_v60 : IVec S_ 1 := andi main_v53 main_v59
  let main_c_23 : IVec S_ 32 := constantI S_ 32 0#32
  let main_v61 : IVec S3000000 32 := broadcastInDim S3000000 ![] bcast_S_S3000000 main_c_23
  let main_v62 : IVec S3000000 1 := cmpi .sge main_arg12 main_v61
  let main_c_24 : IVec S_ 32 := constantI S_ 32 3000#32
  let main_v63 : IVec S3000000 32 := broadcastInDim S3000000 ![] bcast_S_S3000000 main_c_24
  let main_v64 : IVec S3000000 1 := cmpi .slt main_arg12 main_v63
  let main_v65 : IVec S3000000 1 := andi main_v62 main_v64
  let main_c_25 : IVec S_ 1 := constantI S_ 1 1#1
  let main_v66 : IVec S_ 1 := (fun x v => Host.reduce IntOp.andi x v reducesTo_S3000000_S_d0 h_S_) main_v65 main_c_25
  let main_v67 : IVec S_ 1 := andi main_v60 main_v66
  fn_part4 (F := F) main_arg13 main_arg14 main_arg15 main_arg16 main_v67

def fn_part2 {F : FTy → Type} [FloatOps F] (main_arg7 : FVec F S3000x1 .f32) (main_arg8 : FVec F S50000x1 .f32) (main_arg9 : FVec F S3000x1 .f32) (main_arg10 : FVec F S3000x1 .f32) (main_arg11 : IVec S3000000 32) (main_arg12 : IVec S3000000 32) (main_arg13 : IVec S3000000 32) (main_arg14 : IVec S3000000 32) (main_arg15 : IVec S100000 32) (main_arg16 : IVec S100000 32) (main_v33 : IVec S_ 1) : IVec S_ 1 :=
  let main_v34 : FVec F S3000x1 .f32 := Host.absf main_arg7
  let main_cst_12 : FVec F S_ .f32 := constant S_ .f32 0x7F800000#32
  let main_v35 : FVec F S3000x1 .f32 := broadcastInDim S3000x1 ![] bcast_S_S3000x1 main_cst_12
  let main_v36 : IVec S3000x1 1 := cmpf .olt main_v34 main_v35
  let main_c_13 : IVec S_ 1 := constantI S_ 1 1#1
  let main_v37 : IVec S_ 1 := (fun x v => Host.reduce IntOp.andi x v reducesTo_S3000x1_S_d0_1 h_S_) main_v36 main_c_13
  let main_v38 : IVec S_ 1 := andi main_v33 main_v37
  let main_v39 : FVec F S50000x1 .f32 := Host.absf main_arg8
  let main_cst_14 : FVec F S_ .f32 := constant S_ .f32 0x7F800000#32
  let main_v40 : FVec F S50000x1 .f32 := broadcastInDim S50000x1 ![] bcast_S_S50000x1 main_cst_14
  let main_v41 : IVec S50000x1 1 := cmpf .olt main_v39 main_v40
  let main_c_15 : IVec S_ 1 := constantI S_ 1 1#1
  let main_v42 : IVec S_ 1 := (fun x v => Host.reduce IntOp.andi x v reducesTo_S50000x1_S_d0_1 h_S_) main_v41 main_c_15
  let main_v43 : IVec S_ 1 := andi main_v38 main_v42
  let main_v44 : FVec F S3000x1 .f32 := Host.absf main_arg9
  let main_cst_16 : FVec F S_ .f32 := constant S_ .f32 0x7F800000#32
  let main_v45 : FVec F S3000x1 .f32 := broadcastInDim S3000x1 ![] bcast_S_S3000x1 main_cst_16
  let main_v46 : IVec S3000x1 1 := cmpf .olt main_v44 main_v45
  let main_c_17 : IVec S_ 1 := constantI S_ 1 1#1
  let main_v47 : IVec S_ 1 := (fun x v => Host.reduce IntOp.andi x v reducesTo_S3000x1_S_d0_1 h_S_) main_v46 main_c_17
  let main_v48 : IVec S_ 1 := andi main_v43 main_v47
  let main_v49 : FVec F S3000x1 .f32 := Host.absf main_arg10
  let main_cst_18 : FVec F S_ .f32 := constant S_ .f32 0x7F800000#32
  let main_v50 : FVec F S3000x1 .f32 := broadcastInDim S3000x1 ![] bcast_S_S3000x1 main_cst_18
  fn_part3 (F := F) main_arg11 main_arg12 main_arg13 main_arg14 main_arg15 main_arg16 main_v48 main_v49 main_v50

def fn_part1 {F : FTy → Type} [FloatOps F] (main_arg4 : FVec F S3000x1 .f32) (main_arg5 : FVec F S3000x1 .f32) (main_arg6 : FVec F S3000x1 .f32) (main_arg7 : FVec F S3000x1 .f32) (main_arg8 : FVec F S50000x1 .f32) (main_arg9 : FVec F S3000x1 .f32) (main_arg10 : FVec F S3000x1 .f32) (main_arg11 : IVec S3000000 32) (main_arg12 : IVec S3000000 32) (main_arg13 : IVec S3000000 32) (main_arg14 : IVec S3000000 32) (main_arg15 : IVec S100000 32) (main_arg16 : IVec S100000 32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S3000x1 .f32 := Host.absf main_arg4
  let main_cst_6 : FVec F S_ .f32 := constant S_ .f32 0x7F800000#32
  let main_v20 : FVec F S3000x1 .f32 := broadcastInDim S3000x1 ![] bcast_S_S3000x1 main_cst_6
  let main_v21 : IVec S3000x1 1 := cmpf .olt main_v19 main_v20
  let main_c_7 : IVec S_ 1 := constantI S_ 1 1#1
  let main_v22 : IVec S_ 1 := (fun x v => Host.reduce IntOp.andi x v reducesTo_S3000x1_S_d0_1 h_S_) main_v21 main_c_7
  let main_v23 : IVec S_ 1 := andi main_v18 main_v22
  let main_v24 : FVec F S3000x1 .f32 := Host.absf main_arg5
  let main_cst_8 : FVec F S_ .f32 := constant S_ .f32 0x7F800000#32
  let main_v25 : FVec F S3000x1 .f32 := broadcastInDim S3000x1 ![] bcast_S_S3000x1 main_cst_8
  let main_v26 : IVec S3000x1 1 := cmpf .olt main_v24 main_v25
  let main_c_9 : IVec S_ 1 := constantI S_ 1 1#1
  let main_v27 : IVec S_ 1 := (fun x v => Host.reduce IntOp.andi x v reducesTo_S3000x1_S_d0_1 h_S_) main_v26 main_c_9
  let main_v28 : IVec S_ 1 := andi main_v23 main_v27
  let main_v29 : FVec F S3000x1 .f32 := Host.absf main_arg6
  let main_cst_10 : FVec F S_ .f32 := constant S_ .f32 0x7F800000#32
  let main_v30 : FVec F S3000x1 .f32 := broadcastInDim S3000x1 ![] bcast_S_S3000x1 main_cst_10
  let main_v31 : IVec S3000x1 1 := cmpf .olt main_v29 main_v30
  let main_c_11 : IVec S_ 1 := constantI S_ 1 1#1
  let main_v32 : IVec S_ 1 := (fun x v => Host.reduce IntOp.andi x v reducesTo_S3000x1_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S50000x64 .f32) (main_arg1 : FVec F S3000x64 .f32) (main_arg2 : FVec F S50000x1 .f32) (main_arg3 : FVec F S50000x1 .f32) (main_arg4 : FVec F S3000x1 .f32) (main_arg5 : FVec F S3000x1 .f32) (main_arg6 : FVec F S3000x1 .f32) (main_arg7 : FVec F S3000x1 .f32) (main_arg8 : FVec F S50000x1 .f32) (main_arg9 : FVec F S3000x1 .f32) (main_arg10 : FVec F S3000x1 .f32) (main_arg11 : IVec S3000000 32) (main_arg12 : IVec S3000000 32) (main_arg13 : IVec S3000000 32) (main_arg14 : IVec S3000000 32) (main_arg15 : IVec S100000 32) (main_arg16 : IVec S100000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3000x64 .f32 := Host.absf main_arg1
  let main_cst_0 : FVec F S_ .f32 := constant S_ .f32 0x7F800000#32
  let main_v5 : FVec F S3000x64 .f32 := broadcastInDim S3000x64 ![] bcast_S_S3000x64 main_cst_0
  let main_v6 : IVec S3000x64 1 := cmpf .olt main_v4 main_v5
  let main_c_1 : IVec S_ 1 := constantI S_ 1 1#1
  let main_v7 : IVec S_ 1 := (fun x v => Host.reduce IntOp.andi x v reducesTo_S3000x64_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S3000x64 : Shape := ⟨2, ![3000, 64]⟩
abbrev S50000x1 : Shape := ⟨2, ![50000, 1]⟩
abbrev S3000x1 : Shape := ⟨2, ![3000, 1]⟩
abbrev S3000000 : Shape := ⟨1, ![3000000]⟩
abbrev S100000 : Shape := ⟨1, ![100000]⟩
abbrev S_ : Shape := ⟨0, ![]⟩
abbrev S51200x64 : Shape := ⟨2, ![51200, 64]⟩
abbrev S3000x51200 : Shape := ⟨2, ![3000, 51200]⟩
abbrev S3000000x1 : Shape := ⟨2, ![3000000, 1]⟩
abbrev S3000000x2 : Shape := ⟨2, ![3000000, 2]⟩
abbrev S3000x1280 : Shape := ⟨2, ![3000, 1280]⟩
abbrev S1280x64 : Shape := ⟨2, ![1280, 64]⟩
abbrev S3072x64 : Shape := ⟨2, ![3072, 64]⟩
abbrev S50000x3072 : Shape := ⟨2, ![50000, 3072]⟩
abbrev S1000x3072 : Shape := ⟨2, ![1000, 3072]⟩
abbrev S1000x64 : Shape := ⟨2, ![1000, 64]⟩
abbrev S3000x3072 : Shape := ⟨2, ![3000, 3072]⟩
abbrev S100000x1 : Shape := ⟨2, ![100000, 1]⟩
abbrev S100000x2 : Shape := ⟨2, ![100000, 2]⟩

abbrev nBuf : Space → Nat
  | .hbm => 123
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S3000x64, .f32⟩
  | .hbm, ⟨2, _⟩ => ⟨S50000x1, .f32⟩
  | .hbm, ⟨3, _⟩ => ⟨S50000x1, .f32⟩
  | .hbm, ⟨4, _⟩ => ⟨S3000x1, .f32⟩
  | .hbm, ⟨5, _⟩ => ⟨S3000x1, .f32⟩
  | .hbm, ⟨6, _⟩ => ⟨S3000x1, .f32⟩
  | .hbm, ⟨7, _⟩ => ⟨S3000x1, .f32⟩
  | .hbm, ⟨8, _⟩ => ⟨S50000x1, .f32⟩
  | .hbm, ⟨9, _⟩ => ⟨S3000x1, .f32⟩
  | .hbm, ⟨10, _⟩ => ⟨S3000x1, .f32⟩
  | .hbm, ⟨11, _⟩ => ⟨S3000000, .i32⟩
  | .hbm, ⟨12, _⟩ => ⟨S3000000, .i32⟩
  | .hbm, ⟨13, _⟩ => ⟨S3000000, .i32⟩
  | .hbm, ⟨14, _⟩ => ⟨S3000000, .i32⟩
  | .hbm, ⟨15, _⟩ => ⟨S100000, .i32⟩
  | .hbm, ⟨16, _⟩ => ⟨S100000, .i32⟩
  | .hbm, ⟨17, _⟩ => ⟨S50000x1, .f32⟩
  | .hbm, ⟨18, _⟩ => ⟨S50000x64, .f32⟩
  | .hbm, ⟨19, _⟩ => ⟨S50000x64, .f32⟩
  | .hbm, ⟨20, _⟩ => ⟨S_, .i32⟩
  | .hbm, ⟨21, _⟩ => ⟨S_, .f32⟩
  | .hbm, ⟨22, _⟩ => ⟨S51200x64, .f32⟩
  | .hbm, ⟨23, _⟩ => ⟨S51200x64, .bf16⟩
  | .hbm, ⟨24, _⟩ => ⟨S_, .f32⟩
  | .hbm, ⟨25, _⟩ => ⟨S3000x51200, .f32⟩
  | .hbm, ⟨26, _⟩ => ⟨S_, .i32⟩
  | .hbm, ⟨27, _⟩ => ⟨S3000000, .i32⟩
  | .hbm, ⟨28, _⟩ => ⟨S3000000, .i1⟩
  | .hbm, ⟨29, _⟩ => ⟨S_, .i32⟩
  | .hbm, ⟨30, _⟩ => ⟨S3000000, .i32⟩
  | .hbm, ⟨31, _⟩ => ⟨S3000000, .i32⟩
  | .hbm, ⟨32, _⟩ => ⟨S3000000, .i32⟩
  | .hbm, ⟨33, _⟩ => ⟨S_, .i32⟩
  | .hbm, ⟨34, _⟩ => ⟨S3000000, .i32⟩
  | .hbm, ⟨35, _⟩ => ⟨S3000000, .i1⟩
  | .hbm, ⟨36, _⟩ => ⟨S_, .i32⟩
  | .hbm, ⟨37, _⟩ => ⟨S3000000, .i32⟩
  | .hbm, ⟨38, _⟩ => ⟨S3000000, .i32⟩
  | .hbm, ⟨39, _⟩ => ⟨S3000000, .i32⟩
  | .hbm, ⟨40, _⟩ => ⟨S3000000x1, .i32⟩
  | .hbm, ⟨41, _⟩ => ⟨S3000000x1, .i32⟩
  | .hbm, ⟨42, _⟩ => ⟨S3000000x2, .i32⟩
  | .hbm, ⟨43, _⟩ => ⟨S_, .f32⟩
  | .hbm, ⟨44, _⟩ => ⟨S3000000, .f32⟩
  | .hbm, ⟨45, _⟩ => ⟨S3000x51200, .f32⟩
  | .hbm, ⟨46, _⟩ => ⟨S3000x51200, .bf16⟩
  | .hbm, ⟨47, _⟩ => ⟨S3000x64, .f32⟩
  | .hbm, ⟨48, _⟩ => ⟨S3000x64, .f32⟩
  | .hbm, ⟨49, _⟩ => ⟨S3000x64, .f32⟩
  | .hbm, ⟨50, _⟩ => ⟨S3000x1, .f32⟩
  | .hbm, ⟨51, _⟩ => ⟨S3000x64, .f32⟩
  | .hbm, ⟨52, _⟩ => ⟨S3000x64, .f32⟩
  | .hbm, ⟨53, _⟩ => ⟨S_, .i32⟩
  | .hbm, ⟨54, _⟩ => ⟨S_, .f32⟩
  | .hbm, ⟨55, _⟩ => ⟨S3072x64, .f32⟩
  | .hbm, ⟨56, _⟩ => ⟨S3072x64, .bf16⟩
  | .hbm, ⟨57, _⟩ => ⟨S_, .f32⟩
  | .hbm, ⟨58, _⟩ => ⟨S50000x3072, .f32⟩
  | .hbm, ⟨59, _⟩ => ⟨S_, .i32⟩
  | .hbm, ⟨60, _⟩ => ⟨S3000000, .i32⟩
  | .hbm, ⟨61, _⟩ => ⟨S3000000, .i1⟩
  | .hbm, ⟨62, _⟩ => ⟨S_, .i32⟩
  | .hbm, ⟨63, _⟩ => ⟨S3000000, .i32⟩
  | .hbm, ⟨64, _⟩ => ⟨S3000000, .i32⟩
  | .hbm, ⟨65, _⟩ => ⟨S3000000, .i32⟩
  | .hbm, ⟨66, _⟩ => ⟨S_, .i32⟩
  | .hbm, ⟨67, _⟩ => ⟨S3000000, .i32⟩
  | .hbm, ⟨68, _⟩ => ⟨S3000000, .i1⟩
  | .hbm, ⟨69, _⟩ => ⟨S_, .i32⟩
  | .hbm, ⟨70, _⟩ => ⟨S3000000, .i32⟩
  | .hbm, ⟨71, _⟩ => ⟨S3000000, .i32⟩
  | .hbm, ⟨72, _⟩ => ⟨S3000000, .i32⟩
  | .hbm, ⟨73, _⟩ => ⟨S3000000x1, .i32⟩
  | .hbm, ⟨74, _⟩ => ⟨S3000000x1, .i32⟩
  | .hbm, ⟨75, _⟩ => ⟨S3000000x2, .i32⟩
  | .hbm, ⟨76, _⟩ => ⟨S_, .f32⟩
  | .hbm, ⟨77, _⟩ => ⟨S3000000, .f32⟩
  | .hbm, ⟨78, _⟩ => ⟨S50000x3072, .f32⟩
  | .hbm, ⟨79, _⟩ => ⟨S50000x3072, .bf16⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S3000x1, .f32⟩
  | .hbm, ⟨84, _⟩ => ⟨S3000x64, .f32⟩
  | .hbm, ⟨85, _⟩ => ⟨S3000x64, .f32⟩
  | .hbm, ⟨86, _⟩ => ⟨S_, .i32⟩
  | .hbm, ⟨87, _⟩ => ⟨S_, .f32⟩
  | .hbm, ⟨88, _⟩ => ⟨S3072x64, .f32⟩
  | .hbm, ⟨89, _⟩ => ⟨S3072x64, .bf16⟩
  | .hbm, ⟨90, _⟩ => ⟨S_, .f32⟩
  | .hbm, ⟨91, _⟩ => ⟨S3000x3072, .f32⟩
  | .hbm, ⟨92, _⟩ => ⟨S_, .i32⟩
  | .hbm, ⟨93, _⟩ => ⟨S100000, .i32⟩
  | .hbm, ⟨94, _⟩ => ⟨S100000, .i1⟩
  | .hbm, ⟨95, _⟩ => ⟨S_, .i32⟩
  | .hbm, ⟨96, _⟩ => ⟨S100000, .i32⟩
  | .hbm, ⟨97, _⟩ => ⟨S100000, .i32⟩
  | .hbm, ⟨98, _⟩ => ⟨S100000, .i32⟩
  | .hbm, ⟨99, _⟩ => ⟨S_, .i32⟩
  | .hbm, ⟨100, _⟩ => ⟨S100000, .i32⟩
  | .hbm, ⟨101, _⟩ => ⟨S100000, .i1⟩
  | .hbm, ⟨102, _⟩ => ⟨S_, .i32⟩
  | .hbm, ⟨103, _⟩ => ⟨S100000, .i32⟩
  | .hbm, ⟨104, _⟩ => ⟨S100000, .i32⟩
  | .hbm, ⟨105, _⟩ => ⟨S100000, .i32⟩
  | .hbm, ⟨106, _⟩ => ⟨S100000x1, .i32⟩
  | .hbm, ⟨107, _⟩ => ⟨S100000x1, .i32⟩
  | .hbm, ⟨108, _⟩ => ⟨S100000x2, .i32⟩
  | .hbm, ⟨109, _⟩ => ⟨S_, .f32⟩
  | .hbm, ⟨110, _⟩ => ⟨S100000, .f32⟩
  | .hbm, ⟨111, _⟩ => ⟨S3000x3072, .f32⟩
  | .hbm, ⟨112, _⟩ => ⟨S3000x3072, .bf16⟩
  | .hbm, ⟨113, _⟩ => ⟨S3000x64, .f32⟩
  | .hbm, ⟨114, _⟩ => ⟨S3000x64, .f32⟩
  | .hbm, ⟨115, _⟩ => ⟨S3000x64, .f32⟩
  | .hbm, ⟨116, _⟩ => ⟨S_, .f32⟩
  | .hbm, ⟨117, _⟩ => ⟨S3000x64, .f32⟩
  | .hbm, ⟨118, _⟩ => ⟨S3000x64, .f32⟩
  | .hbm, ⟨119, _⟩ => ⟨S_, .f32⟩
  | .hbm, ⟨120, _⟩ => ⟨S3000x64, .f32⟩
  | .hbm, ⟨121, _⟩ => ⟨S3000x64, .f32⟩
  | .hbm, ⟨122, _⟩ => ⟨S3000x64, .f32⟩
  | .local _ .vmem, ⟨0, _⟩ => ⟨S3000x1280, .bf16⟩
  | .local _ .vmem, ⟨1, _⟩ => ⟨S3000x1280, .bf16⟩
  | .local _ .vmem, ⟨2, _⟩ => ⟨S1280x64, .bf16⟩
  | .local _ .vmem, ⟨3, _⟩ => ⟨S1280x64, .bf16⟩
  | .local _ .vmem, ⟨4, _⟩ => ⟨S3000x64, .f32⟩
  | .local _ .vmem, ⟨5, _⟩ => ⟨S3000x64, .f32⟩
  | .local _ .vmem, ⟨6, _⟩ => ⟨S1000x3072, .bf16⟩
  | .local _ .vmem, ⟨7, _⟩ => ⟨S1000x3072, .bf16⟩
  | .local _ .vmem, ⟨8, _⟩ => ⟨S3072x64, .bf16⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x3072, .bf16⟩
  | .local _ .vmem, ⟨13, _⟩ => ⟨S1000x3072, .bf16⟩
  | .local _ .vmem, ⟨14, _⟩ => ⟨S3072x64, .bf16⟩
  | .local _ .vmem, ⟨15, _⟩ => ⟨S1000x64, .f32⟩
  | .local _ .vmem, ⟨16, _⟩ => ⟨S1000x64, .f32⟩
  | .local _ .vmem, ⟨17, _⟩ => ⟨S1000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call0_v0 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_2 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_call1_v0 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_9 : Ref sig .tc := ⟨.hbm, 66, rfl⟩
abbrev main_v36 : Ref sig .tc := ⟨.hbm, 67, rfl⟩
abbrev main_v37 : Ref sig .tc := ⟨.hbm, 68, rfl⟩
abbrev main_c_10 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_12 : Ref sig .tc := ⟨.hbm, 86, rfl⟩
abbrev main_call2_v0 : Ref sig .tc := ⟨.hbm, 87, rfl⟩
abbrev main_v53 : Ref sig .tc := ⟨.hbm, 88, rfl⟩
abbrev main_v54 : Ref sig .tc := ⟨.hbm, 89, rfl⟩
abbrev main_cst_13 : Ref sig .tc := ⟨.hbm, 90, rfl⟩
abbrev main_v55 : Ref sig .tc := ⟨.hbm, 91, rfl⟩
abbrev main_c_14 : Ref sig .tc := ⟨.hbm, 92, rfl⟩
abbrev main_v56 : Ref sig .tc := ⟨.hbm, 93, rfl⟩
abbrev main_v57 : Ref sig .tc := ⟨.hbm, 94, rfl⟩
abbrev main_c_15 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_16 : Ref sig .tc := ⟨.hbm, 99, rfl⟩
abbrev main_v61 : Ref sig .tc := ⟨.hbm, 100, rfl⟩
abbrev main_v62 : Ref sig .tc := ⟨.hbm, 101, rfl⟩
abbrev main_c_17 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_18 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_19 : Ref sig .tc := ⟨.hbm, 116, rfl⟩
abbrev main_v75 : Ref sig .tc := ⟨.hbm, 117, rfl⟩
abbrev main_v76 : Ref sig .tc := ⟨.hbm, 118, rfl⟩
abbrev main_cst_20 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨2, ![1, 40], ![false, false]⟩

def k0_cond2 (i : grid0.Coords) : BitVec 1 :=
  let arg1 : BitVec 32 := BitVec.ofNat 32 (i 1).val
  let c39_i32 : BitVec 32 := 39#32
  let v13 : BitVec 1 := Scalar.cmpi .eq arg1 c39_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3000x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S3000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev grid1 : Pipeline.Grid := ⟨2, ![50, 1], ![false, false]⟩

def k1_cond2 (i : grid1.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1000x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S3072x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![3, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1000x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S3072x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bcast_S50000x1_S50000x64_0_1 : S50000x1.BroadcastsInDim S50000x64 (![0, 1] : Fin 2 → Fin S50000x64.rank)
  pads_S50000x64_S51200x64_012000_000 : S50000x64.Pads (![0, 0] : Fin 2 → Nat) ![1200, 0] ![0, 0] S51200x64
  h_S_ : 0 < S_.numel
  bitsLt_bf16_f32 : FTy.bits .bf16 < FTy.bits .f32
  bcast_S_S3000x51200 : S_.BroadcastsInDim S3000x51200 (![] : Fin 0 → Fin S3000x51200.rank)
  bcast_S_S3000000 : S_.BroadcastsInDim S3000000 (![] : Fin 0 → Fin S3000000.rank)
  bcast_S3000000_S3000000x1_0 : S3000000.BroadcastsInDim S3000000x1 (![0] : Fin 1 → Fin S3000000x1.rank)
  concatenates_S3000000x1_S3000000x1_S3000000x2_d1 : Shape.Concatenates [S3000000x1, S3000000x1] S3000000x2 1
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  inb_S3000x1280_S3000x1280_0_0 : ∀ a, (![0, 0] : Fin 2 → Nat) a + S3000x1280.size a ≤ S3000x1280.size a
  h_S3000x1280 : 0 < S3000x1280.numel
  shapeCasts_S3000x1280_S3000x1280 : S3000x1280.ShapeCasts S3000x1280
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  bcast_S3000x1_S3000x64_0_1 : S3000x1.BroadcastsInDim S3000x64 (![0, 1] : Fin 2 → Fin S3000x64.rank)
  pads_S3000x64_S3072x64_0720_000 : S3000x64.Pads (![0, 0] : Fin 2 → Nat) ![72, 0] ![0, 0] S3072x64
  bcast_S_S50000x3072 : S_.BroadcastsInDim S50000x3072 (![] : Fin 0 → Fin S50000x3072.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x3072_S1000x3072_0_0 : ∀ a, (![0, 0] : Fin 2 → Nat) a + S1000x3072.size a ≤ S1000x3072.size a
  h_S1000x3072 : 0 < S1000x3072.numel
  shapeCasts_S1000x3072_S1000x3072 : S1000x3072.ShapeCasts S1000x3072
  inb_S3072x64_S3072x64_0_0 : ∀ a, (![0, 0] : Fin 2 → Nat) a + S3072x64.size a ≤ S3072x64.size a
  h_S3072x64 : 0 < S3072x64.numel
  shapeCasts_S3072x64_S3072x64 : S3072x64.ShapeCasts S3072x64
  bcast_S_S3000x3072 : S_.BroadcastsInDim S3000x3072 (![] : Fin 0 → Fin S3000x3072.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S_S3000x64 : S_.BroadcastsInDim S3000x64 (![] : Fin 0 → Fin S3000x64.rank)
  scatter_S3000x51200_S3000000x2_S3000000_n_01_01_1_wf : ScatterDims.WF S3000x51200 S3000000x2 S3000000 [] [0, 1] [0, 1] 1
  dot_S3000x1280_S1280x64_S3000x64_1_0_0_1_n_n_wf : DotDims.WF S3000x1280 S1280x64 S3000x64 [1] [0] [0] [1] [] []
  scatter_S50000x3072_S3000000x2_S3000000_n_01_01_1_wf : ScatterDims.WF S50000x3072 S3000000x2 S3000000 [] [0, 1] [0, 1] 1
  dot_S1000x3072_S3072x64_S1000x64_1_0_0_1_n_n_wf : DotDims.WF S1000x3072 S3072x64 S1000x64 [1] [0] [0] [1] [] []
  scatter_S3000x3072_S100000x2_S100000_n_01_01_1_wf : ScatterDims.WF S3000x3072 S100000x2 S100000 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x1280.size a ≤ S3000x51200.size a
  hwx0_0 : ∀ i : grid0.Coords, EltTy.bits .bf16 = 32 ∨ (Rect.block (s := S3000x51200) S3000x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x64.size a ≤ S51200x64.size a
  hwx0_1 : ∀ i : grid0.Coords, EltTy.bits .bf16 = 32 ∨ (Rect.block (s := S51200x64) S1280x64.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S3000x64.size a
  hwx0_2 : ∀ i : grid0.Coords, EltTy.bits .f32 = 32 ∨ (Rect.block (s := S3000x64) S3000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x3072.size a ≤ S50000x3072.size a
  hwx1_0 : ∀ i : grid1.Coords, EltTy.bits .bf16 = 32 ∨ (Rect.block (s := S50000x3072) S1000x3072.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S3072x64.size a ≤ S3072x64.size a
  hwx1_1 : ∀ i : grid1.Coords, EltTy.bits .bf16 = 32 ∨ (Rect.block (s := S3072x64) S3072x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S50000x64.size a
  hwx1_2 : ∀ i : grid1.Coords, EltTy.bits .f32 = 32 ∨ (Rect.block (s := S50000x64) S1000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x3072.size a ≤ S3000x3072.size a
  hwx2_0 : ∀ i : grid2.Coords, EltTy.bits .bf16 = 32 ∨ (Rect.block (s := S3000x3072) S1000x3072.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S3072x64.size a ≤ S3072x64.size a
  hwx2_1 : ∀ i : grid2.Coords, EltTy.bits .bf16 = 32 ∨ (Rect.block (s := S3072x64) S3072x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S3000x64.size a
  hwx2_2 : ∀ i : grid2.Coords, EltTy.bits .f32 = 32 ∨ (Rect.block (s := S3000x64) S1000x64.size (cc2_transform_2 i) (hinb2_2 i)).WholeWords (EltTy.packing .f32)

variable [Facts₀]

def scatter_S3000x51200_S3000000x2_S3000000_n_01_01_1 : ScatterDims S3000x51200 S3000000x2 S3000000 where
  updateWindowDims := []
  insertedWindowDims := [0, 1]
  scatterDimsToOperandDims := [0, 1]
  indexVectorDim := 1
  wf := scatter_S3000x51200_S3000000x2_S3000000_n_01_01_1_wf
def dot_S3000x1280_S1280x64_S3000x64_1_0_0_1_n_n : DotDims S3000x1280 S1280x64 S3000x64 where
  lhsContracting := [1]
  rhsContracting := [0]
  lhsNonContracting := [0]
  rhsNonContracting := [1]
  lhsBatch := []
  rhsBatch := []
  wf := dot_S3000x1280_S1280x64_S3000x64_1_0_0_1_n_n_wf
def scatter_S50000x3072_S3000000x2_S3000000_n_01_01_1 : ScatterDims S50000x3072 S3000000x2 S3000000 where
  updateWindowDims := []
  insertedWindowDims := [0, 1]
  scatterDimsToOperandDims := [0, 1]
  indexVectorDim := 1
  wf := scatter_S50000x3072_S3000000x2_S3000000_n_01_01_1_wf
def dot_S1000x3072_S3072x64_S1000x64_1_0_0_1_n_n : DotDims S1000x3072 S3072x64 S1000x64 where
  lhsContracting := [1]
  rhsContracting := [0]
  lhsNonContracting := [0]
  rhsNonContracting := [1]
  lhsBatch := []
  rhsBatch := []
  wf := dot_S1000x3072_S3072x64_S1000x64_1_0_0_1_n_n_wf
def scatter_S3000x3072_S100000x2_S100000_n_01_01_1 : ScatterDims S3000x3072 S100000x2 S100000 where
  updateWindowDims := []
  insertedWindowDims := [0, 1]
  scatterDimsToOperandDims := [0, 1]
  indexVectorDim := 1
  wf := scatter_S3000x3072_S100000x2_S100000_n_01_01_1_wf

abbrev win0_0 : Pipeline.Window sig grid0 :=
  Pipeline.Window.ofSpec (Memref.whole main_v21) S3000x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1280x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S3000x64.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v46) S1000x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S3072x64.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v71) S1000x3072.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S3072x64.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S3000x64 : Shape := ⟨2, ![3000, 64]⟩
abbrev S50000x1 : Shape := ⟨2, ![50000, 1]⟩
abbrev S3000x1 : Shape := ⟨2, ![3000, 1]⟩
abbrev S3000000 : Shape := ⟨1, ![3000000]⟩
abbrev S100000 : Shape := ⟨1, ![100000]⟩
abbrev S_ : Shape := ⟨0, ![]⟩
abbrev S3000000x1 : Shape := ⟨2, ![3000000, 1]⟩
abbrev S3000000x64 : Shape := ⟨2, ![3000000, 64]⟩
abbrev S100000x1 : Shape := ⟨2, ![100000, 1]⟩
abbrev S100000x64 : Shape := ⟨2, ![100000, 64]⟩

abbrev nBuf : Space → Nat
  | .hbm => 78
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S3000x64, .f32⟩
  | .hbm, ⟨2, _⟩ => ⟨S50000x1, .f32⟩
  | .hbm, ⟨3, _⟩ => ⟨S50000x1, .f32⟩
  | .hbm, ⟨4, _⟩ => ⟨S3000x1, .f32⟩
  | .hbm, ⟨5, _⟩ => ⟨S3000x1, .f32⟩
  | .hbm, ⟨6, _⟩ => ⟨S3000x1, .f32⟩
  | .hbm, ⟨7, _⟩ => ⟨S3000x1, .f32⟩
  | .hbm, ⟨8, _⟩ => ⟨S50000x1, .f32⟩
  | .hbm, ⟨9, _⟩ => ⟨S3000x1, .f32⟩
  | .hbm, ⟨10, _⟩ => ⟨S3000x1, .f32⟩
  | .hbm, ⟨11, _⟩ => ⟨S3000000, .i32⟩
  | .hbm, ⟨12, _⟩ => ⟨S3000000, .i32⟩
  | .hbm, ⟨13, _⟩ => ⟨S3000000, .i32⟩
  | .hbm, ⟨14, _⟩ => ⟨S3000000, .i32⟩
  | .hbm, ⟨15, _⟩ => ⟨S100000, .i32⟩
  | .hbm, ⟨16, _⟩ => ⟨S100000, .i32⟩
  | .hbm, ⟨17, _⟩ => ⟨S50000x1, .f32⟩
  | .hbm, ⟨18, _⟩ => ⟨S50000x64, .f32⟩
  | .hbm, ⟨19, _⟩ => ⟨S50000x64, .f32⟩
  | .hbm, ⟨20, _⟩ => ⟨S_, .i32⟩
  | .hbm, ⟨21, _⟩ => ⟨S3000000, .i32⟩
  | .hbm, ⟨22, _⟩ => ⟨S3000000, .i1⟩
  | .hbm, ⟨23, _⟩ => ⟨S_, .i32⟩
  | .hbm, ⟨24, _⟩ => ⟨S3000000, .i32⟩
  | .hbm, ⟨25, _⟩ => ⟨S3000000, .i32⟩
  | .hbm, ⟨26, _⟩ => ⟨S3000000, .i32⟩
  | .hbm, ⟨27, _⟩ => ⟨S3000000x1, .i32⟩
  | .hbm, ⟨28, _⟩ => ⟨S3000000x64, .f32⟩
  | .hbm, ⟨29, _⟩ => ⟨S_, .f32⟩
  | .hbm, ⟨30, _⟩ => ⟨S3000x64, .f32⟩
  | .hbm, ⟨31, _⟩ => ⟨S3000000x1, .i32⟩
  | .hbm, ⟨32, _⟩ => ⟨S3000x64, .f32⟩
  | .hbm, ⟨33, _⟩ => ⟨S3000x64, .f32⟩
  | .hbm, ⟨34, _⟩ => ⟨S3000x64, .f32⟩
  | .hbm, ⟨35, _⟩ => ⟨S3000x1, .f32⟩
  | .hbm, ⟨36, _⟩ => ⟨S3000x64, .f32⟩
  | .hbm, ⟨37, _⟩ => ⟨S3000x64, .f32⟩
  | .hbm, ⟨38, _⟩ => ⟨S_, .i32⟩
  | .hbm, ⟨39, _⟩ => ⟨S3000000, .i32⟩
  | .hbm, ⟨40, _⟩ => ⟨S3000000, .i1⟩
  | .hbm, ⟨41, _⟩ => ⟨S_, .i32⟩
  | .hbm, ⟨42, _⟩ => ⟨S3000000, .i32⟩
  | .hbm, ⟨43, _⟩ => ⟨S3000000, .i32⟩
  | .hbm, ⟨44, _⟩ => ⟨S3000000, .i32⟩
  | .hbm, ⟨45, _⟩ => ⟨S3000000x1, .i32⟩
  | .hbm, ⟨46, _⟩ => ⟨S3000000x64, .f32⟩
  | .hbm, ⟨47, _⟩ => ⟨S_, .f32⟩
  | .hbm, ⟨48, _⟩ => ⟨S50000x64, .f32⟩
  | .hbm, ⟨49, _⟩ => ⟨S3000000x1, .i32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S3000x1, .f32⟩
  | .hbm, ⟨54, _⟩ => ⟨S3000x64, .f32⟩
  | .hbm, ⟨55, _⟩ => ⟨S3000x64, .f32⟩
  | .hbm, ⟨56, _⟩ => ⟨S_, .i32⟩
  | .hbm, ⟨57, _⟩ => ⟨S100000, .i32⟩
  | .hbm, ⟨58, _⟩ => ⟨S100000, .i1⟩
  | .hbm, ⟨59, _⟩ => ⟨S_, .i32⟩
  | .hbm, ⟨60, _⟩ => ⟨S100000, .i32⟩
  | .hbm, ⟨61, _⟩ => ⟨S100000, .i32⟩
  | .hbm, ⟨62, _⟩ => ⟨S100000, .i32⟩
  | .hbm, ⟨63, _⟩ => ⟨S100000x1, .i32⟩
  | .hbm, ⟨64, _⟩ => ⟨S100000x64, .f32⟩
  | .hbm, ⟨65, _⟩ => ⟨S_, .f32⟩
  | .hbm, ⟨66, _⟩ => ⟨S3000x64, .f32⟩
  | .hbm, ⟨67, _⟩ => ⟨S100000x1, .i32⟩
  | .hbm, ⟨68, _⟩ => ⟨S3000x64, .f32⟩
  | .hbm, ⟨69, _⟩ => ⟨S3000x64, .f32⟩
  | .hbm, ⟨70, _⟩ => ⟨S3000x64, .f32⟩
  | .hbm, ⟨71, _⟩ => ⟨S_, .f32⟩
  | .hbm, ⟨72, _⟩ => ⟨S3000x64, .f32⟩
  | .hbm, ⟨73, _⟩ => ⟨S3000x64, .f32⟩
  | .hbm, ⟨74, _⟩ => ⟨S_, .f32⟩
  | .hbm, ⟨75, _⟩ => ⟨S3000x64, .f32⟩
  | .hbm, ⟨76, _⟩ => ⟨S3000x64, .f32⟩
  | .hbm, ⟨77, _⟩ => ⟨S3000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]

class Facts₀ : Prop where
  bcast_S50000x1_S50000x64_0_1 : S50000x1.BroadcastsInDim S50000x64 (![0, 1] : Fin 2 → Fin S50000x64.rank)
  bcast_S_S3000000 : S_.BroadcastsInDim S3000000 (![] : Fin 0 → Fin S3000000.rank)
  bcast_S3000000_S3000000x1_0 : S3000000.BroadcastsInDim S3000000x1 (![0] : Fin 1 → Fin S3000000x1.rank)
  bcast_S_S3000x64 : S_.BroadcastsInDim S3000x64 (![] : Fin 0 → Fin S3000x64.rank)
  bcast_S3000x1_S3000x64_0_1 : S3000x1.BroadcastsInDim S3000x64 (![0, 1] : Fin 2 → Fin S3000x64.rank)
  bcast_S_S50000x64 : S_.BroadcastsInDim S50000x64 (![] : Fin 0 → Fin S50000x64.rank)
  bcast_S_S100000 : S_.BroadcastsInDim S100000 (![] : Fin 0 → Fin S100000.rank)
  bcast_S100000_S100000x1_0 : S100000.BroadcastsInDim S100000x1 (![0] : Fin 1 → Fin S100000x1.rank)
  gather_S50000x64_S3000000x1_S3000000x64_1_0_n_n_0_1_164_wf : GatherDims.WF S50000x64 S3000000x1 S3000000x64 [1] [0] [] [0] [] 1 ![1, 64]
  scatter_S3000x64_S3000000x1_S3000000x64_1_0_0_1_wf : ScatterDims.WF S3000x64 S3000000x1 S3000000x64 [1] [0] [0] 1
  gather_S3000x64_S3000000x1_S3000000x64_1_0_n_n_0_1_164_wf : GatherDims.WF S3000x64 S3000000x1 S3000000x64 [1] [0] [] [0] [] 1 ![1, 64]
  scatter_S50000x64_S3000000x1_S3000000x64_1_0_0_1_wf : ScatterDims.WF S50000x64 S3000000x1 S3000000x64 [1] [0] [0] 1
  gather_S3000x64_S100000x1_S100000x64_1_0_n_n_0_1_164_wf : GatherDims.WF S3000x64 S100000x1 S100000x64 [1] [0] [] [0] [] 1 ![1, 64]
  scatter_S3000x64_S100000x1_S100000x64_1_0_0_1_wf : ScatterDims.WF S3000x64 S100000x1 S100000x64 [1] [0] [0] 1

variable [Facts₀]

def gather_S50000x64_S3000000x1_S3000000x64_1_0_n_n_0_1_164 : GatherDims S50000x64 S3000000x1 S3000000x64 where
  offsetDims := [1]
  collapsedSliceDims := [0]
  operandBatchingDims := []
  startIndicesBatchingDims := []
  startIndexMap := [0]
  indexVectorDim := 1
  sliceSizes := ![1, 64]
  wf := gather_S50000x64_S3000000x1_S3000000x64_1_0_n_n_0_1_164_wf
def scatter_S3000x64_S3000000x1_S3000000x64_1_0_0_1 : ScatterDims S3000x64 S3000000x1 S3000000x64 where
  updateWindowDims := [1]
  insertedWindowDims := [0]
  scatterDimsToOperandDims := [0]
  indexVectorDim := 1
  wf := scatter_S3000x64_S3000000x1_S3000000x64_1_0_0_1_wf
def gather_S3000x64_S3000000x1_S3000000x64_1_0_n_n_0_1_164 : GatherDims S3000x64 S3000000x1 S3000000x64 where
  offsetDims := [1]
  collapsedSliceDims := [0]
  operandBatchingDims := []
  startIndicesBatchingDims := []
  startIndexMap := [0]
  indexVectorDim := 1
  sliceSizes := ![1, 64]
  wf := gather_S3000x64_S3000000x1_S3000000x64_1_0_n_n_0_1_164_wf
def scatter_S50000x64_S3000000x1_S3000000x64_1_0_0_1 : ScatterDims S50000x64 S3000000x1 S3000000x64 where
  updateWindowDims := [1]
  insertedWindowDims := [0]
  scatterDimsToOperandDims := [0]
  indexVectorDim := 1
  wf := scatter_S50000x64_S3000000x1_S3000000x64_1_0_0_1_wf
def gather_S3000x64_S100000x1_S100000x64_1_0_n_n_0_1_164 : GatherDims S3000x64 S100000x1 S100000x64 where
  offsetDims := [1]
  collapsedSliceDims := [0]
  operandBatchingDims := []
  startIndicesBatchingDims := []
  startIndexMap := [0]
  indexVectorDim := 1
  sliceSizes := ![1, 64]
  wf := gather_S3000x64_S100000x1_S100000x64_1_0_n_n_0_1_164_wf
def scatter_S3000x64_S100000x1_S100000x64_1_0_0_1 : ScatterDims S3000x64 S100000x1 S100000x64 where
  updateWindowDims := [1]
  insertedWindowDims := [0]
  scatterDimsToOperandDims := [0]
  indexVectorDim := 1
  wf := scatter_S3000x64_S100000x1_S100000x64_1_0_0_1_wf

class Facts : Prop extends Facts₀ where

variable [Facts]
-- ==== Proof.Kernel.Region0.lean ====
/-
  The first matrix product of the program, on one core: a 3000 x 51200 array times a 51200 x 64 array, the contracted
  axis cut into 40 blocks of 1280. The grid walks the 40 blocks. A scratch buffer carries the running sum: it is
  zeroed at the first step, gains one block product per step, and at the last step is stored whole into the output
  window's buffer, which is written back only then (before that the window is idle). This module states what each
  step does to the buffers, the running sum after each step, the invariant that carries it from step to step, and
  proves the per-step obligation of the pipeline rule. Everything here holds at any float instance.
-/
import proofs.«403239_j43198781063350_1_alg».proof.Proof.Gen.Kernel.Regions
import proofs.«403239_j43198781063350_1_alg».proof.Proof.Gen.Kernel.Points
import proofs.«403239_j43198781063350_1_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One step of the body, in its three cases -/

/-- The branch on "this is the first step along the contracted grid axis" (the accumulator is zeroed). -/
abbrev cond0_0 (i : grid0.Coords) : Prop := (Scalar.cmpi .ne (Scalar.extui (Scalar.cmpi .eq (BitVec.ofNat 32 (i 1).val) 0#32)) 0#32) = 1#1
/-- The branch on "this is the last step along the contracted grid axis" (the accumulator is stored to the output). -/
abbrev cond0_1 (i : grid0.Coords) : Prop := k0_cond2 i = 1#1

theorem zeroOff_3000x64 : (![0, 0] : Fin S3000x64.rank → Nat) = fun _ => 0 := by funext a; fin_cases a <;> rfl
theorem zeroOff_3000x1280 : (![0, 0] : Fin S3000x1280.rank → Nat) = fun _ => 0 := by funext a; fin_cases a <;> rfl
theorem zeroOff_1280x64 : (![0, 0] : Fin S1280x64.rank → Nat) = fun _ => 0 := by funext a; fin_cases a <;> rfl

set_option maxHeartbeats 4000000 in
/-- A middle step: the accumulator gains this step's product; the output buffer is not touched. -/
theorem sound_kernel0_mid (c : Dev nD) (E : Set ℕ) (i : grid0.Coords)
    (arg2 : Memref sig .tc .vmem S3000x1280 .bf16) (harg2 : arg2.IsWhole) (arg3 : Memref sig .tc .vmem S1280x64 .bf16) (harg3 : arg3.IsWhole)
    (arg4 : Memref sig .tc .vmem S3000x64 .f32) (harg4 : arg4.IsWhole) (arg5 : Memref sig .tc .vmem S3000x64 .f32) (harg5 : arg5.IsWhole)
    (hc0 : ¬cond0_0 i) (hc1 : ¬cond0_1 i)
    (x0 : Vec F S3000x1280 .bf16) (x1 : Vec F S1280x64 .bf16) (xo : Vec F S3000x64 .f32) (xs : Vec F S3000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 xs x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [View.read_writes_eq_canon _ _ _ (fun y => ⟨_, List.mem_singleton_self _, View.mem_set_unit_zero zeroOff_3000x64 inb_S3000x64_S3000x64_0_0 y⟩),
    View.canon_unit_zero zeroOff_3000x64]
  simp only [View.readAt_eq_ld, harg5.read_unread, harg2.read_unread, harg3.read_unread,
    View.ld_unit_zero (S := S3000x64) zeroOff_3000x64, View.ld_unit_zero (S := S3000x1280) zeroOff_3000x1280,
    View.ld_unit_zero (S := S1280x64) zeroOff_1280x64, View.readCov_unit_zero (S := S3000x64) _ zeroOff_3000x64]

set_option maxHeartbeats 4000000 in
/-- The first step: whatever the accumulator held, it is zeroed and gains this step's product; the output buffer is
    not touched. -/
theorem sound_kernel0_first (c : Dev nD) (E : Set ℕ) (i : grid0.Coords)
    (arg2 : Memref sig .tc .vmem S3000x1280 .bf16) (harg2 : arg2.IsWhole) (arg3 : Memref sig .tc .vmem S1280x64 .bf16) (harg3 : arg3.IsWhole)
    (arg4 : Memref sig .tc .vmem S3000x64 .f32) (harg4 : arg4.IsWhole) (arg5 : Memref sig .tc .vmem S3000x64 .f32) (harg5 : arg5.IsWhole)
    (hc0 : cond0_0 i) (hc1 : ¬cond0_1 i)
    (x0 : Vec F S3000x1280 .bf16) (x1 : Vec F S1280x64 .bf16) (xo : Vec F S3000x64 .f32) (xs : Vec F S3000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 (k0_pay1 (F := F)) x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [View.read_writes_eq_canon _ _ _ (fun y => ⟨_, List.mem_cons_self, View.mem_set_unit_zero zeroOff_3000x64 inb_S3000x64_S3000x64_0_0 y⟩),
    View.canon_cons_unit_zero zeroOff_3000x64]
  sl_unfold_run_names
  simp only [View.readAt_eq_ld, harg5.read_unread, harg2.read_unread, harg3.read_unread,
    View.ld_unit_zero (S := S3000x64) zeroOff_3000x64, View.ld_unit_zero (S := S3000x1280) zeroOff_3000x1280,
    View.ld_unit_zero (S := S1280x64) zeroOff_1280x64, View.readCov_unit_zero (S := S3000x64) _ zeroOff_3000x64]

set_option maxHeartbeats 4000000 in
/-- The last step: the accumulator gains this step's product, and the output buffer is stored whole with it. -/
theorem sound_kernel0_last (c : Dev nD) (E : Set ℕ) (i : grid0.Coords)
    (arg2 : Memref sig .tc .vmem S3000x1280 .bf16) (harg2 : arg2.IsWhole) (arg3 : Memref sig .tc .vmem S1280x64 .bf16) (harg3 : arg3.IsWhole)
    (arg4 : Memref sig .tc .vmem S3000x64 .f32) (harg4 : arg4.IsWhole) (arg5 : Memref sig .tc .vmem S3000x64 .f32) (harg5 : arg5.IsWhole)
    (hc0 : ¬cond0_0 i) (hc1 : cond0_1 i)
    (x0 : Vec F S3000x1280 .bf16) (x1 : Vec F S1280x64 .bf16) (xo : Vec F S3000x64 .f32) (xs : Vec F S3000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 xs x0 x1)
            ∗ owns (c : Thread nD τ) arg5 fullShare (k0_pay2 xs x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    rw [View.read_writes_eq_canon _ _ _ (fun y => ⟨_, List.mem_singleton_self _, View.mem_set_unit_zero zeroOff_3000x64 inb_S3000x64_S3000x64_0_0 y⟩),
      View.canon_unit_zero zeroOff_3000x64]
    sl_unfold_run_names
    simp only [View.readAt_eq_ld, harg5.read_unread, harg2.read_unread, harg3.read_unread,
    View.ld_unit_zero (S := S3000x64) zeroOff_3000x64, View.ld_unit_zero (S := S3000x1280) zeroOff_3000x1280,
    View.ld_unit_zero (S := S1280x64) zeroOff_1280x64, View.readCov_unit_zero (S := S3000x64) _ zeroOff_3000x64]
  iexists _; isplitr
  swap; · iexact HS
  ipureintro
  sl_unfold_run_names
  rw [View.read_writes_eq_canon _ _ _ (fun y => ⟨_, List.mem_singleton_self _, View.mem_set_unit_zero zeroOff_3000x64 inb_S3000x64_S3000x64_0_0 y⟩),
    View.canon_unit_zero zeroOff_3000x64]
  simp only [View.readAt_eq_ld, harg5.read_unread, harg2.read_unread, harg3.read_unread,
    View.ld_unit_zero (S := S3000x64) zeroOff_3000x64, View.ld_unit_zero (S := S3000x1280) zeroOff_3000x1280,
    View.ld_unit_zero (S := S1280x64) zeroOff_1280x64, View.readCov_unit_zero (S := S3000x64) _ zeroOff_3000x64]

/-! ## Where the two branches are taken, and where the output window is idle -/

/-- The accumulator is zeroed at the first of the 40 steps only. -/
theorem hcond0_0 : ∀ t : Fin cfg0.N, cond0_0 (grid0.coords t) ↔ t.val % 40 = 0 :=
  (by decide +kernel : ∀ t : Fin grid0.N, cond0_0 (grid0.coords t) ↔ t.val % 40 = 0)
/-- The output is stored at the last of the 40 steps only. -/
theorem hcond0_1 : ∀ t : Fin cfg0.N, cond0_1 (grid0.coords t) ↔ t.val % 40 = 39 :=
  (by decide +kernel : ∀ t : Fin grid0.N, cond0_1 (grid0.coords t) ↔ t.val % 40 = 39)
theorem liveAt0_0 : ∀ t : Fin cfg0.N, cfg0.idle 0 (grid0.coords t) = false := by decide +kernel
theorem liveAt0_1 : ∀ t : Fin cfg0.N, cfg0.idle 1 (grid0.coords t) = false := by decide +kernel
/-- Before the last step the output window is idle: nothing is stored into its buffer, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

section Region0

-- the TensorCore's buffer contents when the region is entered
variable (V : (c : Dev nD) → (b : Ref sig .tc) → Buf (Elt F) ((c : Thread nD τ).loc b))

/-! ## The windows' blocks -/

/-- Window `w`'s block at step `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every step, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running sum -/

/-- What the accumulator holds after step `n`: zero plus the products of the column blocks 0 … n of the left
    array with the row blocks 0 … n of the right array, added one step at a time. -/
def acc0 (c : Dev nD) : (n : ℕ) → n < cfg0.N → Vec F S3000x64 .f32
  | 0, hn => k0_pay2 (k0_pay1 (F := F)) (iblk0 V c 0 ⟨0, hn⟩) (iblk0 V c 1 ⟨0, hn⟩)
  | n + 1, hn => k0_pay2 (acc0 c n (Nat.lt_of_succ_lt hn)) (iblk0 V c 0 ⟨n + 1, hn⟩) (iblk0 V c 1 ⟨n + 1, hn⟩)

theorem acc0_first (c : Dev nD) (t : Fin cfg0.N) (hz : t.val = 0) :
    acc0 V c t.val t.isLt = k0_pay2 (k0_pay1 (F := F)) (iblk0 V c 0 t) (iblk0 V c 1 t) := by
  obtain ⟨n, hn⟩ := t
  cases n with
  | zero => rfl
  | succ n => exact absurd hz (Nat.succ_ne_zero n)

theorem acc0_next (c : Dev nD) (t : Fin cfg0.N) (hz : t.val ≠ 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd rfl hz
  | succ n => rfl

/-! ## The region's invariant -/

/-- The accumulator: a whole scoped buffer of the kernel's own. -/
abbrev sc0 : Memref sig .tc .vmem S3000x64 .f32 := Memref.whole cc0_scratch0

/-- The core's other scoped buffers that this region stages nothing in, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- Before step `n`: at the first step every scoped buffer at anything; afterwards the accumulator at the running
    sum of the steps before, the other scoped buffers at anything; the generator register at some state. -/
def PhiS0 (c : Dev nD) : (n : ℕ) → n ≤ cfg0.N → sProp 𝕄
  | 0, _ => Pipeline.ΦA spec0 c
  | n + 1, hn => iprop(iprop(owns (c : Thread nD τ) sc0 fullShare (acc0 V c n hn) ∗ others0 c) ∗ (∃ r, prngReg c r))

theorem PhiA0_eq (c : Dev nD) :
    (Pipeline.ΦA spec0 c : sProp 𝕄)
      = iprop(iprop((∃ d, owns (c : Thread nD τ) sc0 fullShare d) ∗ others0 c) ∗ (∃ r, prngReg c r)) := by
  unfold Pipeline.ΦA others0; rw [scopedRest0_eq]; simp only [sc0, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) sc0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) sc0 fullShare (acc0 V c (n - 1) (by omega)) ∗ others0 c) ∗ (∃ r, prngReg c r)) := by
  cases n with
  | zero => exact absurd rfl hz
  | succ n => rfl

/-! ## The proof data -/

/-- The arrays as the region finds them; after step `t` each input's buffer at its block and the output's at the
    running sum (consulted at the last step only: before it the window is idle); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem Phi0_castSucc (c : Dev nD) (t : Fin cfg0.N) :
    (dat0 V c).Φ t.castSucc = PhiS0 V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any step. The inputs' buffers hold their blocks; the step is the first, a middle one or the last
    (the two branches' closed forms); the invariant hands over the accumulator at the running sum so far (at anything
    at the first step) and takes it back one product further; before the last step the output buffer goes back as
    it came, at the last it holds the whole sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 40 := lt_of_lt_of_eq t.isLt (show cfg0.N = 40 from N_0)
  by_cases h1 : t.val % 40 = 39
  · -- the last step
    have h0 : ¬ t.val % 40 = 0 := by omega
    have hz : t.val ≠ 0 := by omega
    rw [show (dat0 V c).leavesExact 2 t = owns (c : Thread nD τ) (st0_2 t) fullShare ((dat0 V c).after 2 t) from by
      unfold Dat.leavesExact; rw [liveAt0_2 t ((hcond0_1 t).mpr h1)], after0_2]
    rw [acc0_next V c t hz, Phi0_castSucc V c t, PhiS0_pos V c _ _ hz]
    iintro ⟨⟨⟨HS, Hoth⟩, Hg⟩, Ho, ⟨%d0, H0⟩, ⟨%d1, H1⟩, ⟨%d2, H2⟩⟩
    iapply (sound_kernel0_last c Set.univ (grid0.coords t) _ _ _ _ _ _ _ _ (fun h => h0 ((hcond0_0 t).mp h)) ((hcond0_1 t).mpr h1)
      (iblk0 V c 0 t) (iblk0 V c 1 t) _ _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases hz : t.val = 0
    · -- the first step
      have h0 : t.val % 40 = 0 := by omega
      rw [acc0_first V c t hz, Phi0_castSucc V c t, PhiS0_zero V c _ _ hz, PhiA0_eq]
      iintro ⟨⟨⟨⟨%ds, HS⟩, Hoth⟩, Hg⟩, Ho, ⟨%d0, H0⟩, ⟨%d1, H1⟩, ⟨%d2, H2⟩⟩
      iapply (sound_kernel0_first c Set.univ (grid0.coords t) _ _ _ _ _ _ _ _ ((hcond0_0 t).mpr h0) (fun h => h1 ((hcond0_1 t).mp h))
        (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · -- a middle step
      have h0 : ¬ t.val % 40 = 0 := by omega
      rw [acc0_next V c t hz, Phi0_castSucc V c t, PhiS0_pos V c _ _ hz]
      iintro ⟨⟨⟨HS, Hoth⟩, Hg⟩, Ho, ⟨%d0, H0⟩, ⟨%d1, H1⟩, ⟨%d2, H2⟩⟩
      iapply (sound_kernel0_mid c Set.univ (grid0.coords t) _ _ _ _ _ _ _ _ (fun h => h0 ((hcond0_0 t).mp h)) (fun h => h1 ((hcond0_1 t).mp h))
        (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every step. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first step. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last step the invariant gives the scoped buffers back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 40 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hoth⟩, Hg⟩
  isplitl [HS Hoth]
  · isplitl [HS]; · iexists _; iexact HS
    iexact Hoth
  iexact Hg

end Region0

end Cert.Kernel.Run
end
-- ==== Proof.LibWholeStore.lean ====
/-
  A buffer written through its WHOLE rectangle (offsets all zero, the buffer's own sizes): a later load through the
  same rectangle reads the payload of the last such store, whatever was stored before it.
-/
import Idealize.ShloMosaic.Lib.Pipeline.FrameBody
import Idealize.ShloMosaic.Lib.Pipeline.Value

namespace Cert.LibWholeStore

open Idealize.ShloMosaic

variable {Val : EltTy → Type} {S : Shape} {e : EltTy}

/-- A load through the whole rectangle after a list of stores whose LAST one (the list's head) went through the whole
    rectangle reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Cert.LibWholeStore
-- ==== Proof.Kernel.Region1.lean ====
/-
  The second matrix product of the program, on one core: a 50000 x 3072 array times a 3072 x 64 array, the left array cut into
  50 row blocks of 1000 rows; the contracted axis is one block, so every grid step is at once the first and the last step
  along it: the scratch accumulator is zeroed, gains the step's one product, and is stored whole into the output window's
  buffer, which is written back at every step. This module states what a step does to the buffers and proves the per-step
  obligation of the pipeline rule; the region's invariant is the same before every step (the scoped buffers at
  anything). Everything here holds at any float instance.
-/
import proofs.«403239_j43198781063350_1_alg».proof.Proof.Gen.Kernel.Regions
import proofs.«403239_j43198781063350_1_alg».proof.Proof.Gen.Kernel.Points
import proofs.«403239_j43198781063350_1_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«403239_j43198781063350_1_alg».proof.Proof.LibWholeStore

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One step of the body -/

/-- The branch on "first step along the contracted axis": taken at every step of this grid. -/
abbrev cond1_0 (i : grid1.Coords) : Prop := (Scalar.cmpi .ne (Scalar.extui (Scalar.cmpi .eq (BitVec.ofNat 32 (i 1).val) 0#32)) 0#32) = 1#1
/-- The branch on "last step along the contracted axis": taken at every step of this grid. -/
abbrev cond1_1 (i : grid1.Coords) : Prop := k1_cond2 i = 1#1

theorem zeroOff1_out : (![0, 0] : Fin S1000x64.rank → Nat) = fun _ => 0 := by funext a; fin_cases a <;> rfl
theorem zeroOff1_lhs : (![0, 0] : Fin S1000x3072.rank → Nat) = fun _ => 0 := by funext a; fin_cases a <;> rfl
theorem zeroOff1_rhs : (![0, 0] : Fin S3072x64.rank → Nat) = fun _ => 0 := by funext a; fin_cases a <;> rfl

set_option maxHeartbeats 4000000 in
/-- A step: whatever the accumulator and the output buffer held, both end at zero plus the product of the two input
    blocks. -/
theorem sound_kernel1 (c : Dev nD) (E : Set ℕ) (i : grid1.Coords)
    (arg2 : Memref sig .tc .vmem S1000x3072 .bf16) (harg2 : arg2.IsWhole) (arg3 : Memref sig .tc .vmem S3072x64 .bf16) (harg3 : arg3.IsWhole)
    (arg4 : Memref sig .tc .vmem S1000x64 .f32) (harg4 : arg4.IsWhole) (arg5 : Memref sig .tc .vmem S1000x64 .f32) (harg5 : arg5.IsWhole)
    (hc0 : cond1_0 i) (hc1 : cond1_1 i)
    (x0 : Vec F S1000x3072 .bf16) (x1 : Vec F S3072x64 .bf16) (xo : Vec F S1000x64 .f32) (xs : Vec F S1000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k1_pay2 (k1_pay1 (F := F)) x0 x1)
            ∗ owns (c : Thread nD τ) arg5 fullShare (k1_pay2 (k1_pay1 (F := F)) x0 x1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    rw [View.read_writes_eq_canon _ _ _ (fun y => ⟨_, List.mem_cons_self, View.mem_set_unit_zero zeroOff1_out inb_S1000x64_S1000x64_0_0 y⟩),
      View.canon_cons_unit_zero zeroOff1_out]
    simp only [View.readAt_eq_ld, harg5.read_unread, harg2.read_unread, harg3.read_unread,
      View.ld_unit_zero (S := S1000x64) zeroOff1_out, View.ld_unit_zero (S := S1000x3072) zeroOff1_lhs,
      View.ld_unit_zero (S := S3072x64) zeroOff1_rhs, Cert.LibWholeStore.readCov_cons_unit_zero (S := S1000x64) _ zeroOff1_out]
  iexists _; isplitr
  swap; · iexact HS
  ipureintro
  sl_unfold_run_names
  rw [View.read_writes_eq_canon _ _ _ (fun y => ⟨_, List.mem_cons_self, View.mem_set_unit_zero zeroOff1_out inb_S1000x64_S1000x64_0_0 y⟩),
    View.canon_cons_unit_zero zeroOff1_out]
  simp only [View.readAt_eq_ld, harg5.read_unread, harg2.read_unread, harg3.read_unread,
    View.ld_unit_zero (S := S1000x64) zeroOff1_out, View.ld_unit_zero (S := S1000x3072) zeroOff1_lhs,
    View.ld_unit_zero (S := S3072x64) zeroOff1_rhs, Cert.LibWholeStore.readCov_cons_unit_zero (S := S1000x64) _ zeroOff1_out]

/-! ## The two branches are taken at every step; no window is ever idle -/

theorem hcond1_0 : ∀ t : Fin cfg1.N, cond1_0 (grid1.coords t) :=
  (by decide +kernel : ∀ t : Fin grid1.N, cond1_0 (grid1.coords t))
theorem hcond1_1 : ∀ t : Fin cfg1.N, cond1_1 (grid1.coords t) :=
  (by decide +kernel : ∀ t : Fin grid1.N, cond1_1 (grid1.coords t))
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

section Region1

-- the TensorCore's buffer contents when the region is entered
variable (V : (c : Dev nD) → (b : Ref sig .tc) → Buf (Elt F) ((c : Thread nD τ).loc b))

/-! ## The windows' blocks -/

/-- Window `w`'s block at step `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every step, fetched there or not (the right array's one block
    is fetched once and stays). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The region's invariant -/

/-- The accumulator: a whole scoped buffer of the kernel's own. -/
abbrev sc1 : Memref sig .tc .vmem S1000x64 .f32 := Memref.whole cc1_scratch0

/-- The core's other scoped buffers that this region stages nothing in, unopened. -/
abbrev others1 (c : Dev nD) : sProp 𝕄 :=
  Pipeline.scopedRestBut (Ix := Unit) (Name := ℕ) (U := UR sig nD τ) (Lvl := ℕ) (Val := Elt F) spec1 c [cc1_scratch0]

/-- The class invariant with the accumulator taken out of the scoped rest. -/
theorem PhiA1_eq (c : Dev nD) :
    (Pipeline.ΦA spec1 c : sProp 𝕄)
      = iprop(iprop((∃ d, owns (c : Thread nD τ) sc1 fullShare d) ∗ others1 c) ∗ (∃ r, prngReg c r)) := by
  unfold Pipeline.ΦA
  rw [Pipeline.scopedRest_split_of_list spec1 c [cc1_scratch0] (by decide) (by decide)]
  simp only [sc1, owns_whole, bigSepL_singleton]
  try rfl

/-! ## The proof data -/

/-- The arrays as the region finds them; after step `t` each input's buffer at its block and the output's at zero plus
    the product of the two blocks; the invariant the class's at every step; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (k1_pay1 (F := F)) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay2 (k1_pay1 (F := F)) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any step: the inputs' buffers hold their blocks; the invariant lends the accumulator at anything and
    takes it back at anything; the output buffer ends at the step's product. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  iintro ⟨⟨⟨⟨%ds, HS⟩, Hoth⟩, Hg⟩, Ho, ⟨%d0, H0⟩, ⟨%d1, H1⟩, ⟨%d2, H2⟩⟩
  iapply (sound_kernel1 c Set.univ (grid1.coords t) _ _ _ _ _ _ _ _ (hcond1_0 t) (hcond1_1 t)
    (iblk1 V c 0 t) (iblk1 V c 1 t) _ _ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexists _; iexact HS
      iexact Hoth
    iexact Hg
  isplitl [Ho]; · iexact Ho
  isplitl [H0]; · iexact H0
  isplitl [H1]; · iexact H1
  iexact H2

/-- The library's body obligation, at every step. -/
theorem body_obligation1 (c : Dev nD) : BodyObligation (dat1 (F := F) V c) (defs₀ (F := F)) Variants.none () Set.univ := fun t => by
  rw [bigSep_W1, bigSep_W1]
  exact sound_body1 V c t

end Region1

end Cert.Kernel.Run
end
-- ==== Proof.Kernel.Region2.lean ====
/-
  The third matrix product of the program, on one core: a 3000 x 3072 array times a 3072 x 64 array, the left array cut into
  3 row blocks of 1000 rows; the contracted axis is one block, so every grid step is at once the first and the last step
  along it: the scratch accumulator is zeroed, gains the step's one product, and is stored whole into the output window's
  buffer, which is written back at every step. This module states what a step does to the buffers and proves the per-step
  obligation of the pipeline rule; the region's invariant is the same before every step (the scoped buffers at
  anything). Everything here holds at any float instance.
-/
import proofs.«403239_j43198781063350_1_alg».proof.Proof.Gen.Kernel.Regions
import proofs.«403239_j43198781063350_1_alg».proof.Proof.Gen.Kernel.Points
import proofs.«403239_j43198781063350_1_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«403239_j43198781063350_1_alg».proof.Proof.LibWholeStore

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One step of the body -/

/-- The branch on "first step along the contracted axis": taken at every step of this grid. -/
abbrev cond2_0 (i : grid2.Coords) : Prop := (Scalar.cmpi .ne (Scalar.extui (Scalar.cmpi .eq (BitVec.ofNat 32 (i 1).val) 0#32)) 0#32) = 1#1
/-- The branch on "last step along the contracted axis": taken at every step of this grid. -/
abbrev cond2_1 (i : grid2.Coords) : Prop := k2_cond2 i = 1#1

theorem zeroOff2_out : (![0, 0] : Fin S1000x64.rank → Nat) = fun _ => 0 := by funext a; fin_cases a <;> rfl
theorem zeroOff2_lhs : (![0, 0] : Fin S1000x3072.rank → Nat) = fun _ => 0 := by funext a; fin_cases a <;> rfl
theorem zeroOff2_rhs : (![0, 0] : Fin S3072x64.rank → Nat) = fun _ => 0 := by funext a; fin_cases a <;> rfl

set_option maxHeartbeats 4000000 in
/-- A step: whatever the accumulator and the output buffer held, both end at zero plus the product of the two input
    blocks. -/
theorem sound_kernel2 (c : Dev nD) (E : Set ℕ) (i : grid2.Coords)
    (arg2 : Memref sig .tc .vmem S1000x3072 .bf16) (harg2 : arg2.IsWhole) (arg3 : Memref sig .tc .vmem S3072x64 .bf16) (harg3 : arg3.IsWhole)
    (arg4 : Memref sig .tc .vmem S1000x64 .f32) (harg4 : arg4.IsWhole) (arg5 : Memref sig .tc .vmem S1000x64 .f32) (harg5 : arg5.IsWhole)
    (hc0 : cond2_0 i) (hc1 : cond2_1 i)
    (x0 : Vec F S1000x3072 .bf16) (x1 : Vec F S3072x64 .bf16) (xo : Vec F S1000x64 .f32) (xs : Vec F S1000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k2_pay2 (k2_pay1 (F := F)) x0 x1)
            ∗ owns (c : Thread nD τ) arg5 fullShare (k2_pay2 (k2_pay1 (F := F)) x0 x1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    rw [View.read_writes_eq_canon _ _ _ (fun y => ⟨_, List.mem_cons_self, View.mem_set_unit_zero zeroOff2_out inb_S1000x64_S1000x64_0_0 y⟩),
      View.canon_cons_unit_zero zeroOff2_out]
    simp only [View.readAt_eq_ld, harg5.read_unread, harg2.read_unread, harg3.read_unread,
      View.ld_unit_zero (S := S1000x64) zeroOff2_out, View.ld_unit_zero (S := S1000x3072) zeroOff2_lhs,
      View.ld_unit_zero (S := S3072x64) zeroOff2_rhs, Cert.LibWholeStore.readCov_cons_unit_zero (S := S1000x64) _ zeroOff2_out]
  iexists _; isplitr
  swap; · iexact HS
  ipureintro
  sl_unfold_run_names
  rw [View.read_writes_eq_canon _ _ _ (fun y => ⟨_, List.mem_cons_self, View.mem_set_unit_zero zeroOff2_out inb_S1000x64_S1000x64_0_0 y⟩),
    View.canon_cons_unit_zero zeroOff2_out]
  simp only [View.readAt_eq_ld, harg5.read_unread, harg2.read_unread, harg3.read_unread,
    View.ld_unit_zero (S := S1000x64) zeroOff2_out, View.ld_unit_zero (S := S1000x3072) zeroOff2_lhs,
    View.ld_unit_zero (S := S3072x64) zeroOff2_rhs, Cert.LibWholeStore.readCov_cons_unit_zero (S := S1000x64) _ zeroOff2_out]

/-! ## The two branches are taken at every step; no window is ever idle -/

theorem hcond2_0 : ∀ t : Fin cfg2.N, cond2_0 (grid2.coords t) :=
  (by decide +kernel : ∀ t : Fin grid2.N, cond2_0 (grid2.coords t))
theorem hcond2_1 : ∀ t : Fin cfg2.N, cond2_1 (grid2.coords t) :=
  (by decide +kernel : ∀ t : Fin grid2.N, cond2_1 (grid2.coords t))
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

section Region2

-- the TensorCore's buffer contents when the region is entered
variable (V : (c : Dev nD) → (b : Ref sig .tc) → Buf (Elt F) ((c : Thread nD τ).loc b))

/-! ## The windows' blocks -/

/-- Window `w`'s block at step `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every step, fetched there or not (the right array's one block
    is fetched once and stays). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The region's invariant -/

/-- The accumulator: a whole scoped buffer of the kernel's own. -/
abbrev sc2 : Memref sig .tc .vmem S1000x64 .f32 := Memref.whole cc2_scratch0

/-- The core's other scoped buffers that this region stages nothing in, unopened. -/
abbrev others2 (c : Dev nD) : sProp 𝕄 :=
  Pipeline.scopedRestBut (Ix := Unit) (Name := ℕ) (U := UR sig nD τ) (Lvl := ℕ) (Val := Elt F) spec2 c [cc2_scratch0]

/-- The class invariant with the accumulator taken out of the scoped rest. -/
theorem PhiA2_eq (c : Dev nD) :
    (Pipeline.ΦA spec2 c : sProp 𝕄)
      = iprop(iprop((∃ d, owns (c : Thread nD τ) sc2 fullShare d) ∗ others2 c) ∗ (∃ r, prngReg c r)) := by
  unfold Pipeline.ΦA
  rw [Pipeline.scopedRest_split_of_list spec2 c [cc2_scratch0] (by decide) (by decide)]
  simp only [sc2, owns_whole, bigSepL_singleton]
  try rfl

/-! ## The proof data -/

/-- The arrays as the region finds them; after step `t` each input's buffer at its block and the output's at zero plus
    the product of the two blocks; the invariant the class's at every step; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (k2_pay1 (F := F)) (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay2 (k2_pay1 (F := F)) (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any step: the inputs' buffers hold their blocks; the invariant lends the accumulator at anything and
    takes it back at anything; the output buffer ends at the step's product. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  iintro ⟨⟨⟨⟨%ds, HS⟩, Hoth⟩, Hg⟩, Ho, ⟨%d0, H0⟩, ⟨%d1, H1⟩, ⟨%d2, H2⟩⟩
  iapply (sound_kernel2 c Set.univ (grid2.coords t) _ _ _ _ _ _ _ _ (hcond2_0 t) (hcond2_1 t)
    (iblk2 V c 0 t) (iblk2 V c 1 t) _ _ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexists _; iexact HS
      iexact Hoth
    iexact Hg
  isplitl [Ho]; · iexact Ho
  isplitl [H0]; · iexact H0
  isplitl [H1]; · iexact H1
  iexact H2

/-- The library's body obligation, at every step. -/
theorem body_obligation2 (c : Dev nD) : BodyObligation (dat2 (F := F) V c) (defs₀ (F := F)) Variants.none () Set.univ := fun t => by
  rw [bigSep_W2, bigSep_W2]
  exact sound_body2 V c t

end Region2

end Cert.Kernel.Run
end
-- ==== Proof.Kernel.Run.lean ====
/-
  The whole program's run on one core: host operations, the first matrix product, host operations, the second, host
  operations, the third, host operations. Between two items the core's unscoped buffers hold a known valuation: the
  launch memory pushed through the host operations, with each product's output array replaced by what that region's
  pipeline leaves in it. This module names those three arrays, gives every region its proof data at the valuation it
  is entered from, states each region's entry and exit around that valuation, and concludes: every weakly fair
  execution terminates, faults nowhere, and ends with every unscoped buffer — arguments and results — at the last
  valuation. Everything here holds at any float instance.
-/
import proofs.«403239_j43198781063350_1_alg».proof.Proof.Kernel.Region0
import proofs.«403239_j43198781063350_1_alg».proof.Proof.Kernel.Region1
import proofs.«403239_j43198781063350_1_alg».proof.Proof.Kernel.Region2
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the three regions leave in their output arrays -/

/-- The buffers as the first region finds them (no region has run: nothing unknown). -/
abbrev entry0 : (c : Dev nD) → (b : Ref sig .tc) → Buf (Elt F) ((c : Thread nD τ).loc b) := fun c b => V3 m c b

/-- What the first region leaves in its output array. -/
def out0 (c : Dev nD) : Buf (Elt F) ((c : Thread nD τ).loc main_v22) := (dat0 (entry0 m) c).arrAt 2 cfg0.N

/-- The regions' outputs so far: the first region's. -/
def outs1 : Outs (F := F) := fun _ r c =>
  if h : r = main_v22 then h ▸ out0 m c else m ((c : Thread nD τ).loc r)

/-- The buffers as the second region finds them. -/
abbrev entry1' : (c : Dev nD) → (b : Ref sig .tc) → Buf (Elt F) ((c : Thread nD τ).loc b) := fun c b => V7 m (outs1 m) c b

/-- What the second region leaves in its output array. -/
def out1 (c : Dev nD) : Buf (Elt F) ((c : Thread nD τ).loc main_v47) := (dat1 (entry1' m) c).arrAt 2 cfg1.N

/-- The regions' outputs so far: the first two. -/
def outs2 : Outs (F := F) := fun _ r c =>
  if h : r = main_v22 then h ▸ out0 m c else if h : r = main_v47 then h ▸ out1 m c else m ((c : Thread nD τ).loc r)

/-- The buffers as the third region finds them. -/
abbrev entry2' : (c : Dev nD) → (b : Ref sig .tc) → Buf (Elt F) ((c : Thread nD τ).loc b) := fun c b => V11 m (outs2 m) c b

/-- What the third region leaves in its output array. -/
def out2 (c : Dev nD) : Buf (Elt F) ((c : Thread nD τ).loc main_v72) := (dat2 (entry2' m) c).arrAt 2 cfg2.N

/-- What the regions leave in the buffers they may change: each region's output array at what its pipeline leaves. -/
def outs : Outs (F := F) := fun _ r c =>
  if h : r = main_v22 then h ▸ out0 m c else if h : r = main_v47 then h ▸ out1 m c
  else if h : r = main_v72 then h ▸ out2 m c else m ((c : Thread nD τ).loc r)

theorem outs1_22 (j : ℕ) (c : Dev nD) : outs1 m j main_v22 c = out0 m c := by unfold outs1; rw [dif_pos rfl]
theorem outs2_22 (j : ℕ) (c : Dev nD) : outs2 m j main_v22 c = out0 m c := by unfold outs2; rw [dif_pos rfl]
theorem outs2_47 (j : ℕ) (c : Dev nD) : outs2 m j main_v47 c = out1 m c := by
  unfold outs2; rw [dif_neg (by decide), dif_pos rfl]
theorem outs_22 (j : ℕ) (c : Dev nD) : outs m j main_v22 c = out0 m c := by unfold outs; rw [dif_pos rfl]
theorem outs_47 (j : ℕ) (c : Dev nD) : outs m j main_v47 c = out1 m c := by
  unfold outs; rw [dif_neg (by decide), dif_pos rfl]
theorem outs_72 (j : ℕ) (c : Dev nD) : outs m j main_v72 c = out2 m c := by
  unfold outs; rw [dif_neg (by decide), dif_neg (by decide), dif_pos rfl]

/-- The buffers as each region finds them, and as it leaves them, over the final `outs`. -/
abbrev entry1 : (c : Dev nD) → (b : Ref sig .tc) → Buf (Elt F) ((c : Thread nD τ).loc b) := fun c b => V7 m (outs m) c b
abbrev entry2 : (c : Dev nD) → (b : Ref sig .tc) → Buf (Elt F) ((c : Thread nD τ).loc b) := fun c b => V11 m (outs m) c b
abbrev exit0 : (c : Dev nD) → (b : Ref sig .tc) → Buf (Elt F) ((c : Thread nD τ).loc b) := fun c b => V4 m (outs m) c b
abbrev exit1 : (c : Dev nD) → (b : Ref sig .tc) → Buf (Elt F) ((c : Thread nD τ).loc b) := fun c b => V8 m (outs m) c b
abbrev exit2 : (c : Dev nD) → (b : Ref sig .tc) → Buf (Elt F) ((c : Thread nD τ).loc b) := fun c b => V12 m (outs m) c b

/-- The valuation a region is entered from reads only the outputs of the regions before it. -/
theorem entry1_eq : entry1 m = entry1' m := by
  funext c b
  simp only [entry1, entry1', V7, V6, V5, V4, outs_22, outs1_22]
theorem entry2_eq : entry2 m = entry2' m := by
  funext c b
  simp only [entry2, entry2', V11, V10, V9, V8, V7, V6, V5, V4, outs_22, outs2_22, outs_47, outs2_47]

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c

/-- No core owes another anything: no level is assigned. -/
abbrev L0 : GSem nD τ sig → Finset Unit := fun _ => ∅
abbrev lv0 : GSem nD τ sig → Unit → ℕ := fun _ _ => 0
/-- What rides beside the buffers through every item: the core's generator register at some state and its `owes`, at
    nothing. -/
abbrev Rest (c : Dev nD) : sProp 𝕄 := iprop((∃ r, prngReg c r) ∗ ∃ W, owes (c : Thread nD τ) (0 : CellTallies nD τ sig Unit) W)

set_option maxHeartbeats 1000000 in
/-- At region 0's exit each of its arrays holds what the pipeline leaves: the two inputs what they held (no region writes an
    input), the output the region's result by the definition of `outs`. -/
theorem hF0 (c : Dev nD) (w : Fin cfg0.W) : (pdats m 0 c).arrAt w cfg0.N = exit0 m c (Pipeline.arrRef spec0 w) :=
  match w with
  | ⟨0, _⟩ => ((pdats m 0 c).arrAt_in 0 rfl _).trans (V4_of m (outs m) c main_v21 (by decide)).symm
  | ⟨1, _⟩ => ((pdats m 0 c).arrAt_in 1 rfl _).trans (V4_of m (outs m) c main_v4 (by decide)).symm
  | ⟨2, _⟩ => by
    have e : exit0 m c main_v22 = out0 m c := by
      simp only [exit0, V4, Function.update_self]; exact outs_22 m 4 c
    exact Eq.trans rfl e.symm
  | ⟨_ + 3, h⟩ => absurd h (Nat.not_lt.2 (Nat.le_add_left _ _))
/-- Every other buffer keeps its entry contents. -/
theorem hrest0 (c : Dev nD) : ∀ b, b ∉ Finset.univ.image (Pipeline.arrRef spec0) → exit0 m c b = entry0 m c b :=
  fun b hb => V4_of m (outs m) c b (by
    intro hmem
    rw [List.mem_singleton] at hmem
    exact hb (Finset.mem_image.mpr ⟨2, Finset.mem_univ _, hmem.symm⟩))

set_option maxHeartbeats 1000000 in
/-- At region 1's exit each of its arrays holds what the pipeline leaves: the two inputs what they held (no region writes an
    input), the output the region's result by the definition of `outs`. -/
theorem hF1 (c : Dev nD) (w : Fin cfg1.W) : (pdats m 1 c).arrAt w cfg1.N = exit1 m c (Pipeline.arrRef spec1 w) :=
  match w with
  | ⟨0, _⟩ => ((pdats m 1 c).arrAt_in 0 rfl _).trans (V8_of m (outs m) c main_v46 (by decide)).symm
  | ⟨1, _⟩ => ((pdats m 1 c).arrAt_in 1 rfl _).trans (V8_of m (outs m) c main_v29 (by decide)).symm
  | ⟨2, _⟩ => by
    have e : exit1 m c main_v47 = out1 m c := by
      simp only [exit1, V8, Function.update_self]; exact outs_47 m 8 c
    refine Eq.trans ?_ e.symm
    unfold out1
    show (dat1 (entry1 m) c).arrAt 2 cfg1.N = _
    rw [entry1_eq]
  | ⟨_ + 3, h⟩ => absurd h (Nat.not_lt.2 (Nat.le_add_left _ _))
/-- Every other buffer keeps its entry contents. -/
theorem hrest1 (c : Dev nD) : ∀ b, b ∉ Finset.univ.image (Pipeline.arrRef spec1) → exit1 m c b = entry1 m c b :=
  fun b hb => V8_of m (outs m) c b (by
    intro hmem
    rw [List.mem_singleton] at hmem
    exact hb (Finset.mem_image.mpr ⟨2, Finset.mem_univ _, hmem.symm⟩))

set_option maxHeartbeats 1000000 in
/-- At region 2's exit each of its arrays holds what the pipeline leaves: the two inputs what they held (no region writes an
    input), the output the region's result by the definition of `outs`. -/
theorem hF2 (c : Dev nD) (w : Fin cfg2.W) : (pdats m 2 c).arrAt w cfg2.N = exit2 m c (Pipeline.arrRef spec2 w) :=
  match w with
  | ⟨0, _⟩ => ((pdats m 2 c).arrAt_in 0 rfl _).trans (V12_of m (outs m) c main_v71 (by decide)).symm
  | ⟨1, _⟩ => ((pdats m 2 c).arrAt_in 1 rfl _).trans (V12_of m (outs m) c main_v54 (by decide)).symm
  | ⟨2, _⟩ => by
    have e : exit2 m c main_v72 = out2 m c := by
      simp only [exit2, V12, Function.update_self]; exact outs_72 m 12 c
    refine Eq.trans ?_ e.symm
    unfold out2
    show (dat2 (entry2 m) c).arrAt 2 cfg2.N = _
    rw [entry2_eq]
  | ⟨_ + 3, h⟩ => absurd h (Nat.not_lt.2 (Nat.le_add_left _ _))
/-- Every other buffer keeps its entry contents. -/
theorem hrest2 (c : Dev nD) : ∀ b, b ∉ Finset.univ.image (Pipeline.arrRef spec2) → exit2 m c b = entry2 m c b :=
  fun b hb => V12_of m (outs m) c b (by
    intro hmem
    rw [List.mem_singleton] at hmem
    exact hb (Finset.mem_image.mpr ⟨2, Finset.mem_univ _, hmem.symm⟩))

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at the valuation before it, left at the one
    after it. Its arrays split out of the unscoped buffers and are put back at the exit contents; the generator register
    goes into the region's invariant and comes out; nothing owed; no semaphore of the kernel's own. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L0 lv0 0 fun _ _ => rfl
  pre c := iprop(StableHlo.held (c : Thread nD τ) (Pipeline.ucRefs τ sig) (V3 m c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (hout0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at the valuation before it, left at the one
    after it. Its arrays split out of the unscoped buffers and are put back at the exit contents; the generator register
    goes into the region's invariant and comes out; nothing owed; no semaphore of the kernel's own. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L0 lv0 1 fun _ _ => rfl
  pre c := iprop(StableHlo.held (c : Thread nD τ) (Pipeline.ucRefs τ sig) (V7 m (outs m) c) ∗ Rest c)
  post c := iprop(StableHlo.held (c : Thread nD τ) (Pipeline.ucRefs τ sig) (V8 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans ((show (pdats m 1 c).Φ (Fin.last _) ⊢ Pipeline.ΦA spec1 c from .rfl)) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at the valuation before it, left at the one
    after it. Its arrays split out of the unscoped buffers and are put back at the exit contents; the generator register
    goes into the region's invariant and comes out; nothing owed; no semaphore of the kernel's own. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ L0 lv0 2 fun _ _ => rfl
  pre c := iprop(StableHlo.held (c : Thread nD τ) (Pipeline.ucRefs τ sig) (V11 m (outs m) c) ∗ Rest c)
  post c := iprop(StableHlo.held (c : Thread nD τ) (Pipeline.ucRefs τ sig) (V12 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine BIBase.Entails.trans ((show (pdats m 2 c).Φ (Fin.last _) ⊢ Pipeline.ΦA spec2 c from .rfl)) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- The run of @main given the three regions' records: as the conditional frame, with the post read at EVERY unscoped
    buffer — each holds, in every final memory, the last valuation's contents (the results among them). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, hpre0 c, hpost0 c, .rfl, .rfl, hpre1 c, hpost1 c, .rfl, .rfl, hpre2 c, hpost2 c, sep_mono .rfl (hE3 c)⟩)
    (hinit := ?_) (QY := fun c s => ∀ b ∈ Pipeline.ucRefs τ sig, s.mem ((c : Thread nD τ).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main on the TensorCores terminates,
    nothing faulting, and every final memory holds every unscoped buffer at the last valuation: the launch hands each core
    its buffers, its generator register and an empty debt; each region is entered from and left at the valuations
    above; nothing is owed at the end. -/
theorem run_all : θ_run defs (onTc (τ := τ) (main (F := F))) ⟨m, fun _ => 0, ρ⟩ (fun r => ∀ c : Dev nD,
    ∀ b ∈ Pipeline.ucRefs τ sig, r.2.mem ((c : Thread nD τ).1, b) = V13 m (outs m) c b) :=
  run_cond m emb₁ () Variants.none L0 lv0 (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := Pipeline.initEach L0 lv0 fun c => by
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

/-- THE FRAME: the run read at the seventeen argument arrays, none of which a host operation or a region writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (V13_main_arg0 m (outs m) c),
      (h c _ (mem_uc main_arg1 (by decide))).trans (V13_main_arg1 m (outs m) c),
      (h c _ (mem_uc main_arg2 (by decide))).trans (V13_main_arg2 m (outs m) c),
      (h c _ (mem_uc main_arg3 (by decide))).trans (V13_main_arg3 m (outs m) c),
      (h c _ (mem_uc main_arg4 (by decide))).trans (V13_main_arg4 m (outs m) c),
      (h c _ (mem_uc main_arg5 (by decide))).trans (V13_main_arg5 m (outs m) c),
      (h c _ (mem_uc main_arg6 (by decide))).trans (V13_main_arg6 m (outs m) c),
      (h c _ (mem_uc main_arg7 (by decide))).trans (V13_main_arg7 m (outs m) c),
      (h c _ (mem_uc main_arg8 (by decide))).trans (V13_main_arg8 m (outs m) c),
      (h c _ (mem_uc main_arg9 (by decide))).trans (V13_main_arg9 m (outs m) c),
      (h c _ (mem_uc main_arg10 (by decide))).trans (V13_main_arg10 m (outs m) c),
      (h c _ (mem_uc main_arg11 (by decide))).trans (V13_main_arg11 m (outs m) c),
      (h c _ (mem_uc main_arg12 (by decide))).trans (V13_main_arg12 m (outs m) c),
      (h c _ (mem_uc main_arg13 (by decide))).trans (V13_main_arg13 m (outs m) c),
      (h c _ (mem_uc main_arg14 (by decide))).trans (V13_main_arg14 m (outs m) c),
      (h c _ (mem_uc main_arg15 (by decide))).trans (V13_main_arg15 m (outs m) c),
      (h c _ (mem_uc main_arg16 (by decide))).trans (V13_main_arg16 m (outs m) c)⟩) (run_all m ρ)

end Cert.Kernel.Run

end
-- ==== Proof.KernelIdeal.Region0.lean ====
/-
  The first matrix product of the program, on one core: a 3000 x 51200 array times a 51200 x 64 array, the contracted
  axis cut into 40 blocks of 1280. The grid walks the 40 blocks. A scratch buffer carries the running sum: it is
  zeroed at the first step, gains one block product per step, and at the last step is stored whole into the output
  window's buffer, which is written back only then (before that the window is idle). This module states what each
  step does to the buffers, the running sum after each step, the invariant that carries it from step to step, and
  proves the per-step obligation of the pipeline rule. Everything here holds at any float instance.
-/
import proofs.«403239_j43198781063350_1_alg».proof.Proof.Gen.KernelIdeal.Regions
import proofs.«403239_j43198781063350_1_alg».proof.Proof.Gen.KernelIdeal.Points
import proofs.«403239_j43198781063350_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One step of the body, in its three cases -/

/-- The branch on "this is the first step along the contracted grid axis" (the accumulator is zeroed). -/
abbrev cond0_0 (i : grid0.Coords) : Prop := (Scalar.cmpi .ne (Scalar.extui (Scalar.cmpi .eq (BitVec.ofNat 32 (i 1).val) 0#32)) 0#32) = 1#1
/-- The branch on "this is the last step along the contracted grid axis" (the accumulator is stored to the output). -/
abbrev cond0_1 (i : grid0.Coords) : Prop := k0_cond2 i = 1#1

theorem zeroOff_3000x64 : (![0, 0] : Fin S3000x64.rank → Nat) = fun _ => 0 := by funext a; fin_cases a <;> rfl
theorem zeroOff_3000x1280 : (![0, 0] : Fin S3000x1280.rank → Nat) = fun _ => 0 := by funext a; fin_cases a <;> rfl
theorem zeroOff_1280x64 : (![0, 0] : Fin S1280x64.rank → Nat) = fun _ => 0 := by funext a; fin_cases a <;> rfl

set_option maxHeartbeats 4000000 in
/-- A middle step: the accumulator gains this step's product; the output buffer is not touched. -/
theorem sound_kernel0_mid (c : Dev nD) (E : Set ℕ) (i : grid0.Coords)
    (arg2 : Memref sig .tc .vmem S3000x1280 .bf16) (harg2 : arg2.IsWhole) (arg3 : Memref sig .tc .vmem S1280x64 .bf16) (harg3 : arg3.IsWhole)
    (arg4 : Memref sig .tc .vmem S3000x64 .f32) (harg4 : arg4.IsWhole) (arg5 : Memref sig .tc .vmem S3000x64 .f32) (harg5 : arg5.IsWhole)
    (hc0 : ¬cond0_0 i) (hc1 : ¬cond0_1 i)
    (x0 : Vec F S3000x1280 .bf16) (x1 : Vec F S1280x64 .bf16) (xo : Vec F S3000x64 .f32) (xs : Vec F S3000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 xs x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [View.read_writes_eq_canon _ _ _ (fun y => ⟨_, List.mem_singleton_self _, View.mem_set_unit_zero zeroOff_3000x64 inb_S3000x64_S3000x64_0_0 y⟩),
    View.canon_unit_zero zeroOff_3000x64]
  simp only [View.readAt_eq_ld, harg5.read_unread, harg2.read_unread, harg3.read_unread,
    View.ld_unit_zero (S := S3000x64) zeroOff_3000x64, View.ld_unit_zero (S := S3000x1280) zeroOff_3000x1280,
    View.ld_unit_zero (S := S1280x64) zeroOff_1280x64, View.readCov_unit_zero (S := S3000x64) _ zeroOff_3000x64]

set_option maxHeartbeats 4000000 in
/-- The first step: whatever the accumulator held, it is zeroed and gains this step's product; the output buffer is
    not touched. -/
theorem sound_kernel0_first (c : Dev nD) (E : Set ℕ) (i : grid0.Coords)
    (arg2 : Memref sig .tc .vmem S3000x1280 .bf16) (harg2 : arg2.IsWhole) (arg3 : Memref sig .tc .vmem S1280x64 .bf16) (harg3 : arg3.IsWhole)
    (arg4 : Memref sig .tc .vmem S3000x64 .f32) (harg4 : arg4.IsWhole) (arg5 : Memref sig .tc .vmem S3000x64 .f32) (harg5 : arg5.IsWhole)
    (hc0 : cond0_0 i) (hc1 : ¬cond0_1 i)
    (x0 : Vec F S3000x1280 .bf16) (x1 : Vec F S1280x64 .bf16) (xo : Vec F S3000x64 .f32) (xs : Vec F S3000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 (k0_pay1 (F := F)) x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr; · ipureintro; exact harg4.read_unread _
    iexact HO
  iexists _; isplitr
  swap; · iexact HS
  ipureintro
  rw [View.read_writes_eq_canon _ _ _ (fun y => ⟨_, List.mem_cons_self, View.mem_set_unit_zero zeroOff_3000x64 inb_S3000x64_S3000x64_0_0 y⟩),
    View.canon_cons_unit_zero zeroOff_3000x64]
  sl_unfold_run_names
  simp only [View.readAt_eq_ld, harg5.read_unread, harg2.read_unread, harg3.read_unread,
    View.ld_unit_zero (S := S3000x64) zeroOff_3000x64, View.ld_unit_zero (S := S3000x1280) zeroOff_3000x1280,
    View.ld_unit_zero (S := S1280x64) zeroOff_1280x64, View.readCov_unit_zero (S := S3000x64) _ zeroOff_3000x64]

set_option maxHeartbeats 4000000 in
/-- The last step: the accumulator gains this step's product, and the output buffer is stored whole with it. -/
theorem sound_kernel0_last (c : Dev nD) (E : Set ℕ) (i : grid0.Coords)
    (arg2 : Memref sig .tc .vmem S3000x1280 .bf16) (harg2 : arg2.IsWhole) (arg3 : Memref sig .tc .vmem S1280x64 .bf16) (harg3 : arg3.IsWhole)
    (arg4 : Memref sig .tc .vmem S3000x64 .f32) (harg4 : arg4.IsWhole) (arg5 : Memref sig .tc .vmem S3000x64 .f32) (harg5 : arg5.IsWhole)
    (hc0 : ¬cond0_0 i) (hc1 : cond0_1 i)
    (x0 : Vec F S3000x1280 .bf16) (x1 : Vec F S1280x64 .bf16) (xo : Vec F S3000x64 .f32) (xs : Vec F S3000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k0_pay2 xs x0 x1)
            ∗ owns (c : Thread nD τ) arg5 fullShare (k0_pay2 xs x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    rw [View.read_writes_eq_canon _ _ _ (fun y => ⟨_, List.mem_singleton_self _, View.mem_set_unit_zero zeroOff_3000x64 inb_S3000x64_S3000x64_0_0 y⟩),
      View.canon_unit_zero zeroOff_3000x64]
    sl_unfold_run_names
    simp only [View.readAt_eq_ld, harg5.read_unread, harg2.read_unread, harg3.read_unread,
    View.ld_unit_zero (S := S3000x64) zeroOff_3000x64, View.ld_unit_zero (S := S3000x1280) zeroOff_3000x1280,
    View.ld_unit_zero (S := S1280x64) zeroOff_1280x64, View.readCov_unit_zero (S := S3000x64) _ zeroOff_3000x64]
  iexists _; isplitr
  swap; · iexact HS
  ipureintro
  sl_unfold_run_names
  rw [View.read_writes_eq_canon _ _ _ (fun y => ⟨_, List.mem_singleton_self _, View.mem_set_unit_zero zeroOff_3000x64 inb_S3000x64_S3000x64_0_0 y⟩),
    View.canon_unit_zero zeroOff_3000x64]
  simp only [View.readAt_eq_ld, harg5.read_unread, harg2.read_unread, harg3.read_unread,
    View.ld_unit_zero (S := S3000x64) zeroOff_3000x64, View.ld_unit_zero (S := S3000x1280) zeroOff_3000x1280,
    View.ld_unit_zero (S := S1280x64) zeroOff_1280x64, View.readCov_unit_zero (S := S3000x64) _ zeroOff_3000x64]

/-! ## Where the two branches are taken, and where the output window is idle -/

/-- The accumulator is zeroed at the first of the 40 steps only. -/
theorem hcond0_0 : ∀ t : Fin cfg0.N, cond0_0 (grid0.coords t) ↔ t.val % 40 = 0 :=
  (by decide +kernel : ∀ t : Fin grid0.N, cond0_0 (grid0.coords t) ↔ t.val % 40 = 0)
/-- The output is stored at the last of the 40 steps only. -/
theorem hcond0_1 : ∀ t : Fin cfg0.N, cond0_1 (grid0.coords t) ↔ t.val % 40 = 39 :=
  (by decide +kernel : ∀ t : Fin grid0.N, cond0_1 (grid0.coords t) ↔ t.val % 40 = 39)
theorem liveAt0_0 : ∀ t : Fin cfg0.N, cfg0.idle 0 (grid0.coords t) = false := by decide +kernel
theorem liveAt0_1 : ∀ t : Fin cfg0.N, cfg0.idle 1 (grid0.coords t) = false := by decide +kernel
/-- Before the last step the output window is idle: nothing is stored into its buffer, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

section Region0

-- the TensorCore's buffer contents when the region is entered
variable (V : (c : Dev nD) → (b : Ref sig .tc) → Buf (Elt F) ((c : Thread nD τ).loc b))

/-! ## The windows' blocks -/

/-- Window `w`'s block at step `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every step, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running sum -/

/-- What the accumulator holds after step `n`: zero plus the products of the column blocks 0 … n of the left
    array with the row blocks 0 … n of the right array, added one step at a time. -/
def acc0 (c : Dev nD) : (n : ℕ) → n < cfg0.N → Vec F S3000x64 .f32
  | 0, hn => k0_pay2 (k0_pay1 (F := F)) (iblk0 V c 0 ⟨0, hn⟩) (iblk0 V c 1 ⟨0, hn⟩)
  | n + 1, hn => k0_pay2 (acc0 c n (Nat.lt_of_succ_lt hn)) (iblk0 V c 0 ⟨n + 1, hn⟩) (iblk0 V c 1 ⟨n + 1, hn⟩)

theorem acc0_first (c : Dev nD) (t : Fin cfg0.N) (hz : t.val = 0) :
    acc0 V c t.val t.isLt = k0_pay2 (k0_pay1 (F := F)) (iblk0 V c 0 t) (iblk0 V c 1 t) := by
  obtain ⟨n, hn⟩ := t
  cases n with
  | zero => rfl
  | succ n => exact absurd hz (Nat.succ_ne_zero n)

theorem acc0_next (c : Dev nD) (t : Fin cfg0.N) (hz : t.val ≠ 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd rfl hz
  | succ n => rfl

/-! ## The region's invariant -/

/-- The accumulator: a whole scoped buffer of the kernel's own. -/
abbrev sc0 : Memref sig .tc .vmem S3000x64 .f32 := Memref.whole cc0_scratch0

/-- The core's other scoped buffers that this region stages nothing in, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- Before step `n`: at the first step every scoped buffer at anything; afterwards the accumulator at the running
    sum of the steps before, the other scoped buffers at anything; the generator register at some state. -/
def PhiS0 (c : Dev nD) : (n : ℕ) → n ≤ cfg0.N → sProp 𝕄
  | 0, _ => Pipeline.ΦA spec0 c
  | n + 1, hn => iprop(iprop(owns (c : Thread nD τ) sc0 fullShare (acc0 V c n hn) ∗ others0 c) ∗ (∃ r, prngReg c r))

theorem PhiA0_eq (c : Dev nD) :
    (Pipeline.ΦA spec0 c : sProp 𝕄)
      = iprop(iprop((∃ d, owns (c : Thread nD τ) sc0 fullShare d) ∗ others0 c) ∗ (∃ r, prngReg c r)) := by
  unfold Pipeline.ΦA others0; rw [scopedRest0_eq]; simp only [sc0, owns_whole]; try rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) sc0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) sc0 fullShare (acc0 V c (n - 1) (by omega)) ∗ others0 c) ∗ (∃ r, prngReg c r)) := by
  cases n with
  | zero => exact absurd rfl hz
  | succ n => rfl

/-! ## The proof data -/

/-- The arrays as the region finds them; after step `t` each input's buffer at its block and the output's at the
    running sum (consulted at the last step only: before it the window is idle); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem Phi0_castSucc (c : Dev nD) (t : Fin cfg0.N) :
    (dat0 V c).Φ t.castSucc = PhiS0 V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any step. The inputs' buffers hold their blocks; the step is the first, a middle one or the last
    (the two branches' closed forms); the invariant hands over the accumulator at the running sum so far (at anything
    at the first step) and takes it back one product further; before the last step the output buffer goes back as
    it came, at the last it holds the whole sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 40 := lt_of_lt_of_eq t.isLt (show cfg0.N = 40 from N_0)
  by_cases h1 : t.val % 40 = 39
  · -- the last step
    have h0 : ¬ t.val % 40 = 0 := by omega
    have hz : t.val ≠ 0 := by omega
    rw [show (dat0 V c).leavesExact 2 t = owns (c : Thread nD τ) (st0_2 t) fullShare ((dat0 V c).after 2 t) from by
      unfold Dat.leavesExact; rw [liveAt0_2 t ((hcond0_1 t).mpr h1)], after0_2]
    rw [acc0_next V c t hz, Phi0_castSucc V c t, PhiS0_pos V c _ _ hz]
    iintro ⟨⟨⟨HS, Hoth⟩, Hg⟩, Ho, ⟨%d0, H0⟩, ⟨%d1, H1⟩, ⟨%d2, H2⟩⟩
    iapply (sound_kernel0_last c Set.univ (grid0.coords t) _ _ _ _ _ _ _ _ (fun h => h0 ((hcond0_0 t).mp h)) ((hcond0_1 t).mpr h1)
      (iblk0 V c 0 t) (iblk0 V c 1 t) _ _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases hz : t.val = 0
    · -- the first step
      have h0 : t.val % 40 = 0 := by omega
      rw [acc0_first V c t hz, Phi0_castSucc V c t, PhiS0_zero V c _ _ hz, PhiA0_eq]
      iintro ⟨⟨⟨⟨%ds, HS⟩, Hoth⟩, Hg⟩, Ho, ⟨%d0, H0⟩, ⟨%d1, H1⟩, ⟨%d2, H2⟩⟩
      iapply (sound_kernel0_first c Set.univ (grid0.coords t) _ _ _ _ _ _ _ _ ((hcond0_0 t).mpr h0) (fun h => h1 ((hcond0_1 t).mp h))
        (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · -- a middle step
      have h0 : ¬ t.val % 40 = 0 := by omega
      rw [acc0_next V c t hz, Phi0_castSucc V c t, PhiS0_pos V c _ _ hz]
      iintro ⟨⟨⟨HS, Hoth⟩, Hg⟩, Ho, ⟨%d0, H0⟩, ⟨%d1, H1⟩, ⟨%d2, H2⟩⟩
      iapply (sound_kernel0_mid c Set.univ (grid0.coords t) _ _ _ _ _ _ _ _ (fun h => h0 ((hcond0_0 t).mp h)) (fun h => h1 ((hcond0_1 t).mp h))
        (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every step. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first step. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last step the invariant gives the scoped buffers back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 40 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hoth⟩, Hg⟩
  isplitl [HS Hoth]
  · isplitl [HS]; · iexists _; iexact HS
    iexact Hoth
  iexact Hg

end Region0

end Cert.KernelIdeal.Run
end
-- ==== Proof.KernelIdeal.Region1.lean ====
/-
  The second matrix product of the program, on one core: a 50000 x 3072 array times a 3072 x 64 array, the left array cut into
  50 row blocks of 1000 rows; the contracted axis is one block, so every grid step is at once the first and the last step
  along it: the scratch accumulator is zeroed, gains the step's one product, and is stored whole into the output window's
  buffer, which is written back at every step. This module states what a step does to the buffers and proves the per-step
  obligation of the pipeline rule; the region's invariant is the same before every step (the scoped buffers at
  anything). Everything here holds at any float instance.
-/
import proofs.«403239_j43198781063350_1_alg».proof.Proof.Gen.KernelIdeal.Regions
import proofs.«403239_j43198781063350_1_alg».proof.Proof.Gen.KernelIdeal.Points
import proofs.«403239_j43198781063350_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«403239_j43198781063350_1_alg».proof.Proof.LibWholeStore

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One step of the body -/

/-- The branch on "first step along the contracted axis": taken at every step of this grid. -/
abbrev cond1_0 (i : grid1.Coords) : Prop := (Scalar.cmpi .ne (Scalar.extui (Scalar.cmpi .eq (BitVec.ofNat 32 (i 1).val) 0#32)) 0#32) = 1#1
/-- The branch on "last step along the contracted axis": taken at every step of this grid. -/
abbrev cond1_1 (i : grid1.Coords) : Prop := k1_cond2 i = 1#1

theorem zeroOff1_out : (![0, 0] : Fin S1000x64.rank → Nat) = fun _ => 0 := by funext a; fin_cases a <;> rfl
theorem zeroOff1_lhs : (![0, 0] : Fin S1000x3072.rank → Nat) = fun _ => 0 := by funext a; fin_cases a <;> rfl
theorem zeroOff1_rhs : (![0, 0] : Fin S3072x64.rank → Nat) = fun _ => 0 := by funext a; fin_cases a <;> rfl

set_option maxHeartbeats 4000000 in
/-- A step: whatever the accumulator and the output buffer held, both end at zero plus the product of the two input
    blocks. -/
theorem sound_kernel1 (c : Dev nD) (E : Set ℕ) (i : grid1.Coords)
    (arg2 : Memref sig .tc .vmem S1000x3072 .bf16) (harg2 : arg2.IsWhole) (arg3 : Memref sig .tc .vmem S3072x64 .bf16) (harg3 : arg3.IsWhole)
    (arg4 : Memref sig .tc .vmem S1000x64 .f32) (harg4 : arg4.IsWhole) (arg5 : Memref sig .tc .vmem S1000x64 .f32) (harg5 : arg5.IsWhole)
    (hc0 : cond1_0 i) (hc1 : cond1_1 i)
    (x0 : Vec F S1000x3072 .bf16) (x1 : Vec F S3072x64 .bf16) (xo : Vec F S1000x64 .f32) (xs : Vec F S1000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k1_pay2 (k1_pay1 (F := F)) x0 x1)
            ∗ owns (c : Thread nD τ) arg5 fullShare (k1_pay2 (k1_pay1 (F := F)) x0 x1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    rw [View.read_writes_eq_canon _ _ _ (fun y => ⟨_, List.mem_cons_self, View.mem_set_unit_zero zeroOff1_out inb_S1000x64_S1000x64_0_0 y⟩),
      View.canon_cons_unit_zero zeroOff1_out]
    simp only [View.readAt_eq_ld, harg5.read_unread, harg2.read_unread, harg3.read_unread,
      View.ld_unit_zero (S := S1000x64) zeroOff1_out, View.ld_unit_zero (S := S1000x3072) zeroOff1_lhs,
      View.ld_unit_zero (S := S3072x64) zeroOff1_rhs, Cert.LibWholeStore.readCov_cons_unit_zero (S := S1000x64) _ zeroOff1_out]
  iexists _; isplitr
  swap; · iexact HS
  ipureintro
  sl_unfold_run_names
  rw [View.read_writes_eq_canon _ _ _ (fun y => ⟨_, List.mem_cons_self, View.mem_set_unit_zero zeroOff1_out inb_S1000x64_S1000x64_0_0 y⟩),
    View.canon_cons_unit_zero zeroOff1_out]
  simp only [View.readAt_eq_ld, harg5.read_unread, harg2.read_unread, harg3.read_unread,
    View.ld_unit_zero (S := S1000x64) zeroOff1_out, View.ld_unit_zero (S := S1000x3072) zeroOff1_lhs,
    View.ld_unit_zero (S := S3072x64) zeroOff1_rhs, Cert.LibWholeStore.readCov_cons_unit_zero (S := S1000x64) _ zeroOff1_out]

/-! ## The two branches are taken at every step; no window is ever idle -/

theorem hcond1_0 : ∀ t : Fin cfg1.N, cond1_0 (grid1.coords t) :=
  (by decide +kernel : ∀ t : Fin grid1.N, cond1_0 (grid1.coords t))
theorem hcond1_1 : ∀ t : Fin cfg1.N, cond1_1 (grid1.coords t) :=
  (by decide +kernel : ∀ t : Fin grid1.N, cond1_1 (grid1.coords t))
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

section Region1

-- the TensorCore's buffer contents when the region is entered
variable (V : (c : Dev nD) → (b : Ref sig .tc) → Buf (Elt F) ((c : Thread nD τ).loc b))

/-! ## The windows' blocks -/

/-- Window `w`'s block at step `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every step, fetched there or not (the right array's one block
    is fetched once and stays). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The region's invariant -/

/-- The accumulator: a whole scoped buffer of the kernel's own. -/
abbrev sc1 : Memref sig .tc .vmem S1000x64 .f32 := Memref.whole cc1_scratch0

/-- The core's other scoped buffers that this region stages nothing in, unopened. -/
abbrev others1 (c : Dev nD) : sProp 𝕄 :=
  Pipeline.scopedRestBut (Ix := Unit) (Name := ℕ) (U := UR sig nD τ) (Lvl := ℕ) (Val := Elt F) spec1 c [cc1_scratch0]

/-- The class invariant with the accumulator taken out of the scoped rest. -/
theorem PhiA1_eq (c : Dev nD) :
    (Pipeline.ΦA spec1 c : sProp 𝕄)
      = iprop(iprop((∃ d, owns (c : Thread nD τ) sc1 fullShare d) ∗ others1 c) ∗ (∃ r, prngReg c r)) := by
  unfold Pipeline.ΦA
  rw [Pipeline.scopedRest_split_of_list spec1 c [cc1_scratch0] (by decide) (by decide)]
  simp only [sc1, owns_whole, bigSepL_singleton]
  try rfl

/-! ## The proof data -/

/-- The arrays as the region finds them; after step `t` each input's buffer at its block and the output's at zero plus
    the product of the two blocks; the invariant the class's at every step; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (k1_pay1 (F := F)) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay2 (k1_pay1 (F := F)) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any step: the inputs' buffers hold their blocks; the invariant lends the accumulator at anything and
    takes it back at anything; the output buffer ends at the step's product. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  iintro ⟨⟨⟨⟨%ds, HS⟩, Hoth⟩, Hg⟩, Ho, ⟨%d0, H0⟩, ⟨%d1, H1⟩, ⟨%d2, H2⟩⟩
  iapply (sound_kernel1 c Set.univ (grid1.coords t) _ _ _ _ _ _ _ _ (hcond1_0 t) (hcond1_1 t)
    (iblk1 V c 0 t) (iblk1 V c 1 t) _ _ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexists _; iexact HS
      iexact Hoth
    iexact Hg
  isplitl [Ho]; · iexact Ho
  isplitl [H0]; · iexact H0
  isplitl [H1]; · iexact H1
  iexact H2

/-- The library's body obligation, at every step. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Run
end
-- ==== Proof.KernelIdeal.Region2.lean ====
/-
  The third matrix product of the program, on one core: a 3000 x 3072 array times a 3072 x 64 array, the left array cut into
  3 row blocks of 1000 rows; the contracted axis is one block, so every grid step is at once the first and the last step
  along it: the scratch accumulator is zeroed, gains the step's one product, and is stored whole into the output window's
  buffer, which is written back at every step. This module states what a step does to the buffers and proves the per-step
  obligation of the pipeline rule; the region's invariant is the same before every step (the scoped buffers at
  anything). Everything here holds at any float instance.
-/
import proofs.«403239_j43198781063350_1_alg».proof.Proof.Gen.KernelIdeal.Regions
import proofs.«403239_j43198781063350_1_alg».proof.Proof.Gen.KernelIdeal.Points
import proofs.«403239_j43198781063350_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«403239_j43198781063350_1_alg».proof.Proof.LibWholeStore

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One step of the body -/

/-- The branch on "first step along the contracted axis": taken at every step of this grid. -/
abbrev cond2_0 (i : grid2.Coords) : Prop := (Scalar.cmpi .ne (Scalar.extui (Scalar.cmpi .eq (BitVec.ofNat 32 (i 1).val) 0#32)) 0#32) = 1#1
/-- The branch on "last step along the contracted axis": taken at every step of this grid. -/
abbrev cond2_1 (i : grid2.Coords) : Prop := k2_cond2 i = 1#1

theorem zeroOff2_out : (![0, 0] : Fin S1000x64.rank → Nat) = fun _ => 0 := by funext a; fin_cases a <;> rfl
theorem zeroOff2_lhs : (![0, 0] : Fin S1000x3072.rank → Nat) = fun _ => 0 := by funext a; fin_cases a <;> rfl
theorem zeroOff2_rhs : (![0, 0] : Fin S3072x64.rank → Nat) = fun _ => 0 := by funext a; fin_cases a <;> rfl

set_option maxHeartbeats 4000000 in
/-- A step: whatever the accumulator and the output buffer held, both end at zero plus the product of the two input
    blocks. -/
theorem sound_kernel2 (c : Dev nD) (E : Set ℕ) (i : grid2.Coords)
    (arg2 : Memref sig .tc .vmem S1000x3072 .bf16) (harg2 : arg2.IsWhole) (arg3 : Memref sig .tc .vmem S3072x64 .bf16) (harg3 : arg3.IsWhole)
    (arg4 : Memref sig .tc .vmem S1000x64 .f32) (harg4 : arg4.IsWhole) (arg5 : Memref sig .tc .vmem S1000x64 .f32) (harg5 : arg5.IsWhole)
    (hc0 : cond2_0 i) (hc1 : cond2_1 i)
    (x0 : Vec F S1000x3072 .bf16) (x1 : Vec F S3072x64 .bf16) (xo : Vec F S1000x64 .f32) (xs : Vec F S1000x64 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1
            ∗ owns (c : Thread nD τ) arg4 fullShare (k2_pay2 (k2_pay1 (F := F)) x0 x1)
            ∗ owns (c : Thread nD τ) arg5 fullShare (k2_pay2 (k2_pay1 (F := F)) x0 x1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%fo, %hfo, HO⟩, ⟨%fs, %hfs, HS⟩, Hk⟩
  obtain rfl := harg2.eq_unread hf0; obtain rfl := harg3.eq_unread hf1; obtain rfl := harg4.eq_unread hfo; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HO]
  · iexists _; isplitr
    swap; · iexact HO
    ipureintro
    sl_unfold_run_names
    rw [View.read_writes_eq_canon _ _ _ (fun y => ⟨_, List.mem_cons_self, View.mem_set_unit_zero zeroOff2_out inb_S1000x64_S1000x64_0_0 y⟩),
      View.canon_cons_unit_zero zeroOff2_out]
    simp only [View.readAt_eq_ld, harg5.read_unread, harg2.read_unread, harg3.read_unread,
      View.ld_unit_zero (S := S1000x64) zeroOff2_out, View.ld_unit_zero (S := S1000x3072) zeroOff2_lhs,
      View.ld_unit_zero (S := S3072x64) zeroOff2_rhs, Cert.LibWholeStore.readCov_cons_unit_zero (S := S1000x64) _ zeroOff2_out]
  iexists _; isplitr
  swap; · iexact HS
  ipureintro
  sl_unfold_run_names
  rw [View.read_writes_eq_canon _ _ _ (fun y => ⟨_, List.mem_cons_self, View.mem_set_unit_zero zeroOff2_out inb_S1000x64_S1000x64_0_0 y⟩),
    View.canon_cons_unit_zero zeroOff2_out]
  simp only [View.readAt_eq_ld, harg5.read_unread, harg2.read_unread, harg3.read_unread,
    View.ld_unit_zero (S := S1000x64) zeroOff2_out, View.ld_unit_zero (S := S1000x3072) zeroOff2_lhs,
    View.ld_unit_zero (S := S3072x64) zeroOff2_rhs, Cert.LibWholeStore.readCov_cons_unit_zero (S := S1000x64) _ zeroOff2_out]

/-! ## The two branches are taken at every step; no window is ever idle -/

theorem hcond2_0 : ∀ t : Fin cfg2.N, cond2_0 (grid2.coords t) :=
  (by decide +kernel : ∀ t : Fin grid2.N, cond2_0 (grid2.coords t))
theorem hcond2_1 : ∀ t : Fin cfg2.N, cond2_1 (grid2.coords t) :=
  (by decide +kernel : ∀ t : Fin grid2.N, cond2_1 (grid2.coords t))
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

section Region2

-- the TensorCore's buffer contents when the region is entered
variable (V : (c : Dev nD) → (b : Ref sig .tc) → Buf (Elt F) ((c : Thread nD τ).loc b))

/-! ## The windows' blocks -/

/-- Window `w`'s block at step `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every step, fetched there or not (the right array's one block
    is fetched once and stays). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The region's invariant -/

/-- The accumulator: a whole scoped buffer of the kernel's own. -/
abbrev sc2 : Memref sig .tc .vmem S1000x64 .f32 := Memref.whole cc2_scratch0

/-- The core's other scoped buffers that this region stages nothing in, unopened. -/
abbrev others2 (c : Dev nD) : sProp 𝕄 :=
  Pipeline.scopedRestBut (Ix := Unit) (Name := ℕ) (U := UR sig nD τ) (Lvl := ℕ) (Val := Elt F) spec2 c [cc2_scratch0]

/-- The class invariant with the accumulator taken out of the scoped rest. -/
theorem PhiA2_eq (c : Dev nD) :
    (Pipeline.ΦA spec2 c : sProp 𝕄)
      = iprop(iprop((∃ d, owns (c : Thread nD τ) sc2 fullShare d) ∗ others2 c) ∗ (∃ r, prngReg c r)) := by
  unfold Pipeline.ΦA
  rw [Pipeline.scopedRest_split_of_list spec2 c [cc2_scratch0] (by decide) (by decide)]
  simp only [sc2, owns_whole, bigSepL_singleton]
  try rfl

/-! ## The proof data -/

/-- The arrays as the region finds them; after step `t` each input's buffer at its block and the output's at zero plus
    the product of the two blocks; the invariant the class's at every step; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (k2_pay1 (F := F)) (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay2 (k2_pay1 (F := F)) (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any step: the inputs' buffers hold their blocks; the invariant lends the accumulator at anything and
    takes it back at anything; the output buffer ends at the step's product. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  iintro ⟨⟨⟨⟨%ds, HS⟩, Hoth⟩, Hg⟩, Ho, ⟨%d0, H0⟩, ⟨%d1, H1⟩, ⟨%d2, H2⟩⟩
  iapply (sound_kernel2 c Set.univ (grid2.coords t) _ _ _ _ _ _ _ _ (hcond2_0 t) (hcond2_1 t)
    (iblk2 V c 0 t) (iblk2 V c 1 t) _ _ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexists _; iexact HS
      iexact Hoth
    iexact Hg
  isplitl [Ho]; · iexact Ho
  isplitl [H0]; · iexact H0
  isplitl [H1]; · iexact H1
  iexact H2

/-- The library's body obligation, at every step. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Run
end
-- ==== Proof.KernelIdeal.Run.lean ====
/-
  The whole program's run on one core: host operations, the first matrix product, host operations, the second, host
  operations, the third, host operations. Between two items the core's unscoped buffers hold a known valuation: the
  launch memory pushed through the host operations, with each product's output array replaced by what that region's
  pipeline leaves in it. This module names those three arrays, gives every region its proof data at the valuation it
  is entered from, states each region's entry and exit around that valuation, and concludes: every weakly fair
  execution terminates, faults nowhere, and ends with every unscoped buffer — arguments and results — at the last
  valuation. Everything here holds at any float instance.
-/
import proofs.«403239_j43198781063350_1_alg».proof.Proof.KernelIdeal.Region0
import proofs.«403239_j43198781063350_1_alg».proof.Proof.KernelIdeal.Region1
import proofs.«403239_j43198781063350_1_alg».proof.Proof.KernelIdeal.Region2
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the three regions leave in their output arrays -/

/-- The buffers as the first region finds them (no region has run: nothing unknown). -/
abbrev entry0 : (c : Dev nD) → (b : Ref sig .tc) → Buf (Elt F) ((c : Thread nD τ).loc b) := fun c b => V3 m c b

/-- What the first region leaves in its output array. -/
def out0 (c : Dev nD) : Buf (Elt F) ((c : Thread nD τ).loc main_v22) := (dat0 (entry0 m) c).arrAt 2 cfg0.N

/-- The regions' outputs so far: the first region's. -/
def outs1 : Outs (F := F) := fun _ r c =>
  if h : r = main_v22 then h ▸ out0 m c else m ((c : Thread nD τ).loc r)

/-- The buffers as the second region finds them. -/
abbrev entry1' : (c : Dev nD) → (b : Ref sig .tc) → Buf (Elt F) ((c : Thread nD τ).loc b) := fun c b => V7 m (outs1 m) c b

/-- What the second region leaves in its output array. -/
def out1 (c : Dev nD) : Buf (Elt F) ((c : Thread nD τ).loc main_v47) := (dat1 (entry1' m) c).arrAt 2 cfg1.N

/-- The regions' outputs so far: the first two. -/
def outs2 : Outs (F := F) := fun _ r c =>
  if h : r = main_v22 then h ▸ out0 m c else if h : r = main_v47 then h ▸ out1 m c else m ((c : Thread nD τ).loc r)

/-- The buffers as the third region finds them. -/
abbrev entry2' : (c : Dev nD) → (b : Ref sig .tc) → Buf (Elt F) ((c : Thread nD τ).loc b) := fun c b => V11 m (outs2 m) c b

/-- What the third region leaves in its output array. -/
def out2 (c : Dev nD) : Buf (Elt F) ((c : Thread nD τ).loc main_v72) := (dat2 (entry2' m) c).arrAt 2 cfg2.N

/-- What the regions leave in the buffers they may change: each region's output array at what its pipeline leaves. -/
def outs : Outs (F := F) := fun _ r c =>
  if h : r = main_v22 then h ▸ out0 m c else if h : r = main_v47 then h ▸ out1 m c
  else if h : r = main_v72 then h ▸ out2 m c else m ((c : Thread nD τ).loc r)

theorem outs1_22 (j : ℕ) (c : Dev nD) : outs1 m j main_v22 c = out0 m c := by unfold outs1; rw [dif_pos rfl]
theorem outs2_22 (j : ℕ) (c : Dev nD) : outs2 m j main_v22 c = out0 m c := by unfold outs2; rw [dif_pos rfl]
theorem outs2_47 (j : ℕ) (c : Dev nD) : outs2 m j main_v47 c = out1 m c := by
  unfold outs2; rw [dif_neg (by decide), dif_pos rfl]
theorem outs_22 (j : ℕ) (c : Dev nD) : outs m j main_v22 c = out0 m c := by unfold outs; rw [dif_pos rfl]
theorem outs_47 (j : ℕ) (c : Dev nD) : outs m j main_v47 c = out1 m c := by
  unfold outs; rw [dif_neg (by decide), dif_pos rfl]
theorem outs_72 (j : ℕ) (c : Dev nD) : outs m j main_v72 c = out2 m c := by
  unfold outs; rw [dif_neg (by decide), dif_neg (by decide), dif_pos rfl]

/-- The buffers as each region finds them, and as it leaves them, over the final `outs`. -/
abbrev entry1 : (c : Dev nD) → (b : Ref sig .tc) → Buf (Elt F) ((c : Thread nD τ).loc b) := fun c b => V7 m (outs m) c b
abbrev entry2 : (c : Dev nD) → (b : Ref sig .tc) → Buf (Elt F) ((c : Thread nD τ).loc b) := fun c b => V11 m (outs m) c b
abbrev exit0 : (c : Dev nD) → (b : Ref sig .tc) → Buf (Elt F) ((c : Thread nD τ).loc b) := fun c b => V4 m (outs m) c b
abbrev exit1 : (c : Dev nD) → (b : Ref sig .tc) → Buf (Elt F) ((c : Thread nD τ).loc b) := fun c b => V8 m (outs m) c b
abbrev exit2 : (c : Dev nD) → (b : Ref sig .tc) → Buf (Elt F) ((c : Thread nD τ).loc b) := fun c b => V12 m (outs m) c b

/-- The valuation a region is entered from reads only the outputs of the regions before it. -/
theorem entry1_eq : entry1 m = entry1' m := by
  funext c b
  simp only [entry1, entry1', V7, V6, V5, V4, outs_22, outs1_22]
theorem entry2_eq : entry2 m = entry2' m := by
  funext c b
  simp only [entry2, entry2', V11, V10, V9, V8, V7, V6, V5, V4, outs_22, outs2_22, outs_47, outs2_47]

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c

/-- No core owes another anything: no level is assigned. -/
abbrev L0 : GSem nD τ sig → Finset Unit := fun _ => ∅
abbrev lv0 : GSem nD τ sig → Unit → ℕ := fun _ _ => 0
/-- What rides beside the buffers through every item: the core's generator register at some state and its `owes`, at
    nothing. -/
abbrev Rest (c : Dev nD) : sProp 𝕄 := iprop((∃ r, prngReg c r) ∗ ∃ W, owes (c : Thread nD τ) (0 : CellTallies nD τ sig Unit) W)

set_option maxHeartbeats 1000000 in
/-- At region 0's exit each of its arrays holds what the pipeline leaves: the two inputs what they held (no region writes an
    input), the output the region's result by the definition of `outs`. -/
theorem hF0 (c : Dev nD) (w : Fin cfg0.W) : (pdats m 0 c).arrAt w cfg0.N = exit0 m c (Pipeline.arrRef spec0 w) :=
  match w with
  | ⟨0, _⟩ => ((pdats m 0 c).arrAt_in 0 rfl _).trans (V4_of m (outs m) c main_v21 (by decide)).symm
  | ⟨1, _⟩ => ((pdats m 0 c).arrAt_in 1 rfl _).trans (V4_of m (outs m) c main_v4 (by decide)).symm
  | ⟨2, _⟩ => by
    have e : exit0 m c main_v22 = out0 m c := by
      simp only [exit0, V4, Function.update_self]; exact outs_22 m 4 c
    exact Eq.trans rfl e.symm
  | ⟨_ + 3, h⟩ => absurd h (Nat.not_lt.2 (Nat.le_add_left _ _))
/-- Every other buffer keeps its entry contents. -/
theorem hrest0 (c : Dev nD) : ∀ b, b ∉ Finset.univ.image (Pipeline.arrRef spec0) → exit0 m c b = entry0 m c b :=
  fun b hb => V4_of m (outs m) c b (by
    intro hmem
    rw [List.mem_singleton] at hmem
    exact hb (Finset.mem_image.mpr ⟨2, Finset.mem_univ _, hmem.symm⟩))

set_option maxHeartbeats 1000000 in
/-- At region 1's exit each of its arrays holds what the pipeline leaves: the two inputs what they held (no region writes an
    input), the output the region's result by the definition of `outs`. -/
theorem hF1 (c : Dev nD) (w : Fin cfg1.W) : (pdats m 1 c).arrAt w cfg1.N = exit1 m c (Pipeline.arrRef spec1 w) :=
  match w with
  | ⟨0, _⟩ => ((pdats m 1 c).arrAt_in 0 rfl _).trans (V8_of m (outs m) c main_v46 (by decide)).symm
  | ⟨1, _⟩ => ((pdats m 1 c).arrAt_in 1 rfl _).trans (V8_of m (outs m) c main_v29 (by decide)).symm
  | ⟨2, _⟩ => by
    have e : exit1 m c main_v47 = out1 m c := by
      simp only [exit1, V8, Function.update_self]; exact outs_47 m 8 c
    refine Eq.trans ?_ e.symm
    unfold out1
    show (dat1 (entry1 m) c).arrAt 2 cfg1.N = _
    rw [entry1_eq]
  | ⟨_ + 3, h⟩ => absurd h (Nat.not_lt.2 (Nat.le_add_left _ _))
/-- Every other buffer keeps its entry contents. -/
theorem hrest1 (c : Dev nD) : ∀ b, b ∉ Finset.univ.image (Pipeline.arrRef spec1) → exit1 m c b = entry1 m c b :=
  fun b hb => V8_of m (outs m) c b (by
    intro hmem
    rw [List.mem_singleton] at hmem
    exact hb (Finset.mem_image.mpr ⟨2, Finset.mem_univ _, hmem.symm⟩))

set_option maxHeartbeats 1000000 in
/-- At region 2's exit each of its arrays holds what the pipeline leaves: the two inputs what they held (no region writes an
    input), the output the region's result by the definition of `outs`. -/
theorem hF2 (c : Dev nD) (w : Fin cfg2.W) : (pdats m 2 c).arrAt w cfg2.N = exit2 m c (Pipeline.arrRef spec2 w) :=
  match w with
  | ⟨0, _⟩ => ((pdats m 2 c).arrAt_in 0 rfl _).trans (V12_of m (outs m) c main_v71 (by decide)).symm
  | ⟨1, _⟩ => ((pdats m 2 c).arrAt_in 1 rfl _).trans (V12_of m (outs m) c main_v54 (by decide)).symm
  | ⟨2, _⟩ => by
    have e : exit2 m c main_v72 = out2 m c := by
      simp only [exit2, V12, Function.update_self]; exact outs_72 m 12 c
    refine Eq.trans ?_ e.symm
    unfold out2
    show (dat2 (entry2 m) c).arrAt 2 cfg2.N = _
    rw [entry2_eq]
  | ⟨_ + 3, h⟩ => absurd h (Nat.not_lt.2 (Nat.le_add_left _ _))
/-- Every other buffer keeps its entry contents. -/
theorem hrest2 (c : Dev nD) : ∀ b, b ∉ Finset.univ.image (Pipeline.arrRef spec2) → exit2 m c b = entry2 m c b :=
  fun b hb => V12_of m (outs m) c b (by
    intro hmem
    rw [List.mem_singleton] at hmem
    exact hb (Finset.mem_image.mpr ⟨2, Finset.mem_univ _, hmem.symm⟩))

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at the valuation before it, left at the one
    after it. Its arrays split out of the unscoped buffers and are put back at the exit contents; the generator register
    goes into the region's invariant and comes out; nothing owed; no semaphore of the kernel's own. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L0 lv0 0 fun _ _ => rfl
  pre c := iprop(StableHlo.held (c : Thread nD τ) (Pipeline.ucRefs τ sig) (V3 m c) ∗ Rest c)
  post c := iprop(StableHlo.held (c : Thread nD τ) (Pipeline.ucRefs τ sig) (V4 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (hout0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at the valuation before it, left at the one
    after it. Its arrays split out of the unscoped buffers and are put back at the exit contents; the generator register
    goes into the region's invariant and comes out; nothing owed; no semaphore of the kernel's own. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L0 lv0 1 fun _ _ => rfl
  pre c := iprop(StableHlo.held (c : Thread nD τ) (Pipeline.ucRefs τ sig) (V7 m (outs m) c) ∗ Rest c)
  post c := iprop(StableHlo.held (c : Thread nD τ) (Pipeline.ucRefs τ sig) (V8 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans ((show (pdats m 1 c).Φ (Fin.last _) ⊢ Pipeline.ΦA spec1 c from .rfl)) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at the valuation before it, left at the one
    after it. Its arrays split out of the unscoped buffers and are put back at the exit contents; the generator register
    goes into the region's invariant and comes out; nothing owed; no semaphore of the kernel's own. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ L0 lv0 2 fun _ _ => rfl
  pre c := iprop(StableHlo.held (c : Thread nD τ) (Pipeline.ucRefs τ sig) (V11 m (outs m) c) ∗ Rest c)
  post c := iprop(StableHlo.held (c : Thread nD τ) (Pipeline.ucRefs τ sig) (V12 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine BIBase.Entails.trans ((show (pdats m 2 c).Φ (Fin.last _) ⊢ Pipeline.ΦA spec2 c from .rfl)) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- The run of @main given the three regions' records: as the conditional frame, with the post read at EVERY unscoped
    buffer — each holds, in every final memory, the last valuation's contents (the results among them). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, hpre0 c, hpost0 c, .rfl, .rfl, hpre1 c, hpost1 c, .rfl, .rfl, hpre2 c, hpost2 c, sep_mono .rfl (hE3 c)⟩)
    (hinit := ?_) (QY := fun c s => ∀ b ∈ Pipeline.ucRefs τ sig, s.mem ((c : Thread nD τ).1, b) = V13 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main on the TensorCores terminates,
    nothing faulting, and every final memory holds every unscoped buffer at the last valuation: the launch hands each core
    its buffers, its generator register and an empty debt; each region is entered from and left at the valuations
    above; nothing is owed at the end. -/
theorem run_all : θ_run defs (onTc (τ := τ) (main (F := F))) ⟨m, fun _ => 0, ρ⟩ (fun r => ∀ c : Dev nD,
    ∀ b ∈ Pipeline.ucRefs τ sig, r.2.mem ((c : Thread nD τ).1, b) = V13 m (outs m) c b) :=
  run_cond m emb₁ () Variants.none L0 lv0 (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := Pipeline.initEach L0 lv0 fun c => by
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)

/-- THE FRAME: the run read at the seventeen argument arrays, none of which a host operation or a region writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (V13_main_arg0 m (outs m) c),
      (h c _ (mem_uc main_arg1 (by decide))).trans (V13_main_arg1 m (outs m) c),
      (h c _ (mem_uc main_arg2 (by decide))).trans (V13_main_arg2 m (outs m) c),
      (h c _ (mem_uc main_arg3 (by decide))).trans (V13_main_arg3 m (outs m) c),
      (h c _ (mem_uc main_arg4 (by decide))).trans (V13_main_arg4 m (outs m) c),
      (h c _ (mem_uc main_arg5 (by decide))).trans (V13_main_arg5 m (outs m) c),
      (h c _ (mem_uc main_arg6 (by decide))).trans (V13_main_arg6 m (outs m) c),
      (h c _ (mem_uc main_arg7 (by decide))).trans (V13_main_arg7 m (outs m) c),
      (h c _ (mem_uc main_arg8 (by decide))).trans (V13_main_arg8 m (outs m) c),
      (h c _ (mem_uc main_arg9 (by decide))).trans (V13_main_arg9 m (outs m) c),
      (h c _ (mem_uc main_arg10 (by decide))).trans (V13_main_arg10 m (outs m) c),
      (h c _ (mem_uc main_arg11 (by decide))).trans (V13_main_arg11 m (outs m) c),
      (h c _ (mem_uc main_arg12 (by decide))).trans (V13_main_arg12 m (outs m) c),
      (h c _ (mem_uc main_arg13 (by decide))).trans (V13_main_arg13 m (outs m) c),
      (h c _ (mem_uc main_arg14 (by decide))).trans (V13_main_arg14 m (outs m) c),
      (h c _ (mem_uc main_arg15 (by decide))).trans (V13_main_arg15 m (outs m) c),
      (h c _ (mem_uc main_arg16 (by decide))).trans (V13_main_arg16 m (outs m) c)⟩) (run_all m ρ)

end Cert.KernelIdeal.Run

end
-- ==== Proof.LibAdjacencySum.lean ====
/-
  Summing along edges versus multiplying by a table of edge counts.

  A list of edges, each with a source node and a destination node, carries a value on every source node.
  One way to collect what arrives at a destination d is to walk the edges and add the source's value whenever
  the edge ends at d. Another way first counts, for every pair (d, s), how many edges run from s to d, and then
  forms the row-times-column product  sum over s of count(d, s) * value(s).  Here the source axis may be padded
  with extra columns beyond the real nodes; the padded columns receive no edge and carry the value zero.

  Over the extended reals multiplication does not distribute over addition in general (infinities of opposite
  sign get in the way), but it does when the two summands are non-negative. A count is a sum of ones and zeros,
  so (a count) * x is x added once per counted edge. With that, the product form becomes a double sum over
  (s, e); exchanging the two sums and noticing that for a fixed edge only the column s = src e survives gives
  back the edge walk.

  Two bookkeeping facts about finite sums in any additive commutative monoid are also recorded: a sum over
  B * T indices may be taken block by block (B blocks of T consecutive indices), and a left-nested running
  total that starts from zero equals the sum of its steps.
-/
import Mathlib.Data.EReal.Operations
import Mathlib.Data.Fintype.BigOperators
import Mathlib.Logic.Equiv.Fin.Basic
import Mathlib.Algebra.BigOperators.Fin
import Mathlib.Algebra.Order.BigOperators.Group.Finset

namespace Cert.LibAdjacencySum

open Finset

/-- A sum of ones and zeros over a finite set is non-negative in the extended reals. -/
theorem count_nonneg {ι : Type*} (S : Finset ι) (p : ι → Prop) [DecidablePred p] :
    (0 : EReal) ≤ ∑ e ∈ S, if p e then (1 : EReal) else 0 := by
  apply Finset.sum_nonneg
  intro e _
  split_ifs
  · exact zero_le_one
  · exact le_refl _

/-- (a count of ones) times x is x added that many times -/
theorem count_mul {ι : Type*} (S : Finset ι) (p : ι → Prop) [DecidablePred p] (x : EReal) :
    (∑ e ∈ S, if p e then (1 : EReal) else 0) * x = ∑ e ∈ S, if p e then x else 0 := by
  classical
  induction S using Finset.induction_on with
  | empty => simp
  | insert a S ha ih =>
    rw [Finset.sum_insert ha, Finset.sum_insert ha]
    have h1 : (0 : EReal) ≤ (if p a then (1 : EReal) else 0) := by
      split_ifs
      · exact zero_le_one
      · exact le_refl _
    rw [EReal.right_distrib_of_nonneg h1 (count_nonneg S p), ih]
    congr 1
    split_ifs
    · exact one_mul x
    · exact zero_mul x

/-- For a fixed edge, among all (possibly padded) columns only the column numbered like the edge's source
contributes, and there the padded value is the source's own value. -/
theorem collapse_column {Ns K : Nat} (wf : Fin Ns → EReal) (wfp : Fin K → EReal)
    (hwfp : ∀ s : Fin K, wfp s = if h : s.val < Ns then wf ⟨s.val, h⟩ else 0)
    (hK : Ns ≤ K) (a : Fin Ns) :
    (∑ s : Fin K, if a.val = s.val then wfp s else 0) = wf a := by
  have ha : a.val < K := lt_of_lt_of_le a.isLt hK
  have hcongr : ∀ s : Fin K, (if a.val = s.val then wfp s else 0)
      = (if (⟨a.val, ha⟩ : Fin K) = s then wfp s else 0) := by
    intro s
    have : (a.val = s.val) ↔ ((⟨a.val, ha⟩ : Fin K) = s) := by
      rw [Fin.ext_iff]
    simp only [this]
  rw [Finset.sum_congr rfl (fun s _ => hcongr s), Finset.sum_ite_eq]
  simp only [Finset.mem_univ, if_true]
  rw [hwfp]
  simp only [a.isLt, dif_pos]

/-- The product with the table of edge counts is the walk along the edges. -/
theorem adjacency_sum {E Ns Nd K : Nat} (src : Fin E → Fin Ns) (dst : Fin E → Fin Nd) (wf : Fin Ns → EReal)
    (adj : Fin Nd → Fin K → EReal) (wfp : Fin K → EReal)
    (hadj : ∀ d s, adj d s = ∑ e : Fin E, if dst e = d ∧ (src e).val = s.val then (1 : EReal) else 0)
    (hwfp : ∀ s : Fin K, wfp s = if h : s.val < Ns then wf ⟨s.val, h⟩ else 0)
    (hK : Ns ≤ K) (d : Fin Nd) :
    ∑ s : Fin K, adj d s * wfp s = ∑ e : Fin E, if dst e = d then wf (src e) else 0 := by
  -- every entry of the table times its column value is a sum over the edges
  have step1 : ∀ s : Fin K, adj d s * wfp s
      = ∑ e : Fin E, if dst e = d ∧ (src e).val = s.val then wfp s else 0 := by
    intro s
    rw [hadj d s]
    exact count_mul Finset.univ (fun e => dst e = d ∧ (src e).val = s.val) (wfp s)
  rw [Finset.sum_congr rfl (fun s _ => step1 s), Finset.sum_comm]
  apply Finset.sum_congr rfl
  intro e _
  by_cases hd : dst e = d
  · simp only [hd, true_and, if_true]
    exact collapse_column wf wfp hwfp hK (src e)
  · simp only [hd, false_and, if_false]
    exact Finset.sum_const_zero

/-- The r-th index of the k-th block of size T lies below B * T. -/
theorem lt_of_block {B T : Nat} (k : Fin B) (r : Fin T) : k.val * T + r.val < B * T :=
  calc k.val * T + r.val < k.val * T + T := Nat.add_lt_add_left r.isLt _
    _ = (k.val + 1) * T := (Nat.succ_mul _ _).symm
    _ ≤ B * T := Nat.mul_le_mul_right T k.isLt

/-- A sum over B * T indices may be taken block by block: B blocks of T consecutive indices. -/
theorem sum_blocks {M : Type*} [AddCommMonoid M] {B T : Nat} (f : Fin (B * T) → M) :
    ∑ k : Fin B, ∑ r : Fin T, f ⟨k.val * T + r.val, lt_of_block k r⟩ = ∑ s : Fin (B * T), f s := by
  have hcell : ∀ (k : Fin B) (r : Fin T),
      f ⟨k.val * T + r.val, lt_of_block k r⟩ = f (finProdFinEquiv (k, r)) := by
    intro k r
    congr 1
    apply Fin.ext
    simp only [finProdFinEquiv_apply_val]
    rw [Nat.mul_comm, Nat.add_comm]
  calc ∑ k : Fin B, ∑ r : Fin T, f ⟨k.val * T + r.val, lt_of_block k r⟩
      = ∑ k : Fin B, ∑ r : Fin T, f (finProdFinEquiv (k, r)) :=
        Finset.sum_congr rfl (fun k _ => Finset.sum_congr rfl (fun r _ => hcell k r))
    _ = ∑ x : Fin B × Fin T, f (finProdFinEquiv x) :=
        (Fintype.sum_prod_type (fun x : Fin B × Fin T => f (finProdFinEquiv x))).symm
    _ = ∑ s : Fin (B * T), f s := Equiv.sum_comp finProdFinEquiv f

/-- A left-nested running total that starts from zero is the sum over the steps. -/
theorem fold_blocks {M : Type*} [AddCommMonoid M] (g : Nat → M) (n : Nat) :
    (Nat.rec (0 + g 0) (fun k acc => acc + g (k + 1)) n : M) = ∑ k ∈ Finset.range (n + 1), g k := by
  induction n with
  | zero => simp
  | succ n ih =>
    rw [Finset.sum_range_succ, ← ih]

end Cert.LibAdjacencySum
-- ==== Proof.KernelIdeal.Value0.lean ====
/-
  What the first matrix product leaves in its result array, entry by entry.

  The product of a 3000 x 51200 array A with a 51200 x 64 array B is formed by cutting the contracted axis into 40
  blocks of 1280: step t multiplies the 3000 x 1280 column block t of A by the 1280 x 64 row block t of B and adds
  the 3000 x 64 result to a running sum that starts at zero. Only after the last step is the running sum stored to
  the result array, whole. So entry (d, j) of the result is

      ((0 + p_0) + p_1) + ... + p_39,     p_t = sum over r < 1280 of A(d, 1280 t + r) * B(1280 t + r, j),

  and regrouping the 40 x 1280 terms into one sum over s < 51200 gives  sum over s of A(d, s) * B(s, j).
  Nothing is used of the arithmetic beyond 0 + x = x and the associativity and commutativity of addition.
-/
import proofs.«403239_j43198781063350_1_alg».proof.Proof.KernelIdeal.Region0
import proofs.«403239_j43198781063350_1_alg».proof.Proof.LibAdjacencySum
import Idealize.ShloMosaic.Lib.Pipeline.Value
import Idealize.ShloMosaic.Lib.ValueIdx
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.ShloMosaic.Pipeline (Dat Cfg Window)

/-! ## One block product at an entry -/

/-- The left operand's row coordinate is the result's row. -/
theorem lhs_row0 (j : S3000x64.Idx) (k : dot_S3000x1280_S1280x64_S3000x64_1_0_0_1_n_n.contr.Idx) :
    (dot_S3000x1280_S1280x64_S3000x64_1_0_0_1_n_n.lhsIdx j k 0).val = (j 0).val := by
  unfold DotDims.lhsIdx
  rw [dif_neg (show ¬(0 : Fin S3000x1280.rank) ∈ dot_S3000x1280_S1280x64_S3000x64_1_0_0_1_n_n.lhsBatch by decide),
    dif_pos (show (0 : Fin S3000x1280.rank) ∈ dot_S3000x1280_S1280x64_S3000x64_1_0_0_1_n_n.lhsNonContracting by decide)]
  rfl

/-- The left operand's column coordinate is the contracted position. -/
theorem lhs_col0 (j : S3000x64.Idx) (k : dot_S3000x1280_S1280x64_S3000x64_1_0_0_1_n_n.contr.Idx) :
    (dot_S3000x1280_S1280x64_S3000x64_1_0_0_1_n_n.lhsIdx j k 1).val = (k ⟨0, by decide⟩).val :=
  DotDims.lhsIdx_val_of_single _ (cl := (1 : Fin S3000x1280.rank)) rfl j k

/-- The right operand's row coordinate is the contracted position. -/
theorem rhs_row0 (j : S3000x64.Idx) (k : dot_S3000x1280_S1280x64_S3000x64_1_0_0_1_n_n.contr.Idx) :
    (dot_S3000x1280_S1280x64_S3000x64_1_0_0_1_n_n.rhsIdx j k 0).val = (k ⟨0, by decide⟩).val :=
  DotDims.rhsIdx_val_of_single _ (cr := (0 : Fin S1280x64.rank)) rfl j k

/-- The right operand's column coordinate is the result's column. -/
theorem rhs_col0 (j : S3000x64.Idx) (k : dot_S3000x1280_S1280x64_S3000x64_1_0_0_1_n_n.contr.Idx) :
    (dot_S3000x1280_S1280x64_S3000x64_1_0_0_1_n_n.rhsIdx j k 1).val = (j 1).val := by
  unfold DotDims.rhsIdx
  rw [dif_neg (show ¬(1 : Fin S1280x64.rank) ∈ dot_S3000x1280_S1280x64_S3000x64_1_0_0_1_n_n.rhsBatch by decide),
    dif_pos (show (1 : Fin S1280x64.rank) ∈ dot_S3000x1280_S1280x64_S3000x64_1_0_0_1_n_n.rhsNonContracting by decide)]
  rfl

/-- A 3000 x 1280 block times a 1280 x 64 block, added into zero, read at entry (d, j): row d of the first against
    column j of the second. -/
theorem blockProduct0_apply (x : FVec Ideal S3000x1280 .bf16) (y : FVec Ideal S1280x64 .bf16) (d : Fin 3000) (j : Fin 64) :
    matmul dot_S3000x1280_S1280x64_S3000x64_1_0_0_1_n_n none x y (constant (F := Ideal) S3000x64 .f32 0x00000000#32) (ix2 d j)
      = ∑ r : Fin 1280, x (ix2 d r) * y (ix2 r j) := by
  simp only [matmul]
  rw [Ideal.matmul_constant_zero_apply]
  rw [← Equiv.sum_comp (contrEquiv1 dot_S3000x1280_S1280x64_S3000x64_1_0_0_1_n_n 1280 rfl rfl).symm]
  refine Finset.sum_congr rfl fun r _ => ?_
  have hk := contrEquiv1_symm_val dot_S3000x1280_S1280x64_S3000x64_1_0_0_1_n_n 1280 rfl rfl r
  congr 2
  · funext a; apply Fin.ext
    match a with
    | ⟨0, _⟩ => exact lhs_row0 _ _
    | ⟨1, _⟩ => exact (lhs_col0 _ _).trans hk
  · funext a; apply Fin.ext
    match a with
    | ⟨0, _⟩ => exact (rhs_row0 _ _).trans hk
    | ⟨1, _⟩ => exact rhs_col0 _ _

/-- The value the running sum is reset to is zero everywhere. -/
theorem pay0_1_apply (d : Fin 3000) (j : Fin 64) : k0_pay1 (F := Ideal) (ix2 d j) = 0 := by
  unfold k0_pay1
  rw [shapeCast_self]
  exact Ideal.ofBits_zero_f32

/-- One step of the running sum at entry (d, j): what was there plus row d of the left block against column j of the
    right block. -/
theorem pay0_2_apply (a : Vec Ideal S3000x64 .f32) (x : Vec Ideal S3000x1280 .bf16) (y : Vec Ideal S1280x64 .bf16)
    (d : Fin 3000) (j : Fin 64) :
    k0_pay2 a x y (ix2 d j) = a (ix2 d j) + ∑ r : Fin 1280, x (ix2 d r) * y (ix2 r j) := by
  unfold k0_pay2
  simp only [shapeCast_self]
  exact congrArg (a (ix2 d j) + ·) (blockProduct0_apply x y d j)

section Region0

-- the core's buffer contents when the region is entered
variable (V : (c : Dev nD) → (b : Ref sig .tc) → Buf (Elt Ideal) ((c : Thread nD τ).loc b))

/-! ## The blocks are pieces of the two arrays -/

/-- Which block each window is on at step t: the left array's column block t, the right array's row block t, and
    always the one block of the result. -/
theorem blockIndex0 : ∀ t : Fin cfg0.N, win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The r-th place of block t of 1280 lies below 51200. -/
theorem place0_lt (t : Fin cfg0.N) (r : Fin 1280) : t.val * 1280 + r.val < 51200 := by
  have := t.isLt; have h : cfg0.N = 40 := N_0; have := r.isLt; omega

/-- Entry (d, r) of the left block at step t is entry (d, 1280 t + r) of the left array. -/
theorem leftBlock0_apply (c : Dev nD) (t : Fin cfg0.N) (d : Fin 3000) (r : Fin 1280) :
    (iblk0 V c 0 t : Vec Ideal S3000x1280 .bf16) (ix2 d r)
      = (V c main_v21 : Vec Ideal S3000x51200 .bf16) (ix2 d ⟨t.val * 1280 + r.val, place0_lt t r⟩) := by
  obtain ⟨e0, e1, -⟩ := blockIndex0 t
  unfold iblk0
  rw [View.read_apply]
  show V c main_v21 _ = V c main_v21 _
  congr 1
  funext a
  apply Fin.ext
  match a with
  | ⟨0, _⟩ => show win0_0.index t (0 : Fin 2) * 3000 + 1 * d.val = d.val; rw [e0]; omega
  | ⟨1, _⟩ => show win0_0.index t (1 : Fin 2) * 1280 + 1 * r.val = t.val * 1280 + r.val; rw [e1]; omega

/-- Entry (r, j) of the right block at step t is entry (1280 t + r, j) of the right array. -/
theorem rightBlock0_apply (c : Dev nD) (t : Fin cfg0.N) (r : Fin 1280) (j : Fin 64) :
    (iblk0 V c 1 t : Vec Ideal S1280x64 .bf16) (ix2 r j)
      = (V c main_v4 : Vec Ideal S51200x64 .bf16) (ix2 ⟨t.val * 1280 + r.val, place0_lt t r⟩ j) := by
  obtain ⟨-, -, e0, e1, -⟩ := blockIndex0 t
  unfold iblk0
  rw [View.read_apply]
  show V c main_v4 _ = V c main_v4 _
  congr 1
  funext a
  apply Fin.ext
  match a with
  | ⟨0, _⟩ => show win0_1.index t (0 : Fin 2) * 1280 + 1 * r.val = t.val * 1280 + r.val; rw [e0]; omega
  | ⟨1, _⟩ => show win0_1.index t (1 : Fin 2) * 64 + 1 * j.val = j.val; rw [e1]; omega

/-! ## The running sum at an entry -/

/-- The left array as the region finds it, at its literal shape. -/
abbrev leftArr0 (c : Dev nD) : Vec Ideal S3000x51200 .bf16 := V c main_v21
/-- The right array as the region finds it, at its literal shape. -/
abbrev rightArr0 (c : Dev nD) : Vec Ideal S51200x64 .bf16 := V c main_v4

/-- The term of the whole product at contracted position s, for the result's entry (d, j). -/
def term0 (c : Dev nD) (d : Fin 3000) (j : Fin 64) (s : Fin 51200) : EReal :=
  leftArr0 V c (ix2 d s) * rightArr0 V c (ix2 s j)

/-- What step k adds at entry (d, j): the 1280 terms of block k (nothing past the 40 steps). -/
def stepSum0 (c : Dev nD) (d : Fin 3000) (j : Fin 64) (k : ℕ) : EReal :=
  if h : k < cfg0.N then ∑ r : Fin 1280, term0 V c d j ⟨k * 1280 + r.val, place0_lt ⟨k, h⟩ r⟩ else 0

/-- After step n the running sum holds, at entry (d, j), what steps 0 … n added. -/
theorem acc0_apply (c : Dev nD) (d : Fin 3000) (j : Fin 64) :
    ∀ (n : ℕ) (hn : n < cfg0.N), acc0 V c n hn (ix2 d j) = ∑ k ∈ Finset.range (n + 1), stepSum0 V c d j k
  | 0, hn => by
    show k0_pay2 (k0_pay1 (F := Ideal)) (iblk0 V c 0 ⟨0, hn⟩) (iblk0 V c 1 ⟨0, hn⟩) (ix2 d j) = _
    refine (pay0_2_apply (k0_pay1 (F := Ideal)) (iblk0 V c 0 ⟨0, hn⟩) (iblk0 V c 1 ⟨0, hn⟩) d j).trans ?_
    rw [pay0_1_apply, zero_add, Finset.sum_range_one]
    unfold stepSum0
    rw [dif_pos hn]
    refine Finset.sum_congr rfl fun r _ => ?_
    exact congrArg₂ (· * ·) (leftBlock0_apply V c ⟨0, hn⟩ d r) (rightBlock0_apply V c ⟨0, hn⟩ r j)
  | n + 1, hn => by
    show k0_pay2 (acc0 V c n (Nat.lt_of_succ_lt hn)) (iblk0 V c 0 ⟨n + 1, hn⟩) (iblk0 V c 1 ⟨n + 1, hn⟩) (ix2 d j) = _
    refine (pay0_2_apply (acc0 V c n (Nat.lt_of_succ_lt hn)) (iblk0 V c 0 ⟨n + 1, hn⟩) (iblk0 V c 1 ⟨n + 1, hn⟩) d j).trans ?_
    rw [Finset.sum_range_succ _ (n + 1)]
    refine congrArg₂ (· + ·) (acc0_apply c d j n (Nat.lt_of_succ_lt hn)) ?_
    unfold stepSum0
    rw [dif_pos hn]
    refine Finset.sum_congr rfl fun r _ => ?_
    exact congrArg₂ (· * ·) (leftBlock0_apply V c ⟨n + 1, hn⟩ d r) (rightBlock0_apply V c ⟨n + 1, hn⟩ r j)

/-! ## From the last step's store to the result array -/

/-- There are 40 steps, numbered 0 to 39. -/
theorem lastStep0_lt : 39 < cfg0.N := by have h : cfg0.N = 40 := N_0; omega

/-- The last of the 40 steps. -/
abbrev lastStep0 : Fin cfg0.N := ⟨39, lastStep0_lt⟩

/-- The running sum after the last step, as contents of the result array. -/
abbrev total0 (c : Dev nD) : Vec Ideal S3000x64 .f32 := acc0 V c 39 lastStep0_lt

/-- The result window's one block starts at the array's origin. -/
theorem zeroOffsets0 : (fun a => win0_2.index lastStep0 a * main_v22.ty.shape.size a) = fun _ => 0 :=
  funext fun a => by fin_cases a <;> decide +kernel

/-- The one write-back, at the last step, writes the running sum: the result window's only block is the whole
    array. -/
theorem flushed0_eq (c : Dev nD) (t : Fin cfg0.N) (hf : (cfg0.win 2).flush t = true) :
    (dat0 (F := Ideal) V c).flushed 2 t = ((cfg0.win 2).blk t).view.read (Elt Ideal) (total0 V c) := by
  have hN : cfg0.N = 40 := N_0
  have h39 : t.val = 39 := by have := (flush0_2 t).mp hf; have := t.isLt; omega
  obtain rfl : t = lastStep0 := Fin.ext h39
  show (cfg0.win 2).cut (grid0.coords lastStep0) ((dat0 (F := Ideal) V c).after 2 lastStep0) = _
  rw [after0_2]
  exact (Memref.read_access_unit_zero (Elt Ideal) main_v22 zeroOffsets0 (fun a => by rw [congrFun zeroOffsets0 a]; simp) (total0 V c)).symm

/-- So the result array ends holding the running sum after the last step. -/
theorem out0_eq_total (c : Dev nD) : (dat0 (F := Ideal) V c).arrAt 2 cfg0.N = total0 V c :=
  (dat0 (F := Ideal) V c).arrAt_eq_of_cover 2 (total0 V c) (flushed0_eq V c) fun i =>
    ⟨lastStep0, (flush0_2 lastStep0).mpr rfl, by
      show i ∈ ((View.whole main_v22).slice (win0_2.rect lastStep0)).set
      rw [View.set_slice_whole, Rect.mem_set_unit]
      intro a
      have h0 : (i 0 : Nat) < 3000 := (i 0).isLt
      have h1 : (i 1 : Nat) < 64 := (i 1).isLt
      match a with
      | ⟨0, _⟩ => show win0_2.index lastStep0 0 * win0_2.size 0 ≤ (i 0 : Nat) ∧ (i 0 : Nat) < win0_2.index lastStep0 0 * win0_2.size 0 + win0_2.xsize (grid0.coords lastStep0) 0
                  rw [show win0_2.index lastStep0 0 * win0_2.size 0 = 0 from by decide +kernel, show win0_2.xsize (grid0.coords lastStep0) 0 = 3000 from by decide +kernel]; omega
      | ⟨1, _⟩ => show win0_2.index lastStep0 1 * win0_2.size 1 ≤ (i 1 : Nat) ∧ (i 1 : Nat) < win0_2.index lastStep0 1 * win0_2.size 1 + win0_2.xsize (grid0.coords lastStep0) 1
                  rw [show win0_2.index lastStep0 1 * win0_2.size 1 = 0 from by decide +kernel, show win0_2.xsize (grid0.coords lastStep0) 1 = 64 from by decide +kernel]; omega⟩

/-! ## Forty blocks of 1280 are the whole contracted axis -/

/-- Entry (d, j) of the array the first product leaves: row d of the left array against column j of the right. -/
theorem out0_apply (c : Dev nD) (d : Fin 3000) (j : Fin 64) :
    (dat0 (F := Ideal) V c).arrAt 2 cfg0.N (ix2 d j)
      = ∑ s : Fin 51200, leftArr0 V c (ix2 d s) * rightArr0 V c (ix2 s j) := by
  refine (congrFun (out0_eq_total V c) (ix2 d j)).trans ?_
  refine (acc0_apply V c d j 39 lastStep0_lt).trans ?_
  show ∑ k ∈ Finset.range 40, stepSum0 V c d j k = ∑ s : Fin 51200, term0 V c d j s
  rw [Finset.sum_range]
  have hstep : ∀ k : Fin 40, stepSum0 V c d j k.val
      = ∑ r : Fin 1280, term0 V c d j ⟨k.val * 1280 + r.val, Cert.LibAdjacencySum.lt_of_block k r⟩ := fun k => by
    have hk : k.val < cfg0.N := by have h : cfg0.N = 40 := N_0; have := k.isLt; omega
    unfold stepSum0
    rw [dif_pos hk]
  exact (Finset.sum_congr rfl fun k _ => hstep k).trans
    (Cert.LibAdjacencySum.sum_blocks (B := 40) (T := 1280) (term0 V c d j))

/-- The same, with the two arrays named by whatever the caller knows them to be. -/
theorem out0_apply_of (c : Dev nD) (A : Vec Ideal S3000x51200 .bf16) (B : Vec Ideal S51200x64 .bf16)
    (hA : leftArr0 V c = A) (hB : rightArr0 V c = B) (d : Fin 3000) (j : Fin 64) :
    (dat0 (F := Ideal) V c).arrAt 2 cfg0.N (ix2 d j) = ∑ s : Fin 51200, A (ix2 d s) * B (ix2 s j) := by
  subst hA hB
  exact out0_apply V c d j

end Region0

end Cert.KernelIdeal.Run
end
-- ==== Proof.KernelIdeal.Value1.lean ====
/-
  The second matrix product of the program, read at an index. The left array has 50000 rows, cut into 50 blocks of 1000
  rows; a step multiplies its row block by the whole right array (3072 x 64), adds the product onto an accumulator it has
  just set to zero, and writes the 1000 result rows back. So every result row is written by exactly one step — row r by
  step r / 1000 — and the entry (r, j) of the result is zero plus the sum, over the 3072 contracted positions s, of
  left (r, s) times right (s, j). The only law used is 0 + x = x: no distributivity, no finiteness.
-/
import proofs.«403239_j43198781063350_1_alg».proof.Proof.KernelIdeal.Region1
import Idealize.ShloMosaic.Lib.ValueIdx
import Idealize.ShloMosaic.Lib.Pipeline.Value
import Idealize.ShloMosaic.PureOps.Ideal
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.ShloMosaic.Pipeline (Dat Cfg Window)

/-! ## The product's index maps, axis by axis -/

theorem lhs_k1_0 (i : S1000x64.Idx) (q : dot_S1000x3072_S3072x64_S1000x64_1_0_0_1_n_n.contr.Idx) :
    (dot_S1000x3072_S3072x64_S1000x64_1_0_0_1_n_n.lhsIdx i q 0).val = (i 0).val := by
  unfold DotDims.lhsIdx
  rw [dif_neg (show ¬(0 : Fin S1000x3072.rank) ∈ dot_S1000x3072_S3072x64_S1000x64_1_0_0_1_n_n.lhsBatch by decide),
    dif_pos (show (0 : Fin S1000x3072.rank) ∈ dot_S1000x3072_S3072x64_S1000x64_1_0_0_1_n_n.lhsNonContracting by decide)]
  rfl
theorem lhs_k1_1 (i : S1000x64.Idx) (q : dot_S1000x3072_S3072x64_S1000x64_1_0_0_1_n_n.contr.Idx) :
    (dot_S1000x3072_S3072x64_S1000x64_1_0_0_1_n_n.lhsIdx i q 1).val = (q ⟨0, by decide⟩).val :=
  dot_S1000x3072_S3072x64_S1000x64_1_0_0_1_n_n.lhsIdx_val_of_single rfl i q
theorem rhs_k1_0 (i : S1000x64.Idx) (q : dot_S1000x3072_S3072x64_S1000x64_1_0_0_1_n_n.contr.Idx) :
    (dot_S1000x3072_S3072x64_S1000x64_1_0_0_1_n_n.rhsIdx i q 0).val = (q ⟨0, by decide⟩).val :=
  dot_S1000x3072_S3072x64_S1000x64_1_0_0_1_n_n.rhsIdx_val_of_single rfl i q
theorem rhs_k1_1 (i : S1000x64.Idx) (q : dot_S1000x3072_S3072x64_S1000x64_1_0_0_1_n_n.contr.Idx) :
    (dot_S1000x3072_S3072x64_S1000x64_1_0_0_1_n_n.rhsIdx i q 1).val = (i 1).val := by
  unfold DotDims.rhsIdx
  rw [dif_neg (show ¬(1 : Fin S3072x64.rank) ∈ dot_S1000x3072_S3072x64_S1000x64_1_0_0_1_n_n.rhsBatch by decide),
    dif_pos (show (1 : Fin S3072x64.rank) ∈ dot_S1000x3072_S3072x64_S1000x64_1_0_0_1_n_n.rhsNonContracting by decide)]
  rfl

/-! ## One step's result at an index -/

theorem pay1_apply (x0 : FVec Ideal S1000x3072 .bf16) (x1 : FVec Ideal S3072x64 .bf16) (p : Fin 1000) (j : Fin 64) :
    (k1_pay2 (F := Ideal) (k1_pay1 (F := Ideal)) x0 x1 (ix2 p j) : EReal) = 0 + ∑ s : Fin 3072, (x0 (ix2 p s) : EReal) * (x1 (ix2 s j) : EReal) := by
  unfold k1_pay2 k1_pay1
  simp only [shapeCast_self]
  show (Ideal.ofBits .f32 0x00000000#32 : EReal)
      + FloatOps.matmul dot_S1000x3072_S3072x64_S1000x64_1_0_0_1_n_n none x0 x1 (constant (F := Ideal) S1000x64 .f32 0x00000000#32) (ix2 p j) = _
  rw [Ideal.ofBits_zero_f32]
  refine congrArg (fun z : EReal => 0 + z) ?_
  rw [Ideal.matmul_constant_zero_apply, ← Equiv.sum_comp (contrEquiv1 dot_S1000x3072_S3072x64_S1000x64_1_0_0_1_n_n 3072 rfl rfl).symm]
  refine Finset.sum_congr rfl fun k _ => ?_
  have hk := contrEquiv1_symm_val dot_S1000x3072_S3072x64_S1000x64_1_0_0_1_n_n 3072 rfl rfl k
  have el : dot_S1000x3072_S3072x64_S1000x64_1_0_0_1_n_n.lhsIdx (ix2 p j) ((contrEquiv1 dot_S1000x3072_S3072x64_S1000x64_1_0_0_1_n_n 3072 rfl rfl).symm k) = ix2 p k :=
    funext fun a => Fin.ext (by
      match a with
      | ⟨0, _⟩ => exact lhs_k1_0 _ _
      | ⟨1, _⟩ => exact (lhs_k1_1 _ _).trans hk)
  have er : dot_S1000x3072_S3072x64_S1000x64_1_0_0_1_n_n.rhsIdx (ix2 p j) ((contrEquiv1 dot_S1000x3072_S3072x64_S1000x64_1_0_0_1_n_n 3072 rfl rfl).symm k) = ix2 k j :=
    funext fun a => Fin.ext (by
      match a with
      | ⟨0, _⟩ => exact (rhs_k1_0 _ _).trans hk
      | ⟨1, _⟩ => exact rhs_k1_1 _ _)
  rw [el, er]

/-! ## The whole result as one function of the two arrays -/

/-- Row `r` of the left array against column `j` of the right one, added onto zero. -/
def rowsum1 (a : FVec Ideal S50000x3072 .bf16) (b : FVec Ideal S3072x64 .bf16) (r : Fin 50000) (j : Fin 64) : EReal :=
  0 + ∑ s : Fin 3072, (a (ix2 r s) : EReal) * (b (ix2 s j) : EReal)

/-- The product array: every entry its row against its column. -/
abbrev whole1 (a : FVec Ideal S50000x3072 .bf16) (b : FVec Ideal S3072x64 .bf16) : FVec Ideal S50000x64 .f32 :=
  fun i => rowsum1 a b (i 0) (i 1)

/-- A step whose left block is rows `1000 b …` of the left array and whose right block is the right array leaves, at
    row `p` of its block, the product array's row `1000 b + p`. -/
theorem step1_eq (A : FVec Ideal S50000x3072 .bf16) (B : FVec Ideal S3072x64 .bf16)
    (x0 : FVec Ideal S1000x3072 .bf16) (x1 : FVec Ideal S3072x64 .bf16) (b : Nat)
    (h0 : ∀ (p : Fin 1000) (s : Fin 3072) (r : Fin 50000), r.val = b * 1000 + p.val → (x0 (ix2 p s) : EReal) = A (ix2 r s))
    (h1 : ∀ (s : Fin 3072) (j : Fin 64), (x1 (ix2 s j) : EReal) = B (ix2 s j))
    (p : Fin 1000) (j : Fin 64) (r : Fin 50000) (hr : r.val = b * 1000 + p.val) :
    (k1_pay2 (F := Ideal) (k1_pay1 (F := Ideal)) x0 x1 (ix2 p j) : EReal) = rowsum1 A B r j := by
  rw [pay1_apply]
  unfold rowsum1
  refine congrArg (fun z : EReal => 0 + z) (Finset.sum_congr rfl fun s _ => ?_)
  rw [h0 p s r hr, h1 s j]

/-! ## The blocks, read off the arrays -/

/-- The printed index maps over the grid: step `t` takes row block `t` of the left array and of the result, and the one
    block of the right array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Blocks
variable (V : (c : Dev nD) → (b : Ref sig .tc) → Buf (Elt Ideal) ((c : Thread nD τ).loc b))

/-- The left block at step `t` is rows `1000 t … 1000 t + 999` of the left array. -/
theorem iblk1_0_apply (c : Dev nD) (t : Fin cfg1.N) (p : Fin 1000) (s : Fin 3072) (r : Fin 50000)
    (hr : r.val = t.val * 1000 + p.val) :
    ((iblk1 (F := Ideal) V c 0 t : FVec Ideal S1000x3072 .bf16) (ix2 p s) : EReal)
      = (V c main_v46 : FVec Ideal S50000x3072 .bf16) (ix2 r s) := by
  obtain ⟨e0, e1, e2, e3, e4, e5⟩ := idx_facts1 t
  unfold iblk1
  rw [View.read_apply]
  show (V c main_v46 : FVec Ideal S50000x3072 .bf16) _ = (V c main_v46 : FVec Ideal S50000x3072 .bf16) _
  congr 1
  funext a
  apply Fin.ext
  match a with
  | ⟨0, _⟩ => show win1_0.index t (0 : Fin 2) * 1000 + 1 * p.val = r.val; omega
  | ⟨1, _⟩ => show win1_0.index t (1 : Fin 2) * 3072 + 1 * s.val = s.val; omega

/-- The right block at every step is the right array. -/
theorem iblk1_1_apply (c : Dev nD) (t : Fin cfg1.N) (s : Fin 3072) (j : Fin 64) :
    ((iblk1 (F := Ideal) V c 1 t : FVec Ideal S3072x64 .bf16) (ix2 s j) : EReal)
      = (V c main_v29 : FVec Ideal S3072x64 .bf16) (ix2 s j) := by
  obtain ⟨e0, e1, e2, e3, e4, e5⟩ := idx_facts1 t
  unfold iblk1
  rw [View.read_apply]
  show (V c main_v29 : FVec Ideal S3072x64 .bf16) _ = (V c main_v29 : FVec Ideal S3072x64 .bf16) _
  congr 1
  funext a
  apply Fin.ext
  match a with
  | ⟨0, _⟩ => show win1_1.index t (0 : Fin 2) * 3072 + 1 * s.val = s.val; omega
  | ⟨1, _⟩ => show win1_1.index t (1 : Fin 2) * 64 + 1 * j.val = j.val; omega

/-! ## What a step writes back, and the array after the last step -/

/-- What step `t` writes back is block `t` of the product array of the two arrays as the steps find them. -/
theorem flushed1_eq (c : Dev nD) (t : Fin cfg1.N) :
    (dat1 (F := Ideal) V c).flushed 2 t
      = ((cfg1.win 2).blk t).view.read (Elt Ideal) (whole1 (V c main_v46) (V c main_v29)) := by
  show (cfg1.win 2).cut (grid1.coords t) ((dat1 (F := Ideal) V c).after 2 t) = _
  rw [after1_2]
  obtain ⟨e0, e1, e2, e3, e4, e5⟩ := idx_facts1 t
  funext y
  obtain ⟨p, q, rfl⟩ : ∃ (p : Fin 1000) (q : Fin 64), y = ix2 p q := ⟨y 0, y 1, eq_ix2 y⟩
  rw [View.read_apply]
  have hr : t.val * 1000 + p.val < 50000 := by
    have hN : cfg1.N = 50 := N_1
    have := t.isLt; have := p.isLt; omega
  have hemb : ((cfg1.win 2).blk t).view.emb (ix2 p q) = (ix2 (⟨t.val * 1000 + p.val, hr⟩ : Fin 50000) q : S50000x64.Idx) := by
    funext a
    apply Fin.ext
    match a with
    | ⟨0, _⟩ => show win1_2.index t (0 : Fin 2) * 1000 + 1 * p.val = t.val * 1000 + p.val; omega
    | ⟨1, _⟩ => show win1_2.index t (1 : Fin 2) * 64 + 1 * q.val = q.val; omega
  rw [hemb]
  exact step1_eq (V c main_v46) (V c main_v29) (iblk1 (F := Ideal) V c 0 t) (iblk1 (F := Ideal) V c 1 t) t.val
    (fun p s r hr => iblk1_0_apply V c t p s r hr) (fun s j => iblk1_1_apply V c t s j) p q ⟨t.val * 1000 + p.val, hr⟩ rfl

/-- An index of the result array is in step `t`'s block iff each coordinate is in the block's range on its axis. -/
theorem mem_blk1 (t : Fin cfg1.N) (i : S50000x64.Idx) :
    i ∈ ((cfg1.win 2).blk t).view.set
      ↔ ∀ a : Fin 2, win1_2.index t a * S1000x64.size a ≤ (i a).val ∧ (i a).val < win1_2.index t a * S1000x64.size a + S1000x64.size a := by
  show i ∈ ((View.whole main_v47).slice (win1_2.rect t)).set ↔ _
  rw [View.set_slice_whole, Rect.mem_set_unit]
  exact Iff.rfl

/-- Row `r` of the result is in the block of step `r / 1000`, which is written back. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 50 := N_1
  obtain ⟨t, ht⟩ : ∃ t : Fin cfg1.N, t.val = (i 0).val / 1000 := ⟨⟨(i 0).val / 1000, by omega⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 1000 ≤ (i 0).val ∧ (i 0).val < win1_2.index t (0 : Fin 2) * 1000 + 1000
    omega
  | ⟨1, _⟩ =>
    show win1_2.index t (1 : Fin 2) * 64 ≤ (i 1).val ∧ (i 1).val < win1_2.index t (1 : Fin 2) * 64 + 64
    omega

/-- After the last step the result array is the product array. -/
theorem final1 (c : Dev nD) :
    (dat1 (F := Ideal) V c).arrAt 2 cfg1.N = whole1 (V c main_v46) (V c main_v29) :=
  (dat1 (F := Ideal) V c).arrAt_eq_of_cover 2 (whole1 (V c main_v46) (V c main_v29)) (fun t _ => flushed1_eq V c t) cover1

/-- The result array at an index: its row of the left array against its column of the right array. -/
theorem out1_apply (c : Dev nD) (r : Fin 50000) (j : Fin 64) :
    @Eq EReal ((dat1 (F := Ideal) V c).arrAt 2 cfg1.N (ix2 r j))
      (∑ s : Fin 3072, @HMul.hMul EReal EReal EReal _ (V c main_v46 (ix2 r s)) (V c main_v29 (ix2 s j))) := by
  rw [final1]
  show rowsum1 (V c main_v46) (V c main_v29) r j = _
  unfold rowsum1
  exact zero_add _

end Blocks

end Cert.KernelIdeal.Run
end
-- ==== Proof.KernelIdeal.Value2.lean ====
/-
  The third matrix product of the program, read at an index. The left array has 3000 rows, cut into 3 blocks of 1000
  rows; a step multiplies its row block by the whole right array (3072 x 64), adds the product onto an accumulator it has
  just set to zero, and writes the 1000 result rows back. So every result row is written by exactly one step — row r by
  step r / 1000 — and the entry (r, j) of the result is zero plus the sum, over the 3072 contracted positions s, of
  left (r, s) times right (s, j). The only law used is 0 + x = x: no distributivity, no finiteness.
-/
import proofs.«403239_j43198781063350_1_alg».proof.Proof.KernelIdeal.Region2
import Idealize.ShloMosaic.Lib.ValueIdx
import Idealize.ShloMosaic.Lib.Pipeline.Value
import Idealize.ShloMosaic.PureOps.Ideal
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.ShloMosaic.Pipeline (Dat Cfg Window)

/-! ## The product's index maps, axis by axis -/

theorem lhs_k2_0 (i : S1000x64.Idx) (q : dot_S1000x3072_S3072x64_S1000x64_1_0_0_1_n_n.contr.Idx) :
    (dot_S1000x3072_S3072x64_S1000x64_1_0_0_1_n_n.lhsIdx i q 0).val = (i 0).val := by
  unfold DotDims.lhsIdx
  rw [dif_neg (show ¬(0 : Fin S1000x3072.rank) ∈ dot_S1000x3072_S3072x64_S1000x64_1_0_0_1_n_n.lhsBatch by decide),
    dif_pos (show (0 : Fin S1000x3072.rank) ∈ dot_S1000x3072_S3072x64_S1000x64_1_0_0_1_n_n.lhsNonContracting by decide)]
  rfl
theorem lhs_k2_1 (i : S1000x64.Idx) (q : dot_S1000x3072_S3072x64_S1000x64_1_0_0_1_n_n.contr.Idx) :
    (dot_S1000x3072_S3072x64_S1000x64_1_0_0_1_n_n.lhsIdx i q 1).val = (q ⟨0, by decide⟩).val :=
  dot_S1000x3072_S3072x64_S1000x64_1_0_0_1_n_n.lhsIdx_val_of_single rfl i q
theorem rhs_k2_0 (i : S1000x64.Idx) (q : dot_S1000x3072_S3072x64_S1000x64_1_0_0_1_n_n.contr.Idx) :
    (dot_S1000x3072_S3072x64_S1000x64_1_0_0_1_n_n.rhsIdx i q 0).val = (q ⟨0, by decide⟩).val :=
  dot_S1000x3072_S3072x64_S1000x64_1_0_0_1_n_n.rhsIdx_val_of_single rfl i q
theorem rhs_k2_1 (i : S1000x64.Idx) (q : dot_S1000x3072_S3072x64_S1000x64_1_0_0_1_n_n.contr.Idx) :
    (dot_S1000x3072_S3072x64_S1000x64_1_0_0_1_n_n.rhsIdx i q 1).val = (i 1).val := by
  unfold DotDims.rhsIdx
  rw [dif_neg (show ¬(1 : Fin S3072x64.rank) ∈ dot_S1000x3072_S3072x64_S1000x64_1_0_0_1_n_n.rhsBatch by decide),
    dif_pos (show (1 : Fin S3072x64.rank) ∈ dot_S1000x3072_S3072x64_S1000x64_1_0_0_1_n_n.rhsNonContracting by decide)]
  rfl

/-! ## One step's result at an index -/

theorem pay2_apply (x0 : FVec Ideal S1000x3072 .bf16) (x1 : FVec Ideal S3072x64 .bf16) (p : Fin 1000) (j : Fin 64) :
    (k2_pay2 (F := Ideal) (k2_pay1 (F := Ideal)) x0 x1 (ix2 p j) : EReal) = 0 + ∑ s : Fin 3072, (x0 (ix2 p s) : EReal) * (x1 (ix2 s j) : EReal) := by
  unfold k2_pay2 k2_pay1
  simp only [shapeCast_self]
  show (Ideal.ofBits .f32 0x00000000#32 : EReal)
      + FloatOps.matmul dot_S1000x3072_S3072x64_S1000x64_1_0_0_1_n_n none x0 x1 (constant (F := Ideal) S1000x64 .f32 0x00000000#32) (ix2 p j) = _
  rw [Ideal.ofBits_zero_f32]
  refine congrArg (fun z : EReal => 0 + z) ?_
  rw [Ideal.matmul_constant_zero_apply, ← Equiv.sum_comp (contrEquiv1 dot_S1000x3072_S3072x64_S1000x64_1_0_0_1_n_n 3072 rfl rfl).symm]
  refine Finset.sum_congr rfl fun k _ => ?_
  have hk := contrEquiv1_symm_val dot_S1000x3072_S3072x64_S1000x64_1_0_0_1_n_n 3072 rfl rfl k
  have el : dot_S1000x3072_S3072x64_S1000x64_1_0_0_1_n_n.lhsIdx (ix2 p j) ((contrEquiv1 dot_S1000x3072_S3072x64_S1000x64_1_0_0_1_n_n 3072 rfl rfl).symm k) = ix2 p k :=
    funext fun a => Fin.ext (by
      match a with
      | ⟨0, _⟩ => exact lhs_k2_0 _ _
      | ⟨1, _⟩ => exact (lhs_k2_1 _ _).trans hk)
  have er : dot_S1000x3072_S3072x64_S1000x64_1_0_0_1_n_n.rhsIdx (ix2 p j) ((contrEquiv1 dot_S1000x3072_S3072x64_S1000x64_1_0_0_1_n_n 3072 rfl rfl).symm k) = ix2 k j :=
    funext fun a => Fin.ext (by
      match a with
      | ⟨0, _⟩ => exact (rhs_k2_0 _ _).trans hk
      | ⟨1, _⟩ => exact rhs_k2_1 _ _)
  rw [el, er]

/-! ## The whole result as one function of the two arrays -/

/-- Row `r` of the left array against column `j` of the right one, added onto zero. -/
def rowsum2 (a : FVec Ideal S3000x3072 .bf16) (b : FVec Ideal S3072x64 .bf16) (r : Fin 3000) (j : Fin 64) : EReal :=
  0 + ∑ s : Fin 3072, (a (ix2 r s) : EReal) * (b (ix2 s j) : EReal)

/-- The product array: every entry its row against its column. -/
abbrev whole2 (a : FVec Ideal S3000x3072 .bf16) (b : FVec Ideal S3072x64 .bf16) : FVec Ideal S3000x64 .f32 :=
  fun i => rowsum2 a b (i 0) (i 1)

/-- A step whose left block is rows `1000 b …` of the left array and whose right block is the right array leaves, at
    row `p` of its block, the product array's row `1000 b + p`. -/
theorem step2_eq (A : FVec Ideal S3000x3072 .bf16) (B : FVec Ideal S3072x64 .bf16)
    (x0 : FVec Ideal S1000x3072 .bf16) (x1 : FVec Ideal S3072x64 .bf16) (b : Nat)
    (h0 : ∀ (p : Fin 1000) (s : Fin 3072) (r : Fin 3000), r.val = b * 1000 + p.val → (x0 (ix2 p s) : EReal) = A (ix2 r s))
    (h1 : ∀ (s : Fin 3072) (j : Fin 64), (x1 (ix2 s j) : EReal) = B (ix2 s j))
    (p : Fin 1000) (j : Fin 64) (r : Fin 3000) (hr : r.val = b * 1000 + p.val) :
    (k2_pay2 (F := Ideal) (k2_pay1 (F := Ideal)) x0 x1 (ix2 p j) : EReal) = rowsum2 A B r j := by
  rw [pay2_apply]
  unfold rowsum2
  refine congrArg (fun z : EReal => 0 + z) (Finset.sum_congr rfl fun s _ => ?_)
  rw [h0 p s r hr, h1 s j]

/-! ## The blocks, read off the arrays -/

/-- The printed index maps over the grid: step `t` takes row block `t` of the left array and of the result, and the one
    block of the right array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Blocks
variable (V : (c : Dev nD) → (b : Ref sig .tc) → Buf (Elt Ideal) ((c : Thread nD τ).loc b))

/-- The left block at step `t` is rows `1000 t … 1000 t + 999` of the left array. -/
theorem iblk2_0_apply (c : Dev nD) (t : Fin cfg2.N) (p : Fin 1000) (s : Fin 3072) (r : Fin 3000)
    (hr : r.val = t.val * 1000 + p.val) :
    ((iblk2 (F := Ideal) V c 0 t : FVec Ideal S1000x3072 .bf16) (ix2 p s) : EReal)
      = (V c main_v71 : FVec Ideal S3000x3072 .bf16) (ix2 r s) := by
  obtain ⟨e0, e1, e2, e3, e4, e5⟩ := idx_facts2 t
  unfold iblk2
  rw [View.read_apply]
  show (V c main_v71 : FVec Ideal S3000x3072 .bf16) _ = (V c main_v71 : FVec Ideal S3000x3072 .bf16) _
  congr 1
  funext a
  apply Fin.ext
  match a with
  | ⟨0, _⟩ => show win2_0.index t (0 : Fin 2) * 1000 + 1 * p.val = r.val; omega
  | ⟨1, _⟩ => show win2_0.index t (1 : Fin 2) * 3072 + 1 * s.val = s.val; omega

/-- The right block at every step is the right array. -/
theorem iblk2_1_apply (c : Dev nD) (t : Fin cfg2.N) (s : Fin 3072) (j : Fin 64) :
    ((iblk2 (F := Ideal) V c 1 t : FVec Ideal S3072x64 .bf16) (ix2 s j) : EReal)
      = (V c main_v54 : FVec Ideal S3072x64 .bf16) (ix2 s j) := by
  obtain ⟨e0, e1, e2, e3, e4, e5⟩ := idx_facts2 t
  unfold iblk2
  rw [View.read_apply]
  show (V c main_v54 : FVec Ideal S3072x64 .bf16) _ = (V c main_v54 : FVec Ideal S3072x64 .bf16) _
  congr 1
  funext a
  apply Fin.ext
  match a with
  | ⟨0, _⟩ => show win2_1.index t (0 : Fin 2) * 3072 + 1 * s.val = s.val; omega
  | ⟨1, _⟩ => show win2_1.index t (1 : Fin 2) * 64 + 1 * j.val = j.val; omega

/-! ## What a step writes back, and the array after the last step -/

/-- What step `t` writes back is block `t` of the product array of the two arrays as the steps find them. -/
theorem flushed2_eq (c : Dev nD) (t : Fin cfg2.N) :
    (dat2 (F := Ideal) V c).flushed 2 t
      = ((cfg2.win 2).blk t).view.read (Elt Ideal) (whole2 (V c main_v71) (V c main_v54)) := by
  show (cfg2.win 2).cut (grid2.coords t) ((dat2 (F := Ideal) V c).after 2 t) = _
  rw [after2_2]
  obtain ⟨e0, e1, e2, e3, e4, e5⟩ := idx_facts2 t
  funext y
  obtain ⟨p, q, rfl⟩ : ∃ (p : Fin 1000) (q : Fin 64), y = ix2 p q := ⟨y 0, y 1, eq_ix2 y⟩
  rw [View.read_apply]
  have hr : t.val * 1000 + p.val < 3000 := by
    have hN : cfg2.N = 3 := N_2
    have := t.isLt; have := p.isLt; omega
  have hemb : ((cfg2.win 2).blk t).view.emb (ix2 p q) = (ix2 (⟨t.val * 1000 + p.val, hr⟩ : Fin 3000) q : S3000x64.Idx) := by
    funext a
    apply Fin.ext
    match a with
    | ⟨0, _⟩ => show win2_2.index t (0 : Fin 2) * 1000 + 1 * p.val = t.val * 1000 + p.val; omega
    | ⟨1, _⟩ => show win2_2.index t (1 : Fin 2) * 64 + 1 * q.val = q.val; omega
  rw [hemb]
  exact step2_eq (V c main_v71) (V c main_v54) (iblk2 (F := Ideal) V c 0 t) (iblk2 (F := Ideal) V c 1 t) t.val
    (fun p s r hr => iblk2_0_apply V c t p s r hr) (fun s j => iblk2_1_apply V c t s j) p q ⟨t.val * 1000 + p.val, hr⟩ rfl

/-- An index of the result array is in step `t`'s block iff each coordinate is in the block's range on its axis. -/
theorem mem_blk2 (t : Fin cfg2.N) (i : S3000x64.Idx) :
    i ∈ ((cfg2.win 2).blk t).view.set
      ↔ ∀ a : Fin 2, win2_2.index t a * S1000x64.size a ≤ (i a).val ∧ (i a).val < win2_2.index t a * S1000x64.size a + S1000x64.size a := by
  show i ∈ ((View.whole main_v72).slice (win2_2.rect t)).set ↔ _
  rw [View.set_slice_whole, Rect.mem_set_unit]
  exact Iff.rfl

/-- Row `r` of the result is in the block of step `r / 1000`, which is written back. -/
theorem cover2 (i : S3000x64.Idx) :
    ∃ t : Fin cfg2.N, (cfg2.win 2).flush t = true ∧ i ∈ ((cfg2.win 2).blk t).view.set := by
  have hi0 : (i 0).val < 3000 := (i 0).isLt
  have hi1 : (i 1).val < 64 := (i 1).isLt
  have hN : cfg2.N = 3 := N_2
  obtain ⟨t, ht⟩ : ∃ t : Fin cfg2.N, t.val = (i 0).val / 1000 := ⟨⟨(i 0).val / 1000, by omega⟩, rfl⟩
  obtain ⟨e0, e1, e2, e3, e4, e5⟩ := idx_facts2 t
  refine ⟨t, flush2_2 t, ?_⟩
  rw [mem_blk2]
  intro a
  match a with
  | ⟨0, _⟩ =>
    show win2_2.index t (0 : Fin 2) * 1000 ≤ (i 0).val ∧ (i 0).val < win2_2.index t (0 : Fin 2) * 1000 + 1000
    omega
  | ⟨1, _⟩ =>
    show win2_2.index t (1 : Fin 2) * 64 ≤ (i 1).val ∧ (i 1).val < win2_2.index t (1 : Fin 2) * 64 + 64
    omega

/-- After the last step the result array is the product array. -/
theorem final2 (c : Dev nD) :
    (dat2 (F := Ideal) V c).arrAt 2 cfg2.N = whole2 (V c main_v71) (V c main_v54) :=
  (dat2 (F := Ideal) V c).arrAt_eq_of_cover 2 (whole2 (V c main_v71) (V c main_v54)) (fun t _ => flushed2_eq V c t) cover2

/-- The result array at an index: its row of the left array against its column of the right array. -/
theorem out2_apply (c : Dev nD) (r : Fin 3000) (j : Fin 64) :
    @Eq EReal ((dat2 (F := Ideal) V c).arrAt 2 cfg2.N (ix2 r j))
      (∑ s : Fin 3072, @HMul.hMul EReal EReal EReal _ (V c main_v71 (ix2 r s)) (V c main_v54 (ix2 s j))) := by
  rw [final2]
  show rowsum2 (V c main_v71) (V c main_v54) r j = _
  unfold rowsum2
  exact zero_add _

end Blocks

end Cert.KernelIdeal.Run
end
-- ==== Proof.Spec.lean ====
/-
  What both programs compute, as plain functions over the extended reals.

  A bipartite graph of 50000 cells and 3000 genes carries three edge lists (cell to gene, gene to cell, gene to
  gene), each a pair of endpoint arrays. One relation sends along every edge its SOURCE node's weighted feature
  row, feat[s, j] * (cj[s] * mask[s]), sums what arrives at each destination node, and scales the sum by ci[d]:

      conv d j  =  (sum over the edges e with dst e = d of  wf (src e) j)  *  ci[d].

  The first result is the gene-to-cell relation; the second is one half of the cell-to-gene relation plus one half
  of the gene-to-gene relation, the two halves the same 32-bit word on both sides, never evaluated.
  The endpoint arrays hold node numbers: every entry is below the number of nodes it indexes (`Args.Ok`).
-/
import Idealize.ShloMosaic.PureOps.Ideal
import Idealize.ShloMosaic.Lib.ValueIdx

noncomputable section

namespace Cert.Spec

open Idealize.ShloMosaic Idealize.ShloMosaic.ValueIdx

/-- Every entry of an endpoint array is a node number below `N`. -/
def InRange {E : Nat} (a : IVec ⟨1, ![E]⟩ 32) (N : Nat) : Prop := ∀ e : Fin E, (a (ix1 e)).toNat < N

/-- The node an in-range endpoint entry names. -/
def node {E N : Nat} (a : IVec ⟨1, ![E]⟩ 32) (h : InRange a N) (e : Fin E) : Fin N := ⟨(a (ix1 e)).toNat, h e⟩

/-- A source node's weighted feature row: feat[s, j] * (cj[s] * mask[s]). -/
def wrow {N : Nat} (feat : (⟨2, ![N, 64]⟩ : Shape).Idx → EReal) (cj mask : (⟨2, ![N, 1]⟩ : Shape).Idx → EReal)
    (s : Fin N) (j : Fin 64) : EReal :=
  feat (ix2 s j) * (cj (ix2 s 0) * mask (ix2 s 0))

/-- One relation: the weighted rows of the edges' sources summed at each edge's destination, scaled by ci[d]. -/
def conv {Ns Nd E : Nat} (wf : Fin Ns → Fin 64 → EReal) (ci : (⟨2, ![Nd, 1]⟩ : Shape).Idx → EReal)
    (src : Fin E → Fin Ns) (dst : Fin E → Fin Nd) (d : Fin Nd) (j : Fin 64) : EReal :=
  (∑ e : Fin E, if dst e = d then wf (src e) j else 0) * ci (ix2 d 0)

/-- The weight both programs give each of the two gene-side relations: the word of one half. -/
def half : EReal := Ideal.ofBits .f32 0x3F000000#32

/-- The seventeen argument arrays, in the programs' order. -/
structure Args where
  c_feat : (⟨2, ![50000, 64]⟩ : Shape).Idx → EReal
  g_feat : (⟨2, ![3000, 64]⟩ : Shape).Idx → EReal
  cj_cell : (⟨2, ![50000, 1]⟩ : Shape).Idx → EReal
  ci_cell : (⟨2, ![50000, 1]⟩ : Shape).Idx → EReal
  cj_gene : (⟨2, ![3000, 1]⟩ : Shape).Idx → EReal
  ci_gene : (⟨2, ![3000, 1]⟩ : Shape).Idx → EReal
  cjj_gene : (⟨2, ![3000, 1]⟩ : Shape).Idx → EReal
  cii_gene : (⟨2, ![3000, 1]⟩ : Shape).Idx → EReal
  mask_exp : (⟨2, ![50000, 1]⟩ : Shape).Idx → EReal
  mask_rev : (⟨2, ![3000, 1]⟩ : Shape).Idx → EReal
  mask_gg : (⟨2, ![3000, 1]⟩ : Shape).Idx → EReal
  src_cg : IVec ⟨1, ![3000000]⟩ 32
  dst_cg : IVec ⟨1, ![3000000]⟩ 32
  src_gc : IVec ⟨1, ![3000000]⟩ 32
  dst_gc : IVec ⟨1, ![3000000]⟩ 32
  src_gg : IVec ⟨1, ![100000]⟩ 32
  dst_gg : IVec ⟨1, ![100000]⟩ 32

/-- The endpoint arrays hold node numbers of the side they index: cells below 50000, genes below 3000. -/
structure Args.Ok (A : Args) : Prop where
  src_cg : InRange A.src_cg 50000
  dst_cg : InRange A.dst_cg 3000
  src_gc : InRange A.src_gc 3000
  dst_gc : InRange A.dst_gc 50000
  src_gg : InRange A.src_gg 3000
  dst_gg : InRange A.dst_gg 3000

/-- The first result, per cell: the gene-to-cell relation. -/
def cOut (A : Args) (h : A.Ok) (p : Fin 50000) (q : Fin 64) : EReal :=
  conv (wrow A.g_feat A.cj_gene A.mask_rev) A.ci_cell (node A.src_gc h.src_gc) (node A.dst_gc h.dst_gc) p q

/-- The second result, per gene: half the cell-to-gene relation plus half the gene-to-gene relation. -/
def gOut (A : Args) (h : A.Ok) (p : Fin 3000) (q : Fin 64) : EReal :=
  half * conv (wrow A.c_feat A.cj_cell A.mask_exp) A.ci_gene (node A.src_cg h.src_cg) (node A.dst_cg h.dst_cg) p q
    + half * conv (wrow A.g_feat A.cjj_gene A.mask_gg) A.cii_gene (node A.src_gg h.src_gg) (node A.dst_gg h.dst_gg) p q

end Cert.Spec

end
-- ==== Proof.LibRowOps.lean ====
/-
  Host row operations read at an index, over the extended reals and arbitrary sizes: a scatter-add of E scalars
  into a vector of length N, a scatter-add of E rows into an N x C table, a gather of E rows out of an N x C table,
  and a one-row dynamic slice of an N x C table. A scatter index is read signed and not clamped (an update whose
  index is outside 0..N-1 lands nowhere); a gather or slice start is read signed and clamped into 0..N-1.
-/
import Idealize.ShloMosaic.PureOps.Ideal
import Idealize.ShloMosaic.Lib.ValueIdx

noncomputable section

namespace Cert.LibRowOps

open Idealize.ShloMosaic Idealize.ShloMosaic.ValueIdx

/-- The row a clamped signed start z selects in a table of N rows. -/
def clampRow (N : Nat) (hN : 0 < N) (z : Int) : Fin N := ⟨(min (max z 0) ((N - 1 : Nat) : Int)).toNat, by omega⟩

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- An update lands at operand index i exactly when, on every operand axis, its signed start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

/-- Rank 1, one scatter axis and no window: an update lands at n exactly when its signed index is n. -/
theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

/-- E scalars added into a vector of length N at signed, unclamped indices: entry n ends at its old value plus
    the updates whose index is n. -/
theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

/-- Rank 2, one scatter axis (the rows) and one window axis (the columns): the update at row e, column f' lands
    at (n, f) exactly when f' = f and row e's signed index is n. -/
theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

/-- E rows added into an N x C table at signed, unclamped row indices. -/
theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

/-- E rows gathered out of an N x C table: row e of the result is the table's row at the clamped signed index. -/
theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

/-- A one-row dynamic slice of an N x C table whose column start is 0: the row at the clamped signed start. -/
theorem dynamicSlice_row_apply {α : Type} {N C : Nat} (hN : 0 < N) (x : (⟨2, ![N, C]⟩ : Shape).Idx → α) (start : Fin 2 → Int)
    (h0 : start 1 = 0) (h : (⟨2, ![N, C]⟩ : Shape).Slices (fun _ => 0) ⟨2, ![1, C]⟩) (f : Fin C) :
    Host.dynamicSlice (s := ⟨2, ![N, C]⟩) ⟨2, ![1, C]⟩ x start h (ix2 0 f) = x (ix2 (clampRow N hN (start 0)) f) := by
  show x _ = x _
  congr 1
  funext a
  refine Fin.ext ?_
  match a with
  | ⟨0, _⟩ =>
    show (min (max (start 0) 0) ((N - 1 : Nat) : Int)).toNat + 0 = (min (max (start 0) 0) ((N - 1 : Nat) : Int)).toNat
    rfl
  | ⟨1, _⟩ =>
    show (min (max (start 1) 0) ((C - C : Nat) : Int)).toNat + f.val = f.val
    rw [h0]; simp

end Cert.LibRowOps

end
-- ==== Proof.LibPairScatter.lean ====
/-
  A host scatter-add whose scatter index is a PAIR (row, column): E scalars added into an N x K table, update e
  landing at the entry whose row is the first component of index row e and whose column is the second, both read
  signed and not clamped (an update whose pair names no entry of the table lands nowhere). Over the extended reals
  and arbitrary sizes.
-/
import Idealize.ShloMosaic.PureOps.Ideal
import Idealize.ShloMosaic.Lib.ValueIdx
import proofs.«403239_j43198781063350_1_alg».proof.Proof.LibRowOps

noncomputable section

namespace Cert.LibPairScatter

open Idealize.ShloMosaic Idealize.ShloMosaic.ValueIdx

/-- Rank 2, both operand axes scatter axes, no window: update e lands at (n, k) exactly when its signed index pair
    is (n, k). -/
theorem pair_resultIdx?_iff {N K E w : Nat} (d : ScatterDims ⟨2, ![N, K]⟩ ⟨2, ![E, 2]⟩ ⟨1, ![E]⟩)
    (hu : d.updateWindowDims = []) (hi : d.insertedWindowDims = [0, 1]) (hs : d.scatterDimsToOperandDims = [0, 1])
    (hv : d.indexVectorDim = 1) (idx : IVec ⟨2, ![E, 2]⟩ w) (e : Fin E) (n : Fin N) (k : Fin K) :
    d.resultIdx? (ix1 e) idx = some (ix2 n k)
      ↔ (idx (ix2 e 0)).toInt = (n.val : ℤ) ∧ (idx (ix2 e 1)).toInt = (k.val : ℤ) := by
  obtain ⟨uw, iw, sd, iv, wf⟩ := d
  simp only at hu hi hs hv
  subst hu hi hs hv
  rw [Cert.LibRowOps.resultIdx?_eq_some_iff, Fin.forall_fin_two]
  have hstart0 : (ScatterDims.mk (s := ⟨2, ![N, K]⟩) (si := ⟨2, ![E, 2]⟩) (u := ⟨1, ![E]⟩) [] [0, 1] [0, 1] 1 wf).start
      (ix1 e) idx 0 = (idx (ix2 e 0)).toInt := by
    unfold ScatterDims.start
    rw [dif_pos (by simp)]
    congr 2
    funext b
    refine Fin.ext ?_
    match b with
    | ⟨0, _⟩ => rfl
    | ⟨1, _⟩ => rfl
  have hstart1 : (ScatterDims.mk (s := ⟨2, ![N, K]⟩) (si := ⟨2, ![E, 2]⟩) (u := ⟨1, ![E]⟩) [] [0, 1] [0, 1] 1 wf).start
      (ix1 e) idx 1 = (idx (ix2 e 1)).toInt := by
    unfold ScatterDims.start
    rw [dif_pos (by simp)]
    congr 2
    funext b
    refine Fin.ext ?_
    match b with
    | ⟨0, _⟩ => rfl
    | ⟨1, _⟩ => rfl
  have hwin0 : (ScatterDims.mk (s := ⟨2, ![N, K]⟩) (si := ⟨2, ![E, 2]⟩) (u := ⟨1, ![E]⟩) [] [0, 1] [0, 1] 1 wf).window
      (ix1 e) 0 = 0 := by
    unfold ScatterDims.window
    rw [dif_neg (by simp [Shape.kept])]
  have hwin1 : (ScatterDims.mk (s := ⟨2, ![N, K]⟩) (si := ⟨2, ![E, 2]⟩) (u := ⟨1, ![E]⟩) [] [0, 1] [0, 1] 1 wf).window
      (ix1 e) 1 = 0 := by
    unfold ScatterDims.window
    rw [dif_neg (by simp [Shape.kept])]
  rw [hstart0, hwin0, hstart1, hwin1]
  show (idx (ix2 e 0)).toInt + ((0 : ℕ) : ℤ) = (n.val : ℤ) ∧ (idx (ix2 e 1)).toInt + ((0 : ℕ) : ℤ) = (k.val : ℤ) ↔ _
  constructor
  · rintro ⟨h1, h2⟩; exact ⟨by omega, by omega⟩
  · rintro ⟨h1, h2⟩; exact ⟨by omega, by omega⟩

/-- E scalars added into an N x K table at signed, unclamped (row, column) pairs: entry (n, k) ends at its old
    value plus the updates whose pair is (n, k). -/
theorem scatterAdd_pair_apply {N K E w : Nat} (d : ScatterDims ⟨2, ![N, K]⟩ ⟨2, ![E, 2]⟩ ⟨1, ![E]⟩)
    (hu : d.updateWindowDims = []) (hi : d.insertedWindowDims = [0, 1]) (hs : d.scatterDimsToOperandDims = [0, 1])
    (hv : d.indexVectorDim = 1)
    (x : (⟨2, ![N, K]⟩ : Shape).Idx → EReal) (idx : IVec ⟨2, ![E, 2]⟩ w) (upd : (⟨1, ![E]⟩ : Shape).Idx → EReal)
    (n : Fin N) (k : Fin K) :
    Ideal.hostScatterAdd d x idx upd (ix2 n k)
      = x (ix2 n k) + ∑ e : Fin E,
          (if (idx (ix2 e 0)).toInt = (n.val : ℤ) ∧ (idx (ix2 e 1)).toInt = (k.val : ℤ) then upd (ix1 e) else 0) := by
  unfold Ideal.hostScatterAdd
  congr 1
  rw [Finset.sum_filter, Cert.LibRowOps.sum_idx1]
  refine Finset.sum_congr rfl fun e _ => ?_
  simp only [pair_resultIdx?_iff d hu hi hs hv idx e n k]

end Cert.LibPairScatter

end
-- ==== Proof.KernelIdeal.HostAdj.lean ====
/-
  The three adjacency tables of the kernel program, read at an entry.

  For each relation the host builds, before the matrix product, a table with one row per destination node and one
  column per (padded) source node: a table of zeros into which every edge e adds 1 at (dst e, src e). Read at
  (d, s) it is the number of edges from s to d. The endpoint arrays hold node numbers, so the normalisation of
  negative indices does nothing, no update falls outside the table, and the columns past the true number of
  source nodes stay zero (no edge names them).
-/
import proofs.«403239_j43198781063350_1_alg».proof.Proof.Gen.KernelIdeal.Regions
import proofs.«403239_j43198781063350_1_alg».proof.Proof.Spec
import proofs.«403239_j43198781063350_1_alg».proof.Proof.LibRowOps
import proofs.«403239_j43198781063350_1_alg».proof.Proof.LibPairScatter
import Idealize.ShloMosaic.Lib.IdealHost
import Idealize.ShloMosaic.Lib.StableHlo.Predicate
import Idealize.ShloMosaic.Lib.StableHlo.Run
import Idealize.ShloMosaic.Lib.Pipeline.Value

set_option maxRecDepth 16384

noncomputable section

namespace Cert.KernelIdeal.Run

open Cert.KernelIdeal Cert.KernelIdeal.Gen Idealize.ShloMosaic Idealize.ShloMosaic.ValueIdx Idealize.ShloMosaic.TcCoe

/-! ## One table, over arbitrary sizes -/

/-- A node number, as a 32-bit word below 2^31, is not negative, so the normalisation "a negative word has the
    extent added" leaves it as it is. -/
theorem adjT_norm_apply {E : Nat} (hb : (⟨0, ![]⟩ : Shape).BroadcastsInDim ⟨1, ![E]⟩ (![] : Fin 0 → Fin 1))
    (x : IVec ⟨1, ![E]⟩ 32) (ext : BitVec 32) (e : Fin E) (hx : (x (ix1 e)).toNat < 2 ^ 31) :
    select (cmpi .slt x (broadcastInDim ⟨1, ![E]⟩ ![] hb (constantI ⟨0, ![]⟩ 32 0#32)))
      (addi x (broadcastInDim ⟨1, ![E]⟩ ![] hb (constantI ⟨0, ![]⟩ 32 ext))) x (ix1 e) = x (ix1 e) := by
  show Scalar.select (IntOp.cmpi .slt (x (ix1 e)) 0#32) _ _ = _
  have h : ¬ IntOp.cmpi .slt (x (ix1 e)) 0#32 = 1#1 := by
    rw [StableHlo.Predicate.slt_iff_toNat hx (by decide)]
    simp
  exact if_neg h

/-- A vector as an [E, 1] column reads, at (e, 0), the vector at e. -/
theorem adjT_col_apply {α : Type} {E : Nat} (hcol : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ ![0] hcol v (ix2 e 0) = v (ix1 e) := by
  simp only [broadcastInDim]
  congr 1
  funext a
  have ha : a = 0 := Subsingleton.elim _ _
  subst ha
  apply Fin.ext
  have hp := e.isLt
  split
  · next h1 => change E = 1 at h1; show (0 : Nat) = e.val; omega
  · rfl

/-- Two [E, 1] columns side by side read, at (e, 0), the first column at (e, 0). -/
theorem adjT_cat_apply0 {α : Type} {E : Nat}
    (hcat : Shape.Concatenates [(⟨2, ![E, 1]⟩ : Shape), ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] hcat (ix2 e 0) = a (ix2 e 0) := by
  refine concatenate_pair_apply_left (t := ⟨2, ![E, 2]⟩) (1 : Fin 2) a b hcat (ix2 e 0) rfl (ix2 e 0) ?_
  intro c
  match c with
  | ⟨0, _⟩ => rfl
  | ⟨1, _⟩ => rfl

/-- Two [E, 1] columns side by side read, at (e, 1), the second column at (e, 0). -/
theorem adjT_cat_apply1 {α : Type} {E : Nat}
    (hcat : Shape.Concatenates [(⟨2, ![E, 1]⟩ : Shape), ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] hcat (ix2 e 1) = b (ix2 e 0) := by
  refine concatenate_pair_apply_right (t := ⟨2, ![E, 2]⟩) (1 : Fin 2) a b hcat (ix2 e 1) rfl rfl (ix2 e 0) ?_ ?_
  · intro c hc
    match c with
    | ⟨0, _⟩ => rfl
    | ⟨1, _⟩ => exact absurd rfl hc
  · rfl

/-- THE TABLE AT AN ENTRY. A table of zeros into which every edge e adds 1 at (row dst e, column src e) — the two
    endpoint arrays normalised, laid as columns, set side by side as the index pairs — reads at (n, k) the number
    of edges e whose destination is n and whose source is k; the narrowing format change is the identity on the
    extended reals. The endpoints are node numbers (below N, below Ns, both at most 2^31), so no word is negative
    and signed and unsigned readings agree. -/
theorem adjT_table_apply {N K E Ns : Nat}
    (d : ScatterDims ⟨2, ![N, K]⟩ ⟨2, ![E, 2]⟩ ⟨1, ![E]⟩)
    (hu : d.updateWindowDims = []) (hi : d.insertedWindowDims = [0, 1]) (hs : d.scatterDimsToOperandDims = [0, 1])
    (hv : d.indexVectorDim = 1)
    (hb0 : (⟨0, ![]⟩ : Shape).BroadcastsInDim ⟨2, ![N, K]⟩ (![] : Fin 0 → Fin 2))
    (hbE : (⟨0, ![]⟩ : Shape).BroadcastsInDim ⟨1, ![E]⟩ (![] : Fin 0 → Fin 1))
    (hcol : (⟨1, ![E]⟩ : Shape).BroadcastsInDim ⟨2, ![E, 1]⟩ (![0] : Fin 1 → Fin 2))
    (hcat : Shape.Concatenates [(⟨2, ![E, 1]⟩ : Shape), ⟨2, ![E, 1]⟩] ⟨2, ![E, 2]⟩ 1)
    (hlt : FTy.bits .bf16 < FTy.bits .f32)
    (dst src : IVec ⟨1, ![E]⟩ 32) (extD extS : BitVec 32)
    (hdst : Spec.InRange dst N) (hsrc : Spec.InRange src Ns) (hN : N ≤ 2 ^ 31) (hNs : Ns ≤ 2 ^ 31)
    (n : Fin N) (k : Fin K) :
    (truncf .bf16 (Host.scatterAdd (F := Ideal) d
        (broadcastInDim ⟨2, ![N, K]⟩ ![] hb0 (constant (F := Ideal) ⟨0, ![]⟩ .f32 0x00000000#32))
        (concatenate ⟨2, ![E, 2]⟩ 1
          [⟨⟨2, ![E, 1]⟩, broadcastInDim ⟨2, ![E, 1]⟩ ![0] hcol
              (select (cmpi .slt dst (broadcastInDim ⟨1, ![E]⟩ ![] hbE (constantI ⟨0, ![]⟩ 32 0#32)))
                (addi dst (broadcastInDim ⟨1, ![E]⟩ ![] hbE (constantI ⟨0, ![]⟩ 32 extD))) dst)⟩,
           ⟨⟨2, ![E, 1]⟩, broadcastInDim ⟨2, ![E, 1]⟩ ![0] hcol
              (select (cmpi .slt src (broadcastInDim ⟨1, ![E]⟩ ![] hbE (constantI ⟨0, ![]⟩ 32 0#32)))
                (addi src (broadcastInDim ⟨1, ![E]⟩ ![] hbE (constantI ⟨0, ![]⟩ 32 extS))) src)⟩] hcat)
        (broadcastInDim ⟨1, ![E]⟩ ![] hbE (constant (F := Ideal) ⟨0, ![]⟩ .f32 0x3F800000#32))) hlt
        : FVec Ideal ⟨2, ![N, K]⟩ .bf16) (ix2 n k)
      = ∑ e : Fin E, if Spec.node dst hdst e = n ∧ (Spec.node src hsrc e).val = k.val then (1 : EReal) else 0 := by
  rw [truncf_apply]
  unfold Host.scatterAdd
  rw [Ideal.hostScatterAdd_def]
  rw [Cert.LibPairScatter.scatterAdd_pair_apply d hu hi hs hv]
  have h0 : broadcastInDim ⟨2, ![N, K]⟩ ![] hb0 (constant (F := Ideal) ⟨0, ![]⟩ .f32 0x00000000#32) (ix2 n k) = 0 :=
    Ideal.ofBits_zero_f32
  rw [h0, zero_add]
  refine Finset.sum_congr rfl fun e _ => ?_
  have h1 : broadcastInDim ⟨1, ![E]⟩ ![] hbE (constant (F := Ideal) ⟨0, ![]⟩ .f32 0x3F800000#32) (ix1 e) = 1 :=
    Ideal.ofBits_one_f32
  have hd31 : (dst (ix1 e)).toNat < 2 ^ 31 := lt_of_lt_of_le (hdst e) hN
  have hs31 : (src (ix1 e)).toNat < 2 ^ 31 := lt_of_lt_of_le (hsrc e) hNs
  rw [h1, adjT_cat_apply0, adjT_cat_apply1, adjT_col_apply, adjT_col_apply, adjT_norm_apply hbE dst extD e hd31,
    adjT_norm_apply hbE src extS e hs31, StableHlo.Predicate.toInt_eq_toNat_of_lt hd31,
    StableHlo.Predicate.toInt_eq_toNat_of_lt hs31]
  refine if_congr ?_ rfl rfl
  rw [Fin.ext_iff, Nat.cast_inj, Nat.cast_inj]
  rfl

/-! ## The kernel program's arguments and its three tables -/

variable (m : (ℓ : Loc nD τ sig) → Buf (Elt Ideal) ℓ)

/-- The kernel program's seventeen argument arrays on core c. -/
def kargs (c : Dev nD) : Spec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14),
   m ((c.tc : Thread nD τ).loc main_arg15), m ((c.tc : Thread nD τ).loc main_arg16)⟩

set_option maxHeartbeats 4000000 in
/-- The cell-to-gene table after its host stretch, from any contents W before it whose two endpoint arrays are
    dst and src. -/
theorem adjT_cg_of (W : Valuation τ sig (Elt Ideal)) (dst src : IVec S3000000 32)
    (h12 : (W (Proc.devRef .tc main_arg12) : IVec S3000000 32) = dst)
    (h11 : (W (Proc.devRef .tc main_arg11) : IVec S3000000 32) = src)
    (hd : Spec.InRange dst 3000) (hs : Spec.InRange src 50000) (d : Fin 3000) (s : Fin 51200) :
    (StableHlo.after hostOps0_2 W (Proc.devRef .tc main_v21) : S3000x51200.Idx → EReal) (ix2 d s)
      = ∑ e : Fin 3000000, if Spec.node dst hd e = d ∧ (Spec.node src hs e).val = s.val then (1 : EReal) else 0 := by
  after_results
  rw [h12, h11]
  exact adjT_table_apply scatter_S3000x51200_S3000000x2_S3000000_n_01_01_1 rfl rfl rfl rfl _ _ _ _ _ dst src
    3000#32 51200#32 hd hs (by decide) (by decide) d s

set_option maxHeartbeats 4000000 in
/-- The gene-to-cell table, likewise. -/
theorem adjT_gc_of (W : Valuation τ sig (Elt Ideal)) (dst src : IVec S3000000 32)
    (h14 : (W (Proc.devRef .tc main_arg14) : IVec S3000000 32) = dst)
    (h13 : (W (Proc.devRef .tc main_arg13) : IVec S3000000 32) = src)
    (hd : Spec.InRange dst 50000) (hs : Spec.InRange src 3000) (d : Fin 50000) (s : Fin 3072) :
    (StableHlo.after hostOps1_2 W (Proc.devRef .tc main_v46) : S50000x3072.Idx → EReal) (ix2 d s)
      = ∑ e : Fin 3000000, if Spec.node dst hd e = d ∧ (Spec.node src hs e).val = s.val then (1 : EReal) else 0 := by
  after_results
  rw [h14, h13]
  exact adjT_table_apply scatter_S50000x3072_S3000000x2_S3000000_n_01_01_1 rfl rfl rfl rfl _ _ _ _ _ dst src
    50000#32 3072#32 hd hs (by decide) (by decide) d s

set_option maxHeartbeats 4000000 in
/-- The gene-to-gene table, likewise. -/
theorem adjT_gg_of (W : Valuation τ sig (Elt Ideal)) (dst src : IVec S100000 32)
    (h16 : (W (Proc.devRef .tc main_arg16) : IVec S100000 32) = dst)
    (h15 : (W (Proc.devRef .tc main_arg15) : IVec S100000 32) = src)
    (hd : Spec.InRange dst 3000) (hs : Spec.InRange src 3000) (d : Fin 3000) (s : Fin 3072) :
    (StableHlo.after hostOps2_2 W (Proc.devRef .tc main_v71) : S3000x3072.Idx → EReal) (ix2 d s)
      = ∑ e : Fin 100000, if Spec.node dst hd e = d ∧ (Spec.node src hs e).val = s.val then (1 : EReal) else 0 := by
  after_results
  rw [h16, h15]
  exact adjT_table_apply scatter_S3000x3072_S100000x2_S100000_n_01_01_1 rfl rfl rfl rfl _ _ _ _ _ dst src
    3000#32 3072#32 hd hs (by decide) (by decide) d s

/-- Before the first table's stretch an argument array still holds its launch contents. -/
theorem adjT_V2_arg (c : Dev nD) (r : Ref sig .tc) (h0 : r ∉ hostOps0_W) (h1 : r ∉ hostOps0_1_W) :
    V2 m c r = m ((c.tc : Thread nD τ).loc r) :=
  (V2_of m c r h1).trans ((V1_of m c r h0).trans rfl)

/-- Before the second table's stretch, likewise, whatever the first region left. -/
theorem adjT_V6_arg (outs : Outs (F := Ideal)) (c : Dev nD) (r : Ref sig .tc) (h0 : r ∉ hostOps0_W) (h1 : r ∉ hostOps0_1_W)
    (h2 : r ∉ hostOps0_2_W) (h3 : r ∉ ([main_v22] : List (Ref sig .tc))) (h4 : r ∉ hostOps1_W) (h5 : r ∉ hostOps1_1_W) :
    V6 m outs c r = m ((c.tc : Thread nD τ).loc r) :=
  (V6_of m outs c r h5).trans <| (V5_of m outs c r h4).trans <| (V4_of m outs c r h3).trans <|
    (V3_of m c r h2).trans <| adjT_V2_arg m c r h0 h1

/-- Before the third table's stretch, likewise, whatever the first two regions left. -/
theorem adjT_V10_arg (outs : Outs (F := Ideal)) (c : Dev nD) (r : Ref sig .tc) (h0 : r ∉ hostOps0_W) (h1 : r ∉ hostOps0_1_W)
    (h2 : r ∉ hostOps0_2_W) (h3 : r ∉ ([main_v22] : List (Ref sig .tc))) (h4 : r ∉ hostOps1_W) (h5 : r ∉ hostOps1_1_W)
    (h6 : r ∉ hostOps1_2_W) (h7 : r ∉ ([main_v47] : List (Ref sig .tc))) (h8 : r ∉ hostOps2_W) (h9 : r ∉ hostOps2_1_W) :
    V10 m outs c r = m ((c.tc : Thread nD τ).loc r) :=
  (V10_of m outs c r h9).trans <| (V9_of m outs c r h8).trans <| (V8_of m outs c r h7).trans <|
    (V7_of m outs c r h6).trans <| adjT_V6_arg m outs c r h0 h1 h2 h3 h4 h5

/-- The cell-to-gene table at (d, s): the number of edges from cell s to gene d. -/
theorem adj_cg_apply (c : Dev nD) (h : (kargs m c).Ok) (d : Fin 3000) (s : Fin 51200) :
    V3 m c main_v21 (ix2 d s)
      = ∑ e : Fin 3000000, if Spec.node (kargs m c).dst_cg h.dst_cg e = d
          ∧ (Spec.node (kargs m c).src_cg h.src_cg e).val = s.val then (1 : EReal) else 0 :=
  adjT_cg_of (V2 m c) (kargs m c).dst_cg (kargs m c).src_cg
    (adjT_V2_arg m c main_arg12 (by decide) (by decide)) (adjT_V2_arg m c main_arg11 (by decide) (by decide))
    h.dst_cg h.src_cg d s

/-- The gene-to-cell table at (d, s): the number of edges from gene s to cell d. -/
theorem adj_gc_apply (outs : Outs (F := Ideal)) (c : Dev nD) (h : (kargs m c).Ok) (d : Fin 50000) (s : Fin 3072) :
    V7 m outs c main_v46 (ix2 d s)
      = ∑ e : Fin 3000000, if Spec.node (kargs m c).dst_gc h.dst_gc e = d
          ∧ (Spec.node (kargs m c).src_gc h.src_gc e).val = s.val then (1 : EReal) else 0 :=
  adjT_gc_of (V6 m outs c) (kargs m c).dst_gc (kargs m c).src_gc
    (adjT_V6_arg m outs c main_arg14 (by decide) (by decide) (by decide) (by decide) (by decide) (by decide))
    (adjT_V6_arg m outs c main_arg13 (by decide) (by decide) (by decide) (by decide) (by decide) (by decide))
    h.dst_gc h.src_gc d s

/-- The gene-to-gene table at (d, s): the number of edges from gene s to gene d. -/
theorem adj_gg_apply (outs : Outs (F := Ideal)) (c : Dev nD) (h : (kargs m c).Ok) (d : Fin 3000) (s : Fin 3072) :
    V11 m outs c main_v71 (ix2 d s)
      = ∑ e : Fin 100000, if Spec.node (kargs m c).dst_gg h.dst_gg e = d
          ∧ (Spec.node (kargs m c).src_gg h.src_gg e).val = s.val then (1 : EReal) else 0 :=
  adjT_gg_of (V10 m outs c) (kargs m c).dst_gg (kargs m c).src_gg
    (adjT_V10_arg m outs c main_arg16 (by decide) (by decide) (by decide) (by decide) (by decide) (by decide)
      (by decide) (by decide) (by decide) (by decide))
    (adjT_V10_arg m outs c main_arg15 (by decide) (by decide) (by decide) (by decide) (by decide) (by decide)
      (by decide) (by decide) (by decide) (by decide))
    h.dst_gg h.src_gg d s

end Cert.KernelIdeal.Run

end
-- ==== Proof.KernelIdeal.HostRows.lean ====
/-
  The host-side arithmetic around the three matrix products, read one entry at a time.

  Before each product the program forms the table of weighted feature rows, feat[s, j] * (cj[s] * mask[s]), and
  lengthens it with rows of zeros so that the number of rows is a multiple of the block height: row s of the
  lengthened table is the weighted row s when s is below the original number of rows, and zero otherwise. The
  conversion to the narrower float type that follows changes nothing at the ideal values. After each product the
  program scales row p of the result by ci[p]; the gene-side result is one half of the first scaled product plus one
  half of the third, the half kept as the 32-bit word it is printed as.

  What the three products themselves leave in their result arrays is not looked at here: it stays an unknown.
-/
import proofs.«403239_j43198781063350_1_alg».proof.Proof.Gen.KernelIdeal.Regions
import proofs.«403239_j43198781063350_1_alg».proof.Proof.Spec
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx

/-! ## Three layout operations read at one index -/

section General
variable {α : Type}

/-- A table of N rows lengthened at the bottom to K rows: row s is the table's own row s while s < N, and the
    padding value below that. Nothing is added on the column axis, before the first row, or between rows. -/
theorem pad_rows_apply {N K C hi : Nat} (x : (⟨2, ![N, C]⟩ : Shape).Idx → α) {u : Shape} (v : u.Idx → α)
    (hp : (⟨2, ![N, C]⟩ : Shape).Pads (![0, 0] : Fin 2 → Nat) ![hi, 0] ![0, 0] ⟨2, ![K, C]⟩) (hu : 0 < u.numel)
    (s : Fin K) (j : Fin C) :
    pad ⟨2, ![K, C]⟩ ![0, 0] ![hi, 0] ![0, 0] x v hp hu (ix2 s j)
      = if hs : s.val < N then x (ix2 ⟨s.val, hs⟩ j) else v (Shape.Idx.first hu) := by
  by_cases hs : s.val < N
  · rw [dif_pos hs]
    refine pad_apply_of_inside _ _ _ x v hp hu _ (ix2 (⟨s.val, hs⟩ : Fin N) j) ?_
    intro a
    match a with
    | ⟨0, _⟩ => show s.val = 0 + s.val * (0 + 1); omega
    | ⟨1, _⟩ => show j.val = 0 + j.val * (0 + 1); omega
  · rw [dif_neg hs]
    refine pad_apply_of_not_inside _ _ _ x v hp hu _ (0 : Fin 2) ?_
    intro hin
    have e : (s.val - 0) / (0 + 1) < N := hin.2.2
    exact hs (by omega)

/-- A column of n entries repeated across m columns: entry (p, q) is the column's entry p. -/
theorem bcast_col_apply {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  refine broadcastInDim_apply ![0, 1] h v (ix2 p q) (ix2 p 0) ?_
  intro a
  match a with
  | ⟨0, _⟩ =>
    show p.val = if n = 1 then 0 else p.val
    have := p.isLt
    split <;> omega
  | ⟨1, _⟩ =>
    show (0 : Nat) = if (1 : Nat) = 1 then 0 else q.val
    rfl

/-- One 32-bit float word repeated over a whole array: every entry is the value of that word. -/
theorem bcast_word_apply {t : Shape} (dims : Fin S_.rank → Fin t.rank) (h : S_.BroadcastsInDim t dims)
    (b : BitVec FTy.f32.bits) (i : t.Idx) :
    broadcastInDim t dims h (constant (F := Ideal) S_ .f32 b) i = Ideal.ofBits .f32 b := rfl

end General

/-- The lengthened table of weighted rows, as the program composes it, at one entry: the weighted row while the row
    number is below N, zero below that (the padding value is the integer zero converted to a float). -/
theorem wf_read {N K hi : Nat} (feat : FVec Ideal ⟨2, ![N, 64]⟩ .f32) (cj mask : FVec Ideal ⟨2, ![N, 1]⟩ .f32)
    (hb : (⟨2, ![N, 1]⟩ : Shape).BroadcastsInDim ⟨2, ![N, 64]⟩ ![0, 1])
    (hp : (⟨2, ![N, 64]⟩ : Shape).Pads (![0, 0] : Fin 2 → Nat) ![hi, 0] ![0, 0] ⟨2, ![K, 64]⟩) (hu : 0 < S_.numel)
    (hbits : FTy.bits .bf16 < FTy.bits .f32) (s : Fin K) (j : Fin 64) :
    (truncf .bf16 (pad ⟨2, ![K, 64]⟩ ![0, 0] ![hi, 0] ![0, 0]
        (mulf (F := Ideal) feat (broadcastInDim ⟨2, ![N, 64]⟩ ![0, 1] hb (mulf (F := Ideal) cj mask)))
        (sitofp (F := Ideal) .f32 (constantI S_ 32 0#32)) hp hu) hbits : FVec Ideal ⟨2, ![K, 64]⟩ .bf16) (ix2 s j)
      = if hs : s.val < N then Spec.wrow feat cj mask ⟨s.val, hs⟩ j else 0 := by
  rw [truncf_apply, pad_rows_apply]
  by_cases hs : s.val < N
  · rw [dif_pos hs, dif_pos hs, mulf_apply, bcast_col_apply, mulf_apply]
    rfl
  · rw [dif_neg hs, dif_neg hs, sitofp_apply]
    exact sitofp_zero (φ := .f32)

variable (m : (ℓ : Loc nD τ sig) → Buf (Elt Ideal) ℓ) (outs : Outs (F := Ideal))

/-! ## The argument arrays are never written -/

/-- After the first product, a reference that nothing so far writes still holds its launch contents. -/
theorem V4_launch (c : Dev nD) (r : Ref sig .tc) (h4 : r ∉ ([main_v22] : List (Ref sig .tc))) (h3 : r ∉ hostOps0_2_W)
    (h2 : r ∉ hostOps0_1_W) (h1 : r ∉ hostOps0_W) : V4 m outs c r = m ((c.tc : Thread nD τ).loc r) :=
  (V4_of m outs c r h4).trans <| (V3_of m c r h3).trans <| (V2_of m c r h2).trans <| (V1_of m c r h1).trans rfl

/-- Likewise after the second product. -/
theorem V8_launch (c : Dev nD) (r : Ref sig .tc) (h8 : r ∉ ([main_v47] : List (Ref sig .tc))) (h7 : r ∉ hostOps1_2_W)
    (h6 : r ∉ hostOps1_1_W) (h5 : r ∉ hostOps1_W) (h4 : r ∉ ([main_v22] : List (Ref sig .tc))) (h3 : r ∉ hostOps0_2_W)
    (h2 : r ∉ hostOps0_1_W) (h1 : r ∉ hostOps0_W) : V8 m outs c r = m ((c.tc : Thread nD τ).loc r) :=
  (V8_of m outs c r h8).trans <| (V7_of m outs c r h7).trans <| (V6_of m outs c r h6).trans <|
    (V5_of m outs c r h5).trans <| V4_launch m outs c r h4 h3 h2 h1

/-- Likewise after the third product. -/
theorem V12_launch (c : Dev nD) (r : Ref sig .tc) (h12 : r ∉ ([main_v72] : List (Ref sig .tc))) (h11 : r ∉ hostOps2_2_W)
    (h10 : r ∉ hostOps2_1_W) (h9 : r ∉ hostOps2_W) (h8 : r ∉ ([main_v47] : List (Ref sig .tc))) (h7 : r ∉ hostOps1_2_W)
    (h6 : r ∉ hostOps1_1_W) (h5 : r ∉ hostOps1_W) (h4 : r ∉ ([main_v22] : List (Ref sig .tc))) (h3 : r ∉ hostOps0_2_W)
    (h2 : r ∉ hostOps0_1_W) (h1 : r ∉ hostOps0_W) : V12 m outs c r = m ((c.tc : Thread nD τ).loc r) :=
  (V12_of m outs c r h12).trans <| (V11_of m outs c r h11).trans <| (V10_of m outs c r h10).trans <|
    (V9_of m outs c r h9).trans <| V8_launch m outs c r h8 h7 h6 h5 h4 h3 h2 h1

/-! ## The three lengthened tables of weighted rows -/

/-- The right operand of the first product: the cells' weighted rows, lengthened from 50000 to 51200 rows by zeros. -/
theorem wf_cell_apply (c : Dev nD) (s : Fin 51200) (j : Fin 64) :
    V3 m c main_v4 (ix2 s j)
      = if hs : s.val < 50000 then
          Spec.wrow (m ((c.tc : Thread nD τ).loc main_arg0)) (m ((c.tc : Thread nD τ).loc main_arg2))
            (m ((c.tc : Thread nD τ).loc main_arg8)) ⟨s.val, hs⟩ j
        else 0 := by
  have e : (V3 m c main_v4 : S51200x64.Idx → EReal)
      = truncf .bf16 (pad S51200x64 ![0, 0] ![1200, 0] ![0, 0]
          (mulf (F := Ideal) (m ((c.tc : Thread nD τ).loc main_arg0) : S50000x64.Idx → EReal)
            (broadcastInDim S50000x64 ![0, 1] bcast_S50000x1_S50000x64_0_1
              (mulf (F := Ideal) (m ((c.tc : Thread nD τ).loc main_arg2) : S50000x1.Idx → EReal)
                (m ((c.tc : Thread nD τ).loc main_arg8)))))
          (sitofp (F := Ideal) .f32 (constantI S_ 32 0#32)) pads_S50000x64_S51200x64_012000_000 h_S_) bitsLt_bf16_f32 := by
    show StableHlo.after hostOps0_2 (StableHlo.after hostOps0_1 (StableHlo.after hostOps0 (V0 m c)))
      (Proc.devRef .tc main_v4) = _
    after_results <;> rfl
  rw [e]
  exact wf_read _ _ _ _ _ _ _ s j

/-- The right operand of the second product: the genes' weighted rows (weights cj_gene, mask_rev), lengthened from
    3000 to 3072 rows by zeros. -/
theorem wf_rev_apply (c : Dev nD) (s : Fin 3072) (j : Fin 64) :
    V7 m outs c main_v29 (ix2 s j)
      = if hs : s.val < 3000 then
          Spec.wrow (m ((c.tc : Thread nD τ).loc main_arg1)) (m ((c.tc : Thread nD τ).loc main_arg4))
            (m ((c.tc : Thread nD τ).loc main_arg9)) ⟨s.val, hs⟩ j
        else 0 := by
  have e : (V7 m outs c main_v29 : S3072x64.Idx → EReal)
      = truncf .bf16 (pad S3072x64 ![0, 0] ![72, 0] ![0, 0]
          (mulf (F := Ideal) (V4 m outs c main_arg1 : S3000x64.Idx → EReal)
            (broadcastInDim S3000x64 ![0, 1] bcast_S3000x1_S3000x64_0_1
              (mulf (F := Ideal) (V4 m outs c main_arg4 : S3000x1.Idx → EReal) (V4 m outs c main_arg9))))
          (sitofp (F := Ideal) .f32 (constantI S_ 32 0#32)) pads_S3000x64_S3072x64_0720_000 h_S_) bitsLt_bf16_f32 := by
    show StableHlo.after hostOps1_2 (StableHlo.after hostOps1_1 (StableHlo.after hostOps1 (V4 m outs c)))
      (Proc.devRef .tc main_v29) = _
    after_results <;> rfl
  rw [e, V4_launch m outs c main_arg1 (by decide) (by decide) (by decide) (by decide),
    V4_launch m outs c main_arg4 (by decide) (by decide) (by decide) (by decide),
    V4_launch m outs c main_arg9 (by decide) (by decide) (by decide) (by decide)]
  exact wf_read _ _ _ _ _ _ _ s j

/-- The right operand of the third product: the genes' weighted rows (weights cjj_gene, mask_gg), lengthened from
    3000 to 3072 rows by zeros. -/
theorem wf_gg_apply (c : Dev nD) (s : Fin 3072) (j : Fin 64) :
    V11 m outs c main_v54 (ix2 s j)
      = if hs : s.val < 3000 then
          Spec.wrow (m ((c.tc : Thread nD τ).loc main_arg1)) (m ((c.tc : Thread nD τ).loc main_arg6))
            (m ((c.tc : Thread nD τ).loc main_arg10)) ⟨s.val, hs⟩ j
        else 0 := by
  have e : (V11 m outs c main_v54 : S3072x64.Idx → EReal)
      = truncf .bf16 (pad S3072x64 ![0, 0] ![72, 0] ![0, 0]
          (mulf (F := Ideal) (V8 m outs c main_arg1 : S3000x64.Idx → EReal)
            (broadcastInDim S3000x64 ![0, 1] bcast_S3000x1_S3000x64_0_1
              (mulf (F := Ideal) (V8 m outs c main_arg6 : S3000x1.Idx → EReal) (V8 m outs c main_arg10))))
          (sitofp (F := Ideal) .f32 (constantI S_ 32 0#32)) pads_S3000x64_S3072x64_0720_000 h_S_) bitsLt_bf16_f32 := by
    show StableHlo.after hostOps2_2 (StableHlo.after hostOps2_1 (StableHlo.after hostOps2 (V8 m outs c)))
      (Proc.devRef .tc main_v54) = _
    after_results <;> rfl
  rw [e, V8_launch m outs c main_arg1 (by decide) (by decide) (by decide) (by decide) (by decide) (by decide) (by decide) (by decide),
    V8_launch m outs c main_arg6 (by decide) (by decide) (by decide) (by decide) (by decide) (by decide) (by decide) (by decide),
    V8_launch m outs c main_arg10 (by decide) (by decide) (by decide) (by decide) (by decide) (by decide) (by decide) (by decide)]
  exact wf_read _ _ _ _ _ _ _ s j

/-! ## The two results -/

/-- The cell-side result: whatever the second product left, row p scaled by ci_cell[p]. -/
theorem c_out_tail (c : Dev nD) (p : Fin 50000) (q : Fin 64) :
    V13 m outs c main_v49 (ix2 p q)
      = HMul.hMul (α := EReal) (β := EReal) (γ := EReal) (outs 8 main_v47 c (ix2 p q))
          (m ((c.tc : Thread nD τ).loc main_arg3) (ix2 p 0)) := by
  have e : (V13 m outs c main_v49 : S50000x64.Idx → EReal)
      = mulf (F := Ideal) (φ := .f32) (V8 m outs c main_v47 : S50000x64.Idx → EReal)
          (broadcastInDim S50000x64 ![0, 1] bcast_S50000x1_S50000x64_0_1 (V8 m outs c main_arg3 : S50000x1.Idx → EReal)) := by
    rw [V13_of m outs c main_v49 (by decide), V12_of m outs c main_v49 (by decide), V11_of m outs c main_v49 (by decide),
      V10_of m outs c main_v49 (by decide)]
    show StableHlo.after hostOps2 (V8 m outs c) (Proc.devRef .tc main_v49) = _
    after_results <;> rfl
  have e47 : V8 m outs c main_v47 = outs 8 main_v47 c := Function.update_self ..
  rw [e, mulf_apply, bcast_col_apply, e47,
    V8_launch m outs c main_arg3 (by decide) (by decide) (by decide) (by decide) (by decide) (by decide) (by decide) (by decide)]

/-- The gene-side result: one half of what the first product left, row p scaled by ci_gene[p], plus one half of what the
    third product left, row p scaled by cii_gene[p]. -/
theorem g_out_tail (c : Dev nD) (p : Fin 3000) (q : Fin 64) :
    V13 m outs c main_v79 (ix2 p q)
      = Spec.half * HMul.hMul (α := EReal) (β := EReal) (γ := EReal) (outs 4 main_v22 c (ix2 p q))
            (m ((c.tc : Thread nD τ).loc main_arg5) (ix2 p 0))
        + Spec.half * HMul.hMul (α := EReal) (β := EReal) (γ := EReal) (outs 12 main_v72 c (ix2 p q))
            (m ((c.tc : Thread nD τ).loc main_arg7) (ix2 p 0)) := by
  have e : (V13 m outs c main_v79 : S3000x64.Idx → EReal)
      = addf (F := Ideal) (φ := .f32)
          (mulf (F := Ideal) (φ := .f32) (broadcastInDim S3000x64 ![] bcast_S_S3000x64 (constant (F := Ideal) S_ .f32 0x3F000000#32))
            (V12 m outs c main_v24 : S3000x64.Idx → EReal))
          (mulf (F := Ideal) (φ := .f32) (broadcastInDim S3000x64 ![] bcast_S_S3000x64 (constant (F := Ideal) S_ .f32 0x3F000000#32))
            (mulf (F := Ideal) (φ := .f32) (V12 m outs c main_v72 : S3000x64.Idx → EReal)
              (broadcastInDim S3000x64 ![0, 1] bcast_S3000x1_S3000x64_0_1 (V12 m outs c main_arg7 : S3000x1.Idx → EReal)))) := by
    show StableHlo.after hostOps3 (V12 m outs c) (Proc.devRef .tc main_v79) = _
    after_results <;> rfl
  have e24 : (V12 m outs c main_v24 : S3000x64.Idx → EReal)
      = mulf (F := Ideal) (φ := .f32) (V4 m outs c main_v22 : S3000x64.Idx → EReal)
          (broadcastInDim S3000x64 ![0, 1] bcast_S3000x1_S3000x64_0_1 (V4 m outs c main_arg5 : S3000x1.Idx → EReal)) := by
    rw [V12_of m outs c main_v24 (by decide), V11_of m outs c main_v24 (by decide), V10_of m outs c main_v24 (by decide),
      V9_of m outs c main_v24 (by decide), V8_of m outs c main_v24 (by decide), V7_of m outs c main_v24 (by decide),
      V6_of m outs c main_v24 (by decide)]
    show StableHlo.after hostOps1 (V4 m outs c) (Proc.devRef .tc main_v24) = _
    after_results <;> rfl
  have e22 : V4 m outs c main_v22 = outs 4 main_v22 c := Function.update_self ..
  have e72 : V12 m outs c main_v72 = outs 12 main_v72 c := Function.update_self ..
  rw [e, addf_apply, mulf_apply, mulf_apply, mulf_apply, bcast_word_apply, bcast_col_apply, e24, mulf_apply,
    bcast_col_apply, e22, e72,
    V4_launch m outs c main_arg5 (by decide) (by decide) (by decide) (by decide),
    V12_launch m outs c main_arg7 (by decide) (by decide) (by decide) (by decide) (by decide) (by decide) (by decide)
      (by decide) (by decide) (by decide) (by decide) (by decide)]
  rfl

end Cert.KernelIdeal.Run

end
-- ==== Proof.KernelIdeal.Value.lean ====
/-
  The idealized kernel program's two results are the specification (`Spec.cOut`, `Spec.gOut`).

  Each relation's matrix product is ∑ s, adj (d, s) * wfp (s, j): adj counts the edges from node s to node d (built by
  adding a one per edge into a table of zeros whose source axis is padded), wfp is the weighted feature table padded
  with zero rows. Over the extended reals a count of ones times x is x added that many times (the one
  distributive law that holds there: both summands non-negative), so the product is ∑ over the edges into d of the
  source's weighted row — what the reference's gather and scatter-add compute directly. Scaling by ci[d] and the two
  halves are the same operations on both sides.
-/
import proofs.«403239_j43198781063350_1_alg».proof.Proof.KernelIdeal.Run
import proofs.«403239_j43198781063350_1_alg».proof.Proof.KernelIdeal.Value0
import proofs.«403239_j43198781063350_1_alg».proof.Proof.KernelIdeal.Value1
import proofs.«403239_j43198781063350_1_alg».proof.Proof.KernelIdeal.Value2
import proofs.«403239_j43198781063350_1_alg».proof.Proof.KernelIdeal.HostAdj
import proofs.«403239_j43198781063350_1_alg».proof.Proof.KernelIdeal.HostRows
import proofs.«403239_j43198781063350_1_alg».proof.Proof.LibAdjacencySum
import proofs.«403239_j43198781063350_1_alg».proof.Proof.Spec

noncomputable section

namespace Cert.KernelIdeal.Run

open Cert.KernelIdeal Cert.KernelIdeal.Gen Idealize.ShloMosaic Idealize.ShloMosaic.TcCoe Idealize.ShloMosaic.ValueIdx

variable (m : (ℓ : Loc nD τ sig) → Buf (Elt Ideal) ℓ)

/-- The cell-to-gene relation before scaling: what the first region leaves at (d, j) is the sum, over the edges into
    gene d, of the source cell's weighted row at j. -/
theorem rel_cg (c : Dev nD) (h : (kargs m c).Ok) (d : Fin 3000) (j : Fin 64) :
    outs m 4 main_v22 c (ix2 d j)
      = ∑ e : Fin 3000000, if Spec.node (kargs m c).dst_cg h.dst_cg e = d
          then Spec.wrow (kargs m c).c_feat (kargs m c).cj_cell (kargs m c).mask_exp (Spec.node (kargs m c).src_cg h.src_cg e) j else 0 := by
  rw [outs_22]; unfold out0
  rw [out0_apply (entry0 m) c d j]
  exact Cert.LibAdjacencySum.adjacency_sum (Spec.node (kargs m c).src_cg h.src_cg) (Spec.node (kargs m c).dst_cg h.dst_cg)
    (fun s => Spec.wrow (kargs m c).c_feat (kargs m c).cj_cell (kargs m c).mask_exp s j)
    (fun d s => entry0 m c main_v21 (ix2 d s)) (fun s => entry0 m c main_v4 (ix2 s j))
    (fun d s => adj_cg_apply m c h d s) (fun s => wf_cell_apply m c s j) (by decide) d

/-- The gene-to-cell relation before scaling. -/
theorem rel_gc (c : Dev nD) (h : (kargs m c).Ok) (d : Fin 50000) (j : Fin 64) :
    outs m 8 main_v47 c (ix2 d j)
      = ∑ e : Fin 3000000, if Spec.node (kargs m c).dst_gc h.dst_gc e = d
          then Spec.wrow (kargs m c).g_feat (kargs m c).cj_gene (kargs m c).mask_rev (Spec.node (kargs m c).src_gc h.src_gc e) j else 0 := by
  rw [outs_47]; unfold out1
  rw [out1_apply (entry1' m) c d j]
  exact Cert.LibAdjacencySum.adjacency_sum (Spec.node (kargs m c).src_gc h.src_gc) (Spec.node (kargs m c).dst_gc h.dst_gc)
    (fun s => Spec.wrow (kargs m c).g_feat (kargs m c).cj_gene (kargs m c).mask_rev s j)
    (fun d s => entry1' m c main_v46 (ix2 d s)) (fun s => entry1' m c main_v29 (ix2 s j))
    (fun d s => adj_gc_apply m (outs1 m) c h d s) (fun s => wf_rev_apply m (outs1 m) c s j) (by decide) d

/-- The gene-to-gene relation before scaling. -/
theorem rel_gg (c : Dev nD) (h : (kargs m c).Ok) (d : Fin 3000) (j : Fin 64) :
    outs m 12 main_v72 c (ix2 d j)
      = ∑ e : Fin 100000, if Spec.node (kargs m c).dst_gg h.dst_gg e = d
          then Spec.wrow (kargs m c).g_feat (kargs m c).cjj_gene (kargs m c).mask_gg (Spec.node (kargs m c).src_gg h.src_gg e) j else 0 := by
  rw [outs_72]; unfold out2
  rw [out2_apply (entry2' m) c d j]
  exact Cert.LibAdjacencySum.adjacency_sum (Spec.node (kargs m c).src_gg h.src_gg) (Spec.node (kargs m c).dst_gg h.dst_gg)
    (fun s => Spec.wrow (kargs m c).g_feat (kargs m c).cjj_gene (kargs m c).mask_gg s j)
    (fun d s => entry2' m c main_v71 (ix2 d s)) (fun s => entry2' m c main_v54 (ix2 s j))
    (fun d s => adj_gg_apply m (outs2 m) c h d s) (fun s => wf_gg_apply m (outs2 m) c s j) (by decide) d

/-- The first result is the specification's. -/
theorem kernel_c_out (c : Dev nD) (h : (kargs m c).Ok) (p : Fin 50000) (q : Fin 64) :
    V13 m (outs m) c main_v49 (ix2 p q) = Spec.cOut (kargs m c) h p q := by
  rw [c_out_tail m (outs m) c p q, rel_gc m c h p q]
  rfl

/-- The second result is the specification's. -/
theorem kernel_g_out (c : Dev nD) (h : (kargs m c).Ok) (p : Fin 3000) (q : Fin 64) :
    V13 m (outs m) c main_v79 (ix2 p q) = Spec.gOut (kargs m c) h p q := by
  rw [g_out_tail m (outs m) c p q, rel_cg m c h p q, rel_gg m c h p q]
  rfl

end Cert.KernelIdeal.Run

end
-- ==== Proof.RefRun.lean ====
/-
  The reference program's run and its stages read at an index (both generated), re-exported for the hand modules
  that read the reference's two results.
-/
import proofs.«403239_j43198781063350_1_alg».proof.Proof.Gen.ReferenceIdeal.Read
-- ==== Proof.RefValue.lean ====
/-
  The reference program's two results are the specification.

  Each of the three relations is the same chain: the feature table is weighted row by row (feat[s, j] times
  cj[s] * mask[s]); the source endpoint array is normalised (a negative entry would have the table's height added);
  the weighted rows are gathered at the normalised sources, one row per edge; the gathered rows are added into a
  table of zeros at the destination endpoints; and every row of the sum is scaled by ci of its row.

  An endpoint entry that is a node number is below 2^31, so it is not negative: the normalisation keeps it, its
  signed reading is its value, the gather's clamp keeps it, and "the update's signed index is d" says "the edge's
  destination node is d". So the scatter-add into zeros, read at (d, j), is the sum over the edges whose
  destination is d of the weighted row of the edge's source at column j: the specification's sum. The relation is
  proved once over arbitrary sizes, with every operand entering through what it reads at an index, and is then
  read three times off the program's stages. The second result adds the two gene-side relations, each times the
  word of one half, which is carried as a word and never evaluated.
-/
import proofs.«403239_j43198781063350_1_alg».proof.Proof.RefRun
import proofs.«403239_j43198781063350_1_alg».proof.Proof.LibRowOps
import proofs.«403239_j43198781063350_1_alg».proof.Proof.Spec
import Idealize.ShloMosaic.Lib.StableHlo.Predicate
import Idealize.ShloMosaic.PureOps.Ideal.Laws

noncomputable section

namespace Cert.RefValue

open Idealize.ShloMosaic Idealize.ShloMosaic.ValueIdx

/-- A word below 2^31 is not negative, so the normalisation "x + N if x < 0, else x" keeps it. -/
theorem normalise_keep (x N : BitVec 32) (hx : x.toNat < 2 ^ 31) :
    Scalar.select (IntOp.cmpi .slt x 0#32) (IntOp.addi x N) x = x := by
  have h0 : IntOp.cmpi .slt x 0#32 = 0#1 := by
    refine eq_zero_of_ne_one fun h => ?_
    have := (StableHlo.Predicate.slt_iff_toNat hx (by decide)).mp h
    simp at this
  rw [h0, select_zero]

/-- Rows gathered at in-range sources and added into zeros at in-range destinations: entry (d, j) of the result is
    the sum, over the edges whose destination is d, of the table's entry at (the edge's source, j). -/
theorem scatter_gather_apply {Ns Nd E : Nat} (hNs : 0 < Ns) (hNs' : Ns ≤ 2 ^ 31) (hNd' : Nd ≤ 2 ^ 31)
    (ds : ScatterDims ⟨2, ![Nd, 64]⟩ ⟨2, ![E, 1]⟩ ⟨2, ![E, 64]⟩)
    (hu : ds.updateWindowDims = [1]) (hi : ds.insertedWindowDims = [0]) (hs : ds.scatterDimsToOperandDims = [0])
    (hv : ds.indexVectorDim = 1)
    (dg : GatherDims ⟨2, ![Ns, 64]⟩ ⟨2, ![E, 1]⟩ ⟨2, ![E, 64]⟩)
    (ho : dg.offsetDims = [1]) (hc : dg.collapsedSliceDims = [0]) (hb : dg.operandBatchingDims = [])
    (hsb : dg.startIndicesBatchingDims = []) (hm : dg.startIndexMap = [0]) (hgv : dg.indexVectorDim = 1)
    (hsz : dg.sliceSizes = ![1, 64])
    (zeros : (⟨2, ![Nd, 64]⟩ : Shape).Idx → EReal) (hz : ∀ i, zeros i = 0)
    (wf : (⟨2, ![Ns, 64]⟩ : Shape).Idx → EReal)
    (sidx didx : IVec ⟨2, ![E, 1]⟩ 32) (src dst : IVec ⟨1, ![E]⟩ 32)
    (hsrc : Spec.InRange src Ns) (hdst : Spec.InRange dst Nd)
    (hsi : ∀ e, sidx (ix2 e 0) = src (ix1 e)) (hdi : ∀ e, didx (ix2 e 0) = dst (ix1 e))
    (d : Fin Nd) (j : Fin 64) :
    Host.scatterAdd (F := Ideal) (φ := .f32) ds zeros didx (Host.gather dg wf sidx) (ix2 d j)
      = ∑ e : Fin E, if Spec.node dst hdst e = d then wf (ix2 (Spec.node src hsrc e) j) else 0 := by
  show Ideal.hostScatterAdd ds zeros didx (Host.gather dg wf sidx) (ix2 d j) = _
  rw [LibRowOps.scatterAdd_rows_apply ds hu hi hs hv, hz, zero_add]
  refine Finset.sum_congr rfl fun e _ => ?_
  have hd : (didx (ix2 e 0)).toInt = ((dst (ix1 e)).toNat : ℤ) := by
    rw [hdi e]
    exact StableHlo.Predicate.toInt_eq_toNat_of_lt (lt_of_lt_of_le (hdst e) hNd')
  have hsI : (sidx (ix2 e 0)).toInt = ((src (ix1 e)).toNat : ℤ) := by
    rw [hsi e]
    exact StableHlo.Predicate.toInt_eq_toNat_of_lt (lt_of_lt_of_le (hsrc e) hNs')
  have hcond : ((didx (ix2 e 0)).toInt = (d.val : ℤ)) ↔ Spec.node dst hdst e = d := by
    rw [hd, Fin.ext_iff, Int.natCast_inj]
    rfl
  have hrow : LibRowOps.clampRow Ns hNs (sidx (ix2 e 0)).toInt = Spec.node src hsrc e := by
    refine Fin.ext ?_
    show (min (max (sidx (ix2 e 0)).toInt 0) ((Ns - 1 : Nat) : Int)).toNat = (src (ix1 e)).toNat
    rw [hsI]
    have := hsrc e
    omega
  rw [LibRowOps.gather_rows_apply hNs dg ho hc hb hsb hm hgv hsz, hrow]
  simp only [hcond]

/-- A map of rank-2 indices that keeps the row and sends the column to 0, at (s, j). -/
theorem col0_of {n m : Nat} (g : (⟨2, ![n, m]⟩ : Shape).Idx → (⟨2, ![n, 1]⟩ : Shape).Idx)
    (h0 : ∀ i, (g i 0).val = (i 0).val) (s : Fin n) (j : Fin m) : g (ix2 s j) = ix2 s 0 := by
  funext a
  match a with
  | ⟨0, _⟩ => exact Fin.ext (h0 _)
  | ⟨1, _⟩ => exact Fin.ext (Nat.lt_one_iff.mp (g _ 1).isLt)

/-- A map from the indices of a one-column array to those of the flat array that keeps the row, at (e, 0). -/
theorem flat_of {n : Nat} (g : (⟨2, ![n, 1]⟩ : Shape).Idx → (⟨1, ![n]⟩ : Shape).Idx)
    (h0 : ∀ i, (g i 0).val = (i 0).val) (e : Fin n) : g (ix2 e 0) = ix1 e := by
  funext a
  match a with
  | ⟨0, _⟩ => exact Fin.ext (h0 _)

/-- One relation read at a destination node and a feature column: the weighted source rows that arrive, summed,
    times the destination's scale. Every operand enters through what it reads at an index. -/
theorem relation_apply {Ns Nd E : Nat} (hNs : 0 < Ns) (hNs' : Ns ≤ 2 ^ 31) (hNd' : Nd ≤ 2 ^ 31)
    (ds : ScatterDims ⟨2, ![Nd, 64]⟩ ⟨2, ![E, 1]⟩ ⟨2, ![E, 64]⟩)
    (hu : ds.updateWindowDims = [1]) (hi : ds.insertedWindowDims = [0]) (hs : ds.scatterDimsToOperandDims = [0])
    (hv : ds.indexVectorDim = 1)
    (dg : GatherDims ⟨2, ![Ns, 64]⟩ ⟨2, ![E, 1]⟩ ⟨2, ![E, 64]⟩)
    (ho : dg.offsetDims = [1]) (hc : dg.collapsedSliceDims = [0]) (hb : dg.operandBatchingDims = [])
    (hsb : dg.startIndicesBatchingDims = []) (hm : dg.startIndexMap = [0]) (hgv : dg.indexVectorDim = 1)
    (hsz : dg.sliceSizes = ![1, 64])
    (zeros : (⟨2, ![Nd, 64]⟩ : Shape).Idx → EReal) (hz : ∀ i, zeros i = 0)
    (wf : (⟨2, ![Ns, 64]⟩ : Shape).Idx → EReal)
    (feat : (⟨2, ![Ns, 64]⟩ : Shape).Idx → EReal) (cj mask : (⟨2, ![Ns, 1]⟩ : Shape).Idx → EReal)
    (hwf : ∀ s j, wf (ix2 s j) = feat (ix2 s j) * (cj (ix2 s 0) * mask (ix2 s 0)))
    (sidx didx : IVec ⟨2, ![E, 1]⟩ 32) (src dst : IVec ⟨1, ![E]⟩ 32)
    (hsrc : Spec.InRange src Ns) (hdst : Spec.InRange dst Nd)
    (hsi : ∀ e, sidx (ix2 e 0) = src (ix1 e)) (hdi : ∀ e, didx (ix2 e 0) = dst (ix1 e))
    (civ : (⟨2, ![Nd, 64]⟩ : Shape).Idx → EReal) (ci : (⟨2, ![Nd, 1]⟩ : Shape).Idx → EReal)
    (hci : ∀ d j, civ (ix2 d j) = ci (ix2 d 0))
    (d : Fin Nd) (j : Fin 64) :
    Host.scatterAdd (F := Ideal) (φ := .f32) ds zeros didx (Host.gather dg wf sidx) (ix2 d j) * civ (ix2 d j)
      = Spec.conv (Spec.wrow feat cj mask) ci (Spec.node src hsrc) (Spec.node dst hdst) d j := by
  rw [scatter_gather_apply hNs hNs' hNd' ds hu hi hs hv dg ho hc hb hsb hm hgv hsz zeros hz wf sidx didx src dst
    hsrc hdst hsi hdi d j, hci d j]
  unfold Spec.conv Spec.wrow
  simp only [hwf]

open Cert.ReferenceIdeal Cert.ReferenceIdeal.Gen

/-- The gene-to-cell relation, as the reference computes it. -/
theorem ref_c_out (A : Spec.Args) (h : A.Ok) (p : Fin 50000) (q : Fin 64) :
    Cert.ReferenceIdeal.Read.val_main_v29 (F := Ideal) A.g_feat A.ci_cell A.cj_gene A.mask_rev A.src_gc A.dst_gc (ix2 p q)
      = Spec.cOut A h p q := by
  rw [Read.val_main_v29_apply, Ideal.mulf_def]
  unfold Read.val_main_v27 Spec.cOut
  refine relation_apply (Ns := 3000) (Nd := 50000) (E := 3000000) (by decide) (by decide) (by decide)
    scatter_S50000x64_S3000000x1_S3000000x64_1_0_0_1 rfl rfl rfl rfl
    gather_S3000x64_S3000000x1_S3000000x64_1_0_n_n_0_1_164 rfl rfl rfl rfl rfl rfl rfl
    (Read.val_main_v25 (F := Ideal)) ?hz (Read.val_main_v17 (F := Ideal) A.g_feat A.cj_gene A.mask_rev)
    A.g_feat A.cj_gene A.mask_rev ?hwf
    (Read.val_main_v23 (F := Ideal) A.src_gc) (Read.val_main_v26 (F := Ideal) A.dst_gc) A.src_gc A.dst_gc h.src_gc h.dst_gc
    ?hsi ?hdi (Read.val_main_v28 (F := Ideal) A.ci_cell) A.ci_cell ?hci p q
  case hz =>
    intro i
    rw [Read.val_main_v25_apply, Read.val_main_cst_3_apply, Ideal.ofBits_def, Ideal.ofBits_zero_f32]
  case hwf =>
    intro s j
    rw [Read.val_main_v17_apply, Read.val_main_v16_apply, Read.val_main_v15_apply, Ideal.mulf_def, Ideal.mulf_def,
      col0_of Read.idx_main_v16 (fun _ => rfl) s j]
  case hsi =>
    intro e
    rw [Read.val_main_v23_apply, Read.val_main_v22_apply, Read.val_main_v19_apply, Read.val_main_v21_apply,
      flat_of Read.idx_main_v23 (fun _ => rfl) e, Read.val_main_v18_apply, Read.val_main_c_1_apply,
      Read.val_main_v20_apply, Read.val_main_c_2_apply]
    exact normalise_keep _ _ (lt_of_lt_of_le (h.src_gc e) (by decide))
  case hdi =>
    intro e
    rw [Read.val_main_v26_apply, flat_of Read.idx_main_v26 (fun _ => rfl) e]
  case hci =>
    intro d j
    rw [Read.val_main_v28_apply, col0_of Read.idx_main_v28 (fun _ => rfl) d j]

/-- The cell-to-gene relation, as the reference computes it. -/
theorem ref_cg (A : Spec.Args) (h : A.Ok) (p : Fin 3000) (q : Fin 64) :
    Cert.ReferenceIdeal.Read.val_main_v14 (F := Ideal) A.c_feat A.cj_cell A.ci_gene A.mask_exp A.src_cg A.dst_cg (ix2 p q)
      = Spec.conv (Spec.wrow A.c_feat A.cj_cell A.mask_exp) A.ci_gene (Spec.node A.src_cg h.src_cg)
          (Spec.node A.dst_cg h.dst_cg) p q := by
  rw [Read.val_main_v14_apply, Ideal.mulf_def]
  unfold Read.val_main_v12
  refine relation_apply (Ns := 50000) (Nd := 3000) (E := 3000000) (by decide) (by decide) (by decide)
    scatter_S3000x64_S3000000x1_S3000000x64_1_0_0_1 rfl rfl rfl rfl
    gather_S50000x64_S3000000x1_S3000000x64_1_0_n_n_0_1_164 rfl rfl rfl rfl rfl rfl rfl
    (Read.val_main_v10 (F := Ideal)) ?hz (Read.val_main_v2 (F := Ideal) A.c_feat A.cj_cell A.mask_exp)
    A.c_feat A.cj_cell A.mask_exp ?hwf
    (Read.val_main_v8 (F := Ideal) A.src_cg) (Read.val_main_v11 (F := Ideal) A.dst_cg) A.src_cg A.dst_cg h.src_cg h.dst_cg
    ?hsi ?hdi (Read.val_main_v13 (F := Ideal) A.ci_gene) A.ci_gene ?hci p q
  case hz =>
    intro i
    rw [Read.val_main_v10_apply, Read.val_main_cst_apply, Ideal.ofBits_def, Ideal.ofBits_zero_f32]
  case hwf =>
    intro s j
    rw [Read.val_main_v2_apply, Read.val_main_v1_apply, Read.val_main_v0_apply, Ideal.mulf_def, Ideal.mulf_def,
      col0_of Read.idx_main_v1 (fun _ => rfl) s j]
  case hsi =>
    intro e
    rw [Read.val_main_v8_apply, Read.val_main_v7_apply, Read.val_main_v4_apply, Read.val_main_v6_apply,
      flat_of Read.idx_main_v8 (fun _ => rfl) e, Read.val_main_v3_apply, Read.val_main_c_apply,
      Read.val_main_v5_apply, Read.val_main_c_0_apply]
    exact normalise_keep _ _ (lt_of_lt_of_le (h.src_cg e) (by decide))
  case hdi =>
    intro e
    rw [Read.val_main_v11_apply, flat_of Read.idx_main_v11 (fun _ => rfl) e]
  case hci =>
    intro d j
    rw [Read.val_main_v13_apply, col0_of Read.idx_main_v13 (fun _ => rfl) d j]

/-- The gene-to-gene relation, as the reference computes it. -/
theorem ref_gg (A : Spec.Args) (h : A.Ok) (p : Fin 3000) (q : Fin 64) :
    Cert.ReferenceIdeal.Read.val_main_v44 (F := Ideal) A.g_feat A.cjj_gene A.cii_gene A.mask_gg A.src_gg A.dst_gg (ix2 p q)
      = Spec.conv (Spec.wrow A.g_feat A.cjj_gene A.mask_gg) A.cii_gene (Spec.node A.src_gg h.src_gg)
          (Spec.node A.dst_gg h.dst_gg) p q := by
  rw [Read.val_main_v44_apply, Ideal.mulf_def]
  unfold Read.val_main_v42
  refine relation_apply (Ns := 3000) (Nd := 3000) (E := 100000) (by decide) (by decide) (by decide)
    scatter_S3000x64_S100000x1_S100000x64_1_0_0_1 rfl rfl rfl rfl
    gather_S3000x64_S100000x1_S100000x64_1_0_n_n_0_1_164 rfl rfl rfl rfl rfl rfl rfl
    (Read.val_main_v40 (F := Ideal)) ?hz (Read.val_main_v32 (F := Ideal) A.g_feat A.cjj_gene A.mask_gg)
    A.g_feat A.cjj_gene A.mask_gg ?hwf
    (Read.val_main_v38 (F := Ideal) A.src_gg) (Read.val_main_v41 (F := Ideal) A.dst_gg) A.src_gg A.dst_gg h.src_gg h.dst_gg
    ?hsi ?hdi (Read.val_main_v43 (F := Ideal) A.cii_gene) A.cii_gene ?hci p q
  case hz =>
    intro i
    rw [Read.val_main_v40_apply, Read.val_main_cst_6_apply, Ideal.ofBits_def, Ideal.ofBits_zero_f32]
  case hwf =>
    intro s j
    rw [Read.val_main_v32_apply, Read.val_main_v31_apply, Read.val_main_v30_apply, Ideal.mulf_def, Ideal.mulf_def,
      col0_of Read.idx_main_v31 (fun _ => rfl) s j]
  case hsi =>
    intro e
    rw [Read.val_main_v38_apply, Read.val_main_v37_apply, Read.val_main_v34_apply, Read.val_main_v36_apply,
      flat_of Read.idx_main_v38 (fun _ => rfl) e, Read.val_main_v33_apply, Read.val_main_c_4_apply,
      Read.val_main_v35_apply, Read.val_main_c_5_apply]
    exact normalise_keep _ _ (lt_of_lt_of_le (h.src_gg e) (by decide))
  case hdi =>
    intro e
    rw [Read.val_main_v41_apply, flat_of Read.idx_main_v41 (fun _ => rfl) e]
  case hci =>
    intro d j
    rw [Read.val_main_v43_apply, col0_of Read.idx_main_v43 (fun _ => rfl) d j]

/-- The second result: one half of each of the two gene-side relations, the half kept as its word. -/
theorem ref_g_out (A : Spec.Args) (h : A.Ok) (p : Fin 3000) (q : Fin 64) :
    Cert.ReferenceIdeal.Read.val_main_v49 (F := Ideal) A.c_feat A.g_feat A.cj_cell A.ci_gene A.cjj_gene A.cii_gene
        A.mask_exp A.mask_gg A.src_cg A.dst_cg A.src_gg A.dst_gg (ix2 p q)
      = Spec.gOut A h p q := by
  rw [Read.val_main_v49_apply, Read.val_main_v46_apply, Read.val_main_v48_apply, Read.val_main_v45_apply,
    Read.val_main_v47_apply, Read.val_main_cst_7_apply, Read.val_main_cst_8_apply, ref_cg A h p q, ref_gg A h p q,
    Ideal.addf_def, Ideal.mulf_def, Ideal.mulf_def, Ideal.ofBits_def]
  rfl

end Cert.RefValue

end
-- ==== Proof.PreDecode.lean ====
/-
  The precondition read back as index ranges.

  The precondition is one conjunction of "every element of this mask is set" statements. The last six of them speak
  of the six edge-endpoint arrays: the mask of array a with bound N is (a >= 0) and (a < N), both comparisons signed.
  A 32-bit word that is signed-nonnegative and signed-below N (N below 2^31) is, read as a natural number, below N.
  So each endpoint array holds node numbers of the side it indexes, which is what the common result assumes.
  The eleven conjuncts about the float arrays are carried along unopened.
-/
import Idealize.ShloMosaic.Lib.ReduceAll
import Idealize.ShloMosaic.Lib.StableHlo.Predicate
import proofs.«403239_j43198781063350_1_alg».proof.Pre_finite_inputs
import proofs.«403239_j43198781063350_1_alg».proof.Proof.Spec

namespace Cert.PreDecode

open Idealize.ShloMosaic Idealize.ShloMosaic.ValueIdx

/-- The scalar shape has exactly one index. -/
instance : Subsingleton (⟨0, ![]⟩ : Shape).Idx := ⟨fun _ _ => funext fun d => d.elim0⟩

/-- One mask bit: a word that tests signed-nonnegative and signed-below a natural number k under 2^31 has, as a
    natural number, a value below k. (Nonnegative means the top bit is clear, so the signed and the unsigned reading
    agree; the literal k is below 2^31, so it too reads the same both ways.) -/
theorem word_lt {x : BitVec 32} {k : Nat} (hk : k < 2 ^ 31)
    (h : IntOp.andi (IntOp.cmpi .sge x 0#32) (IntOp.cmpi .slt x (BitVec.ofNat 32 k)) = 1#1) : x.toNat < k := by
  obtain ⟨h0, h1⟩ := IntOp.andi_eq_one.1 h
  rw [IntOp.cmpi_sge] at h0
  rw [IntOp.cmpi_slt] at h1
  have e0 : (0#32 : BitVec 32).toInt = 0 := by decide
  have ek : (BitVec.ofNat 32 k).toInt = k := StableHlo.Predicate.toInt_ofNat_small k hk
  have hc := BitVec.toInt_eq_toNat_cond x
  have hl := x.isLt
  split at hc <;> omega

/-- One conjunct: if "all of (a >= 0) and (a < k)" came out set, every entry of a is a number below k. The all-reduction
    being set makes every mask bit set; the two broadcast scalars read as the constants 0 and k at every position. -/
theorem inRange_of_all {E k : Nat} (hk : k < 2 ^ 31) (a : IVec ⟨1, ![E]⟩ 32)
    (hb : (⟨0, ![]⟩ : Shape).BroadcastsInDim ⟨1, ![E]⟩ (![] : Fin 0 → Fin 1))
    (hr : (⟨1, ![E]⟩ : Shape).ReducesTo [0] ⟨0, ![]⟩) (hu : 0 < (⟨0, ![]⟩ : Shape).numel) (init : IVec ⟨0, ![]⟩ 1)
    (h : Host.reduce IntOp.andi
          (andi (cmpi .sge a (broadcastInDim ⟨1, ![E]⟩ ![] hb (constantI ⟨0, ![]⟩ 32 0#32)))
            (cmpi .slt a (broadcastInDim ⟨1, ![E]⟩ ![] hb (constantI ⟨0, ![]⟩ 32 (BitVec.ofNat 32 k)))))
          init hr hu ix0 = 1#1) : Spec.InRange a k := by
  intro e
  have he := Host.reduce_andi_all _ init hr hu ix0 h (ix1 e)
  exact word_lt hk he

open Cert.Pre_finite_inputs in
/-- The tail of the conjunction, from the point where only the six endpoint conjuncts remain to be joined on: whatever
    the conjunction of the float conjuncts so far (v48) and the two float arrays still in flight (v49, v50) are, the
    whole being set gives the six ranges. -/
theorem ranges_of_tail [Facts] (a11 a12 a13 a14 : IVec S3000000 32) (a15 a16 : IVec S100000 32) (v48 : IVec S_ 1)
    (v49 v50 : FVec Ideal S3000x1 .f32)
    (h : fn_part3 (F := Ideal) a11 a12 a13 a14 a15 a16 v48 v49 v50 ix0 = 1#1) :
    Spec.InRange a11 50000 ∧ Spec.InRange a12 3000 ∧ Spec.InRange a13 3000 ∧ Spec.InRange a14 50000
      ∧ Spec.InRange a15 3000 ∧ Spec.InRange a16 3000 := by
  dsimp only [fn_part3, fn_part4, fn_part5] at h
  have andi_at : ∀ x y : IVec S_ 1, andi x y ix0 = IntOp.andi (x ix0) (y ix0) := fun _ _ => rfl
  simp only [andi_at, IntOp.andi_eq_one] at h
  obtain ⟨⟨⟨⟨⟨⟨-, h1⟩, h2⟩, h3⟩, h4⟩, h5⟩, h6⟩ := h
  exact ⟨inRange_of_all (by norm_num) a11 _ _ _ _ h1, inRange_of_all (by norm_num) a12 _ _ _ _ h2,
    inRange_of_all (by norm_num) a13 _ _ _ _ h3, inRange_of_all (by norm_num) a14 _ _ _ _ h4,
    inRange_of_all (by norm_num) a15 _ _ _ _ h5, inRange_of_all (by norm_num) a16 _ _ _ _ h6⟩

open Cert.Pre_finite_inputs in
/-- The precondition gives the index ranges: the whole conjunction is the float conjuncts joined, one after another, to
    the six endpoint conjuncts; its value at the one scalar index being set is the tail statement above. -/
theorem ok_of_pre [Cert.Pre_finite_inputs.Facts] (A : Spec.Args)
    (h : Cert.Pre_finite_inputs.fn (F := Ideal) A.c_feat A.g_feat A.cj_cell A.ci_cell A.cj_gene A.ci_gene A.cjj_gene
      A.cii_gene A.mask_exp A.mask_rev A.mask_gg A.src_cg A.dst_cg A.src_gc A.dst_gc A.src_gg A.dst_gg = fun _ => 1#1) :
    A.Ok := by
  have h0 := congrFun h ix0
  dsimp only [fn, fn_part1, fn_part2] at h0
  obtain ⟨r1, r2, r3, r4, r5, r6⟩ := ranges_of_tail _ _ _ _ _ _ _ _ _ h0
  exact ⟨r1, r2, r3, r4, r5, r6⟩

end Cert.PreDecode
-- ==== Proof.lean ====
/-
  A bipartite graph convolution: three relations (cell to gene, gene to cell, gene to gene), each "send every edge's
  weighted source row to its destination, sum there, scale". The reference gathers the source rows edge by edge and
  scatter-adds them. The kernel instead counts the edges between every pair of nodes into an adjacency table (one per
  relation, its source axis padded to a multiple of the block width), pads the weighted rows with zeros, and multiplies
  the two on the matrix unit: the first product in 40 steps along the contracted axis with a scratch accumulator carried
  from step to step, the other two one row block per step.

  On the extended reals the two agree wherever the six endpoint arrays hold node numbers in range — the domain on which
  the reference's own row gather and segment sum index inside their tables; outside it the reference clamps a source
  and drops a destination while the kernel's padded table drops or misplaces the edge, so the added precondition is
  needed. Inside it, a count of ones times x is x added that many times (both summands non-negative: the one
  distributive law the extended reals keep), sums may be regrouped, and the padding contributes zeros.

  The frames: every host operation writes its own result buffer only; each product's pipeline leaves its two input
  arrays as found and its output array at a named value; so the seventeen arguments end as launched. Nothing in the
  kernels' control depends on an input's value, so the frames need no precondition.
-/
import proofs.«403239_j43198781063350_1_alg».proof.Defs
import proofs.«403239_j43198781063350_1_alg».proof.Proof.Gen.Kernel
import proofs.«403239_j43198781063350_1_alg».proof.Proof.Gen.KernelIdeal
import proofs.«403239_j43198781063350_1_alg».proof.Proof.Gen.ReferenceIdeal
import proofs.«403239_j43198781063350_1_alg».proof.Proof.Gen.Pre_finite_inputs
import proofs.«403239_j43198781063350_1_alg».proof.Proof.Kernel.Run
import proofs.«403239_j43198781063350_1_alg».proof.Proof.KernelIdeal.Run
import proofs.«403239_j43198781063350_1_alg».proof.Proof.KernelIdeal.Value
import proofs.«403239_j43198781063350_1_alg».proof.Proof.RefValue
import proofs.«403239_j43198781063350_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments as launched. -/
theorem frame_k : Cert.frame_Kernel := fun m ρ _ => Cert.Kernel.Run.frame m ρ

/-- So does the idealized kernel program. -/
theorem frame_ki : Cert.frame_KernelIdeal := fun m ρ _ => Cert.KernelIdeal.Run.frame m ρ

/-- The reference is host operations only: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The printed precondition, on the kernel program's arguments, puts every endpoint array in range. -/
theorem ok_of_pre (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.Run.kargs m c).Ok :=
  Cert.PreDecode.ok_of_pre (Cert.KernelIdeal.Run.kargs m c) (hpre c)

set_option maxHeartbeats 1000000 in
/-- Both idealized programs, from memories that agree on the arguments, end with the specification's two arrays: the
    kernel's results are named by its run and read at an index as the specification; the reference's run ends at the
    composed term of its operations, read at an index as the same specification. -/
theorem algebraic : Cert.algebraic_KernelIdeal_ReferenceIdeal := by
  intro m ρ m' ρ' hpre hagree
  refine ⟨fun c => Cert.KernelIdeal.Gen.V13 m (Cert.KernelIdeal.Run.outs m) c Cert.KernelIdeal.main_v49,
    fun c => Cert.KernelIdeal.Gen.V13 m (Cert.KernelIdeal.Run.outs m) c Cert.KernelIdeal.main_v79, ?_, ?_⟩
  · refine (θ_run Cert.KernelIdeal.defs _ _).mono (fun r h c => ?_) (Cert.KernelIdeal.Run.run_all (F := Ideal) m ρ)
    exact ⟨h c _ (Cert.KernelIdeal.Run.mem_uc Cert.KernelIdeal.main_v49 (by decide)),
      h c _ (Cert.KernelIdeal.Run.mem_uc Cert.KernelIdeal.main_v79 (by decide)),
      (h c _ (Cert.KernelIdeal.Run.mem_uc Cert.KernelIdeal.main_arg0 (by decide))).trans (Cert.KernelIdeal.Gen.V13_main_arg0 m (Cert.KernelIdeal.Run.outs m) c),
      (h c _ (Cert.KernelIdeal.Run.mem_uc Cert.KernelIdeal.main_arg1 (by decide))).trans (Cert.KernelIdeal.Gen.V13_main_arg1 m (Cert.KernelIdeal.Run.outs m) c),
      (h c _ (Cert.KernelIdeal.Run.mem_uc Cert.KernelIdeal.main_arg2 (by decide))).trans (Cert.KernelIdeal.Gen.V13_main_arg2 m (Cert.KernelIdeal.Run.outs m) c),
      (h c _ (Cert.KernelIdeal.Run.mem_uc Cert.KernelIdeal.main_arg3 (by decide))).trans (Cert.KernelIdeal.Gen.V13_main_arg3 m (Cert.KernelIdeal.Run.outs m) c),
      (h c _ (Cert.KernelIdeal.Run.mem_uc Cert.KernelIdeal.main_arg4 (by decide))).trans (Cert.KernelIdeal.Gen.V13_main_arg4 m (Cert.KernelIdeal.Run.outs m) c),
      (h c _ (Cert.KernelIdeal.Run.mem_uc Cert.KernelIdeal.main_arg5 (by decide))).trans (Cert.KernelIdeal.Gen.V13_main_arg5 m (Cert.KernelIdeal.Run.outs m) c),
      (h c _ (Cert.KernelIdeal.Run.mem_uc Cert.KernelIdeal.main_arg6 (by decide))).trans (Cert.KernelIdeal.Gen.V13_main_arg6 m (Cert.KernelIdeal.Run.outs m) c),
      (h c _ (Cert.KernelIdeal.Run.mem_uc Cert.KernelIdeal.main_arg7 (by decide))).trans (Cert.KernelIdeal.Gen.V13_main_arg7 m (Cert.KernelIdeal.Run.outs m) c),
      (h c _ (Cert.KernelIdeal.Run.mem_uc Cert.KernelIdeal.main_arg8 (by decide))).trans (Cert.KernelIdeal.Gen.V13_main_arg8 m (Cert.KernelIdeal.Run.outs m) c),
      (h c _ (Cert.KernelIdeal.Run.mem_uc Cert.KernelIdeal.main_arg9 (by decide))).trans (Cert.KernelIdeal.Gen.V13_main_arg9 m (Cert.KernelIdeal.Run.outs m) c),
      (h c _ (Cert.KernelIdeal.Run.mem_uc Cert.KernelIdeal.main_arg10 (by decide))).trans (Cert.KernelIdeal.Gen.V13_main_arg10 m (Cert.KernelIdeal.Run.outs m) c),
      (h c _ (Cert.KernelIdeal.Run.mem_uc Cert.KernelIdeal.main_arg11 (by decide))).trans (Cert.KernelIdeal.Gen.V13_main_arg11 m (Cert.KernelIdeal.Run.outs m) c),
      (h c _ (Cert.KernelIdeal.Run.mem_uc Cert.KernelIdeal.main_arg12 (by decide))).trans (Cert.KernelIdeal.Gen.V13_main_arg12 m (Cert.KernelIdeal.Run.outs m) c),
      (h c _ (Cert.KernelIdeal.Run.mem_uc Cert.KernelIdeal.main_arg13 (by decide))).trans (Cert.KernelIdeal.Gen.V13_main_arg13 m (Cert.KernelIdeal.Run.outs m) c),
      (h c _ (Cert.KernelIdeal.Run.mem_uc Cert.KernelIdeal.main_arg14 (by decide))).trans (Cert.KernelIdeal.Gen.V13_main_arg14 m (Cert.KernelIdeal.Run.outs m) c),
      (h c _ (Cert.KernelIdeal.Run.mem_uc Cert.KernelIdeal.main_arg15 (by decide))).trans (Cert.KernelIdeal.Gen.V13_main_arg15 m (Cert.KernelIdeal.Run.outs m) c),
      (h c _ (Cert.KernelIdeal.Run.mem_uc Cert.KernelIdeal.main_arg16 (by decide))).trans (Cert.KernelIdeal.Gen.V13_main_arg16 m (Cert.KernelIdeal.Run.outs m) c)⟩
  · refine (θ_run Cert.ReferenceIdeal.defs _ _).mono (fun r h c => ⟨?_, ?_, (h c).2.2⟩)
      (Cert.ReferenceIdeal.Value.run (F := Ideal) m' ρ')
    · rw [(h c).1]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
      rw [Cert.ReferenceIdeal.Read.val_main_v29_eq]
      funext i
      obtain ⟨p, q, rfl⟩ : ∃ (p : Fin 50000) (q : Fin 64), i = ix2 p q := ⟨i 0, i 1, eq_ix2 i⟩
      exact (Cert.RefValue.ref_c_out (Cert.KernelIdeal.Run.kargs m c) (ok_of_pre m hpre c) p q).trans
        (Cert.KernelIdeal.Run.kernel_c_out m c (ok_of_pre m hpre c) p q).symm
    · rw [(h c).2.1]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
      rw [Cert.ReferenceIdeal.Read.val_main_v49_eq]
      funext i
      obtain ⟨p, q, rfl⟩ : ∃ (p : Fin 3000) (q : Fin 64), i = ix2 p q := ⟨i 0, i 1, eq_ix2 i⟩
      exact (Cert.RefValue.ref_g_out (Cert.KernelIdeal.Run.kargs m c) (ok_of_pre m hpre c) p q).trans
        (Cert.KernelIdeal.Run.kernel_g_out m c (ok_of_pre m hpre c) p q).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
